-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 16384]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S2048x16384 : Shape := ⟨2, ![2048, 16384]⟩
abbrev S_ : Shape := ⟨0, ![]⟩

class Facts : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel

variable [Facts]

def fn {F : FTy → Type} [FloatOps F] (main_arg0 : FVec F S2048x16384 .f32) : IVec S_ 1 :=
  let main_v0 : FVec F S2048x16384 .f32 := Host.absf main_arg0
  let main_cst : FVec F S_ .f32 := constant S_ .f32 0x7F800000#32
  let main_v1 : FVec F S2048x16384 .f32 := broadcastInDim S2048x16384 ![] bcast_S_S2048x16384 main_cst
  let main_v2 : IVec S2048x16384 1 := cmpf .olt main_v0 main_v1
  let main_c : IVec S_ 1 := constantI S_ 1 1#1
  let main_v3 : IVec S_ 1 := (fun x v => Host.reduce IntOp.andi x v reducesTo_S2048x16384_S_d0_1 h_S_) main_v2 main_c
  main_v3
-- ==== Kernel.lean ====
abbrev S2048x1024 : Shape := ⟨2, ![2048, 1024]⟩
abbrev S1x2048 : Shape := ⟨2, ![1, 2048]⟩
abbrev S16x1x2048 : Shape := ⟨3, ![16, 1, 2048]⟩
abbrev S16 : Shape := ⟨1, ![16]⟩
abbrev S_ : Shape := ⟨0, ![]⟩
abbrev S2048 : Shape := ⟨1, ![2048]⟩
abbrev S2048x1 : Shape := ⟨2, ![2048, 1]⟩
abbrev S1 : Shape := ⟨1, ![1]⟩
abbrev S1x1x2048 : Shape := ⟨3, ![1, 1, 2048]⟩
abbrev S16x2048 : Shape := ⟨2, ![16, 2048]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S1x2048, .f32⟩
  | .local _ .vmem, ⟨3, _⟩ => ⟨S16x1x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_57 : BitVec 32 := 0#32
  let c0_i32_58 : BitVec 32 := 0#32
  ![v2.toNat, 0, 0]
def k0_dev17 : Nat :=
  let c0_i32_56 : BitVec 32 := 0#32
  let c0_i32_54 : BitVec 32 := 0#32
  let c1_i32_55 : BitVec 32 := 1#32
  let v45 : BitVec 32 := Scalar.muli c0_i32_54 c1_i32_55
  let v46 : BitVec 32 := Scalar.addi c0_i32_56 v45
  v46.toNat
def k0_dev18 : Nat :=
  let c0_i32_62 : BitVec 32 := 0#32
  let c1_i32_60 : BitVec 32 := 1#32
  let c1_i32_61 : BitVec 32 := 1#32
  let v53 : BitVec 32 := Scalar.muli c1_i32_60 c1_i32_61
  let v54 : BitVec 32 := Scalar.addi c0_i32_62 v53
  v54.toNat
def k0_dev19 : Nat :=
  let c0_i32_68 : BitVec 32 := 0#32
  let c2_i32_66 : BitVec 32 := 2#32
  let c1_i32_67 : BitVec 32 := 1#32
  let v61 : BitVec 32 := Scalar.muli c2_i32_66 c1_i32_67
  let v62 : BitVec 32 := Scalar.addi c0_i32_68 v61
  v62.toNat
def k0_dev20 : Nat :=
  let c0_i32_74 : BitVec 32 := 0#32
  let c3_i32_72 : BitVec 32 := 3#32
  let c1_i32_73 : BitVec 32 := 1#32
  let v69 : BitVec 32 := Scalar.muli c3_i32_72 c1_i32_73
  let v70 : BitVec 32 := Scalar.addi c0_i32_74 v69
  v70.toNat
def k0_dev21 : Nat :=
  let c0_i32_80 : BitVec 32 := 0#32
  let c4_i32_78 : BitVec 32 := 4#32
  let c1_i32_79 : BitVec 32 := 1#32
  let v77 : BitVec 32 := Scalar.muli c4_i32_78 c1_i32_79
  let v78 : BitVec 32 := Scalar.addi c0_i32_80 v77
  v78.toNat
def k0_dev22 : Nat :=
  let c0_i32_86 : BitVec 32 := 0#32
  let c5_i32_84 : BitVec 32 := 5#32
  let c1_i32_85 : BitVec 32 := 1#32
  let v85 : BitVec 32 := Scalar.muli c5_i32_84 c1_i32_85
  let v86 : BitVec 32 := Scalar.addi c0_i32_86 v85
  v86.toNat
def k0_dev23 : Nat :=
  let c0_i32_92 : BitVec 32 := 0#32
  let c6_i32_90 : BitVec 32 := 6#32
  let c1_i32_91 : BitVec 32 := 1#32
  let v93 : BitVec 32 := Scalar.muli c6_i32_90 c1_i32_91
  let v94 : BitVec 32 := Scalar.addi c0_i32_92 v93
  v94.toNat
def k0_dev24 : Nat :=
  let c0_i32_98 : BitVec 32 := 0#32
  let c7_i32_96 : BitVec 32 := 7#32
  let c1_i32_97 : BitVec 32 := 1#32
  let v101 : BitVec 32 := Scalar.muli c7_i32_96 c1_i32_97
  let v102 : BitVec 32 := Scalar.addi c0_i32_98 v101
  v102.toNat
def k0_dev25 : Nat :=
  let c0_i32_104 : BitVec 32 := 0#32
  let c8_i32_102 : BitVec 32 := 8#32
  let c1_i32_103 : BitVec 32 := 1#32
  let v109 : BitVec 32 := Scalar.muli c8_i32_102 c1_i32_103
  let v110 : BitVec 32 := Scalar.addi c0_i32_104 v109
  v110.toNat
def k0_dev26 : Nat :=
  let c0_i32_110 : BitVec 32 := 0#32
  let c9_i32_108 : BitVec 32 := 9#32
  let c1_i32_109 : BitVec 32 := 1#32
  let v117 : BitVec 32 := Scalar.muli c9_i32_108 c1_i32_109
  let v118 : BitVec 32 := Scalar.addi c0_i32_110 v117
  v118.toNat
def k0_dev27 : Nat :=
  let c0_i32_116 : BitVec 32 := 0#32
  let c10_i32_114 : BitVec 32 := 10#32
  let c1_i32_115 : BitVec 32 := 1#32
  let v125 : BitVec 32 := Scalar.muli c10_i32_114 c1_i32_115
  let v126 : BitVec 32 := Scalar.addi c0_i32_116 v125
  v126.toNat
def k0_dev28 : Nat :=
  let c0_i32_122 : BitVec 32 := 0#32
  let c11_i32_120 : BitVec 32 := 11#32
  let c1_i32_121 : BitVec 32 := 1#32
  let v133 : BitVec 32 := Scalar.muli c11_i32_120 c1_i32_121
  let v134 : BitVec 32 := Scalar.addi c0_i32_122 v133
  v134.toNat
def k0_dev29 : Nat :=
  let c0_i32_128 : BitVec 32 := 0#32
  let c12_i32_126 : BitVec 32 := 12#32
  let c1_i32_127 : BitVec 32 := 1#32
  let v141 : BitVec 32 := Scalar.muli c12_i32_126 c1_i32_127
  let v142 : BitVec 32 := Scalar.addi c0_i32_128 v141
  v142.toNat
def k0_dev30 : Nat :=
  let c0_i32_134 : BitVec 32 := 0#32
  let c13_i32_132 : BitVec 32 := 13#32
  let c1_i32_133 : BitVec 32 := 1#32
  let v149 : BitVec 32 := Scalar.muli c13_i32_132 c1_i32_133
  let v150 : BitVec 32 := Scalar.addi c0_i32_134 v149
  v150.toNat
def k0_dev31 : Nat :=
  let c0_i32_140 : BitVec 32 := 0#32
  let c14_i32_138 : BitVec 32 := 14#32
  let c1_i32_139 : BitVec 32 := 1#32
  let v157 : BitVec 32 := Scalar.muli c14_i32_138 c1_i32_139
  let v158 : BitVec 32 := Scalar.addi c0_i32_140 v157
  v158.toNat
def k0_dev32 : Nat :=
  let c0_i32_146 : BitVec 32 := 0#32
  let c15_i32_144 : BitVec 32 := 15#32
  let c1_i32_145 : BitVec 32 := 1#32
  let v165 : BitVec 32 := Scalar.muli c15_i32_144 c1_i32_145
  let v166 : BitVec 32 := Scalar.addi c0_i32_146 v165
  v166.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S2048 : S2048x1024.Reduces [1] S2048
  shapeCasts_S2048_S2048x1 : S2048.ShapeCasts S2048x1
  transposes_S2048x1_p1_0_S1x2048 : S2048x1.Transposes [1, 0] S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  hamt_16 : (16#32 : BitVec 32).msb = false
  inb_S16_S1_0 : ∀ a, (![0] : Fin 1 → Nat) a + S1.size a ≤ S16.size a
  squeezes_S1_S_ : S1.Squeezes S_
  squeezes_S1x1x2048_S1x2048 : S1x1x2048.Squeezes S1x2048
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  inb_S16x1x2048_S1x1x2048_0_0_0 : ∀ a, (![0, 0, 0] : Fin 3 → Nat) a + S1x1x2048.size a ≤ S16x1x2048.size a
  inb_S16x1x2048_S1x1x2048_1_0_0 : ∀ a, (![1, 0, 0] : Fin 3 → Nat) a + S1x1x2048.size a ≤ S16x1x2048.size a
  inb_S16x1x2048_S1x1x2048_2_0_0 : ∀ a, (![2, 0, 0] : Fin 3 → Nat) a + S1x1x2048.size a ≤ S16x1x2048.size a
  inb_S16x1x2048_S1x1x2048_3_0_0 : ∀ a, (![3, 0, 0] : Fin 3 → Nat) a + S1x1x2048.size a ≤ S16x1x2048.size a
  inb_S16x1x2048_S1x1x2048_4_0_0 : ∀ a, (![4, 0, 0] : Fin 3 → Nat) a + S1x1x2048.size a ≤ S16x1x2048.size a
  inb_S16x1x2048_S1x1x2048_5_0_0 : ∀ a, (![5, 0, 0] : Fin 3 → Nat) a + S1x1x2048.size a ≤ S16x1x2048.size a
  inb_S16x1x2048_S1x1x2048_6_0_0 : ∀ a, (![6, 0, 0] : Fin 3 → Nat) a + S1x1x2048.size a ≤ S16x1x2048.size a
  inb_S16x1x2048_S1x1x2048_7_0_0 : ∀ a, (![7, 0, 0] : Fin 3 → Nat) a + S1x1x2048.size a ≤ S16x1x2048.size a
  inb_S16x1x2048_S1x1x2048_8_0_0 : ∀ a, (![8, 0, 0] : Fin 3 → Nat) a + S1x1x2048.size a ≤ S16x1x2048.size a
  inb_S16x1x2048_S1x1x2048_9_0_0 : ∀ a, (![9, 0, 0] : Fin 3 → Nat) a + S1x1x2048.size a ≤ S16x1x2048.size a
  inb_S16x1x2048_S1x1x2048_10_0_0 : ∀ a, (![10, 0, 0] : Fin 3 → Nat) a + S1x1x2048.size a ≤ S16x1x2048.size a
  inb_S16x1x2048_S1x1x2048_11_0_0 : ∀ a, (![11, 0, 0] : Fin 3 → Nat) a + S1x1x2048.size a ≤ S16x1x2048.size a
  inb_S16x1x2048_S1x1x2048_12_0_0 : ∀ a, (![12, 0, 0] : Fin 3 → Nat) a + S1x1x2048.size a ≤ S16x1x2048.size a
  inb_S16x1x2048_S1x1x2048_13_0_0 : ∀ a, (![13, 0, 0] : Fin 3 → Nat) a + S1x1x2048.size a ≤ S16x1x2048.size a
  inb_S16x1x2048_S1x1x2048_14_0_0 : ∀ a, (![14, 0, 0] : Fin 3 → Nat) a + S1x1x2048.size a ≤ S16x1x2048.size a
  inb_S16x1x2048_S1x1x2048_15_0_0 : ∀ a, (![15, 0, 0] : Fin 3 → Nat) a + S1x1x2048.size a ≤ S16x1x2048.size a
  inb_S16x1x2048_S16x1x2048_0_0_0 : ∀ a, (![0, 0, 0] : Fin 3 → Nat) a + S16x1x2048.size a ≤ S16x1x2048.size a
  h_S16x1x2048 : 0 < S16x1x2048.numel
  shapeCasts_S16x1x2048_S16x2048 : S16x1x2048.ShapeCasts S16x2048
  reduces_S16x2048_S2048 : S16x2048.Reduces [0] S2048
  shapeCasts_S2048_S1x2048 : S2048.ShapeCasts S1x2048
  transposes_S1x2048_p1_0_S2048x1 : S1x2048.Transposes [1, 0] S2048x1
  broadcasts_S2048x1_S2048x1024 : S2048x1.Broadcasts S2048x1024
  hcc0_scratch2 : 2 + S16.numel ≤ 34
  hcc0_scratch3 : 18 + S16.numel ≤ 34
  k0_dev1_lt : k0_dev1 < nD
  k0_dev2_lt : k0_dev2 < nD
  k0_dev3_lt : k0_dev3 < nD
  k0_dev4_lt : k0_dev4 < nD
  k0_dev5_lt : k0_dev5 < nD
  k0_dev6_lt : k0_dev6 < nD
  k0_dev7_lt : k0_dev7 < nD
  k0_dev8_lt : k0_dev8 < nD
  k0_dev9_lt : k0_dev9 < nD
  k0_dev10_lt : k0_dev10 < nD
  k0_dev11_lt : k0_dev11 < nD
  k0_dev12_lt : k0_dev12 < nD
  k0_dev13_lt : k0_dev13 < nD
  k0_dev14_lt : k0_dev14 < nD
  k0_dev15_lt : k0_dev15 < nD
  k0_dev16_lt : k0_dev16 < nD
  k0_off1_inb : ∀ d0 : Dev nD, ∀ a, (k0_off1 d0) a + S1.size a ≤ S16.size a
  k0_off2_inb : ∀ d0 : Dev nD, ∀ a, (k0_off2 d0) a + S1x1x2048.size a ≤ S16x1x2048.size a
  k0_dev17_lt : k0_dev17 < nD
  k0_dev18_lt : k0_dev18 < nD
  k0_dev19_lt : k0_dev19 < nD
  k0_dev20_lt : k0_dev20 < nD
  k0_dev21_lt : k0_dev21 < nD
  k0_dev22_lt : k0_dev22 < nD
  k0_dev23_lt : k0_dev23 < nD
  k0_dev24_lt : k0_dev24 < nD
  k0_dev25_lt : k0_dev25 < nD
  k0_dev26_lt : k0_dev26 < nD
  k0_dev27_lt : k0_dev27 < nD
  k0_dev28_lt : k0_dev28 < nD
  k0_dev29_lt : k0_dev29 < nD
  k0_dev30_lt : k0_dev30 < nD
  k0_dev31_lt : k0_dev31 < nD
  k0_dev32_lt : k0_dev32 < nD
  hstage0_0 : ∀ j, (stage0_0 j).IsWhole
  hstage0_1 : ∀ j, (stage0_1 j).IsWhole

variable [Facts₀]

abbrev cc0_scratch2 : DmaSems sig S16 := SemArray.consecutive 2 S16 hcc0_scratch2
abbrev cc0_scratch3 : DmaSems sig S16 := SemArray.consecutive 18 S16 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x16384 : Shape := ⟨2, ![2048, 16384]⟩
abbrev S_ : Shape := ⟨0, ![]⟩
abbrev S2048 : Shape := ⟨1, ![2048]⟩
abbrev S2048x1 : Shape := ⟨2, ![2048, 1]⟩

abbrev nBuf : Space → Nat
  | .hbm => 12
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S2048x16384, .f32⟩
  | .hbm, ⟨5, _⟩ => ⟨S2048x16384, .f32⟩
  | .hbm, ⟨6, _⟩ => ⟨S2048x16384, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x16384, .f32⟩
  | .hbm, ⟨11, _⟩ => ⟨S2048x16384, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S2048x16384_S2048_d1 : S2048x16384.ReducesTo [1] S2048
  h_S_ : 0 < S_.numel
  bcast_S2048_S2048x1_0 : S2048.BroadcastsInDim S2048x1 (![0] : Fin 1 → Fin S2048x1.rank)
  bcast_S2048x1_S2048x16384_0_1 : S2048x1.BroadcastsInDim S2048x16384 (![0, 1] : Fin 2 → Fin S2048x16384.rank)

variable [Facts₀]

class Facts : Prop extends Facts₀ where

variable [Facts]
-- ==== Proof.Kernel.Spec.lean ====
import proofs.«901061_g7700000000001062_dist_softmax_colshard_i_m2048_n1024_v7x_i16_f32_1_alg».proof.Proof.Gen.Kernel.Skeleton
import Idealize.ShloMosaic.Lib.ValueIdx

/-!
# What each device computes, as pure functions of the launch memory

Device `c` holds block `c` (columns `1024·c … 1024·c + 1023`) of the matrix `x`. Its kernel forms
`e = exp x` on its block and the row sums of `e` over its own columns (a row vector of length 2048); the sixteen
devices exchange these row vectors, so that every device ends holding all sixteen, stacked; each then adds
the sixteen vectors (the row sums of `exp x` over ALL columns), takes reciprocals, and scales its block of `e`
row by row. The terms below name these values; they are the same at every float instance.
-/

noncomputable section

namespace Cert.Kernel.Spec

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Device `c`'s block of `x`, as the kernel finds it in its input window. -/
def xblk (c : Dev nD) : Vec F S2048x1024 .f32 :=
  (win0_0.blk (0 : Fin 1)).view.read (Elt F) (m ((c : Thread nD τ).loc main_arg0))

/-- `exp` of device `c`'s block. -/
def expBlk (c : Dev nD) : FVec F S2048x1024 .f32 := k0_pay1 (xblk m c)

/-- The row sums of `exp x` over device `c`'s columns, as a row vector. -/
def partSums (c : Dev nD) : FVec F S1x2048 .f32 := k0_pay2 (xblk m c)

/-- The sixteen devices' partial row sums stacked: entry `(d, 0, r)` is device `d`'s partial sum of row `r`. -/
def gathered : Vec F S16x1x2048 .f32 := fun i => partSums m (i 0) (ValueIdx.ix2 (0 : Fin 1) (i 2))

/-- Device `c`'s result block: `exp x` scaled, row by row, by the reciprocal of the sum of the sixteen partial row sums. -/
def outBlk (c : Dev nD) : FVec F S2048x1024 .f32 := k0_pay3 (expBlk m c) (gathered m)

end Cert.Kernel.Spec

end
-- ==== Proof.Kernel.Sched.lean ====
import proofs.«901061_g7700000000001062_dist_softmax_colshard_i_m2048_n1024_v7x_i16_f32_1_alg».proof.Proof.Kernel.Spec
import proofs.«901061_g7700000000001062_dist_softmax_colshard_i_m2048_n1024_v7x_i16_f32_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

/-!
# The exchange of partial row sums among the sixteen devices: cells, rounds, payloads

Every device `c` signals the barrier semaphore of every device (itself included) once and waits for sixteen units on its
own: after that wait all sixteen devices are inside the kernel. Device `d`'s signal to device `c` hands `c` the one slot
of `d`'s gathering buffer that `c` will write (slot `c`), and the fact that `d`'s receive semaphore `c` is at its first
round. Then `c` copies its vector of partial row sums into slot `c` of every device `j`, on its own send semaphore `j`
and on `j`'s receive semaphore `c`; the sixteen copies read the one source at sixteen shares of it. A receive
semaphore's one landing hands its owner the slot holding the sender's partial sums; a send semaphore's hands the
sender its share of the source back.
-/

noncomputable section

namespace Cert.KernelProof

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero. -/
def st0 : MemSt nD τ sig (Elt F) := ⟨m, fun _ => 0, ρ⟩

/-! ## Memrefs and cells -/

abbrev xM : Memref sig .tc .vmem S2048x1024 .f32 := Memref.whole cc0_stg0_0
abbrev oM : Memref sig .tc .vmem S2048x1024 .f32 := Memref.whole cc0_stg1_0
/-- The vector of partial row sums. -/
abbrev lM : Memref sig .tc .vmem S1x2048 .f32 := Memref.whole cc0_scratch0
/-- The gathering buffer: sixteen such vectors. -/
abbrev gM : Memref sig .tc .vmem S16x1x2048 .f32 := Memref.whole cc0_scratch1
/-- Slot `k` of the gathering buffer. -/
abbrev slotM (k : Dev nD) : Memref sig .tc .vmem S1x2048 .f32 :=
  (gM.slice (Rect.unit (s := S16x1x2048) (k0_off2 k) S1x1x2048.size (k0_off2_inb k)) (fun _ => rfl)).squeeze S1x2048 squeezes_S1x1x2048_S1x2048

abbrev barS : Sem sig := (SemArray.scalar (sig.barrier 0 rfl) : Sems sig S_).sem
/-- Send semaphore `j` (the copy to device `j`), receive semaphore `k` (the copy from device `k`). -/
abbrev sendS (j : Dev nD) : DmaSem sig := ((cc0_scratch2.slice (Rect.unit (s := S16) (k0_off1 j) S1.size (k0_off1_inb j))).squeeze S_ squeezes_S1_S_).sem
abbrev recvS (k : Dev nD) : DmaSem sig := ((cc0_scratch3.slice (Rect.unit (s := S16) (k0_off1 k) S1.size (k0_off1_inb k))).squeeze S_ squeezes_S1_S_).sem

theorem sendS_val : ∀ j : Dev nD, (sendS j).val = 2 + j.val := by decide +kernel
theorem recvS_val : ∀ k : Dev nD, (recvS k).val = 18 + k.val := by decide +kernel

abbrev barCell (c : Dev nD) : GSem nD τ sig := ((c : Thread nD τ), .reg barS)
abbrev sendCell (c j : Dev nD) : GSem nD τ sig := ((c : Thread nD τ), .dma (sendS j))
abbrev recvCell (c k : Dev nD) : GSem nD τ sig := ((c : Thread nD τ), .dma (recvS k))

abbrev N : ℕ := (lM : Memref sig .tc .vmem S1x2048 .f32).view.dmaCredit
theorem N_pos : 0 < N := View.dmaCredit_pos _ (by decide)

/-! ## Contents and points-to assertions -/

def lPts (c : Dev nD) (q : PosShare TreeShare) (f : Buf (Elt F) ((lM : Memref sig .tc .vmem S1x2048 .f32).view.loc (c : Thread nD τ))) : sProp 𝕄 :=
  (lM : Memref sig .tc .vmem S1x2048 .f32).view.loc (c : Thread nD τ) ↦[(lM : Memref sig .tc .vmem S1x2048 .f32).view.set]{q} f
/-- Slot `k` of device `c`'s gathering buffer, at contents `f` (a valuation of the whole buffer: only slot `k` of it matters). -/
def slotPts (c k : Dev nD) (f : Buf (Elt F) ((slotM k).view.loc (c : Thread nD τ))) : sProp 𝕄 :=
  (slotM k).view.loc (c : Thread nD τ) ↦[(slotM k).view.set]{fullShare} f
def gPts (c : Dev nD) (f : Buf (Elt F) ((gM : Memref sig .tc .vmem S16x1x2048 .f32).view.loc (c : Thread nD τ))) : sProp 𝕄 :=
  (gM : Memref sig .tc .vmem S16x1x2048 .f32).view.loc (c : Thread nD τ) ↦[(gM : Memref sig .tc .vmem S16x1x2048 .f32).view.set]{fullShare} f

/-- The share of its vector of partial sums that device `c` lends to its copy to device `j`. -/
abbrev shr (j : Dev nD) : PosShare TreeShare := Transfers.shareTok fullShare 16 j

instance lPts_storable (c : Dev nD) (q) (f) : BI.Storable (upEmb : UEmb _ 𝕄) (lPts (F := F) c q f) := by unfold lPts; infer_instance
instance slotPts_storable (c k : Dev nD) (f) : BI.Storable (upEmb : UEmb _ 𝕄) (slotPts (F := F) c k f) := by unfold slotPts; infer_instance
instance gPts_storable (c : Dev nD) (f) : BI.Storable (upEmb : UEmb _ 𝕄) (gPts (F := F) c f) := by unfold gPts; infer_instance

/-! ## The schedule -/

/-- What device `d`'s signal hands device `c`: slot `c` of `d`'s gathering buffer, and that `d`'s receive cell `c` is at round 0. -/
def barPay (c d : Dev nD) : sProp 𝕄 := iprop((∃ f, slotPts d c f) ∗ reached ER (recvCell d c) 0)
/-- What the landing on device `c`'s receive cell `k` hands it: slot `k` holding device `k`'s partial sums. -/
def recvPay (c k : Dev nD) : sProp 𝕄 := slotPts c k (gathered m)
/-- What the completion on device `c`'s send cell `j` hands it back: the share of its partial sums it lent. -/
def sendPay (c j : Dev nD) : sProp 𝕄 := lPts c (shr j) (partSums m c)

abbrev IsBar (g : GSem nD τ sig) : Prop := g.1.2 = .tc ∧ g.2 = .reg barS
abbrev IsDma (g : GSem nD τ sig) : Prop := g.1.2 = .tc ∧ ∃ q : DmaSem sig, g.2 = .dma q ∧ 2 ≤ q.val

/-- Which of a device's semaphores a location is: its send cell `j` or its receive cell `k`. -/
def sendIdx (s : SemLoc sig) : Option (Dev nD) := (Finset.univ.filter fun j : Dev nD => s = .dma (sendS j)).min
def recvIdx (s : SemLoc sig) : Option (Dev nD) := (Finset.univ.filter fun k : Dev nD => s = .dma (recvS k)).min

/-- One round, round 0: a barrier cell has sixteen duties of one unit, one per device; a send or a receive cell one duty
    (named `0`) of the vector's credit. -/
def xRd : Rounds.Schedule (GSem nD τ sig) (Dev nD) 𝕄 where
  duties g r := if r = 0 ∧ IsBar g then Finset.univ else if r = 0 ∧ IsDma g then {0} else ∅
  unitless _ := False
  amount g _ _ := if g.2 = .reg barS then 1 else N
  payload g _ d :=
    if g.2 = .reg barS then barPay g.1.1 d
    else match recvIdx g.2 with
      | some k => recvPay m g.1.1 k
      | none => match sendIdx g.2 with
        | some j => sendPay m g.1.1 j
        | none => iprop(emp)
  amount_pos g _ _ _ := by
    by_cases h : g.2 = .reg barS
    · rw [if_pos h]; exact Nat.one_pos
    · rw [if_neg h]; exact N_pos

theorem sendS_inj : Function.Injective (sendS : Dev nD → DmaSem sig) := by decide +kernel
theorem recvS_inj : Function.Injective (recvS : Dev nD → DmaSem sig) := by decide +kernel
theorem sendS_ne_recvS : ∀ j k : Dev nD, sendS j ≠ recvS k := by decide +kernel

theorem recvIdx_recv (k : Dev nD) : recvIdx (SemLoc.dma (recvS k) : SemLoc sig) = some k := by
  unfold recvIdx
  have : (Finset.univ.filter fun k' : Dev nD => (SemLoc.dma (recvS k) : SemLoc sig) = .dma (recvS k')) = {k} := by
    ext k'; simp only [Finset.mem_filter, Finset.mem_univ, true_and, Finset.mem_singleton]
    constructor
    · intro h; exact (recvS_inj (SemLoc.dma.inj h)).symm
    · rintro rfl; rfl
  rw [this]; rfl
theorem recvIdx_send (j : Dev nD) : recvIdx (SemLoc.dma (sendS j) : SemLoc sig) = none := by
  unfold recvIdx
  have : (Finset.univ.filter fun k' : Dev nD => (SemLoc.dma (sendS j) : SemLoc sig) = .dma (recvS k')) = ∅ := by
    ext k'; simp only [Finset.mem_filter, Finset.mem_univ, true_and, Finset.notMem_empty, iff_false]
    intro h; exact sendS_ne_recvS j k' (SemLoc.dma.inj h)
  rw [this]; rfl
theorem sendIdx_send (j : Dev nD) : sendIdx (SemLoc.dma (sendS j) : SemLoc sig) = some j := by
  unfold sendIdx
  have : (Finset.univ.filter fun j' : Dev nD => (SemLoc.dma (sendS j) : SemLoc sig) = .dma (sendS j')) = {j} := by
    ext j'; simp only [Finset.mem_filter, Finset.mem_univ, true_and, Finset.mem_singleton]
    constructor
    · intro h; exact (sendS_inj (SemLoc.dma.inj h)).symm
    · rintro rfl; rfl
  rw [this]; rfl

instance xRd_payload_storable (g : GSem nD τ sig) (r : ℕ) (d : Dev nD) :
    BI.Storable (upEmb : UEmb _ 𝕄) ((xRd (F := F) m).payload g r d) := by
  show BI.Storable upEmb (if g.2 = .reg barS then barPay g.1.1 d
    else match recvIdx g.2 with
      | some k => recvPay m g.1.1 k
      | none => match sendIdx g.2 with
        | some j => sendPay m g.1.1 j
        | none => iprop(emp))
  unfold barPay recvPay sendPay
  (repeat' split) <;> infer_instance

section Sched
variable (c : Dev nD)

theorem send_ne_bar (j : Dev nD) : (SemLoc.dma (sendS j) : SemLoc sig) ≠ .reg barS := fun h => by cases h
theorem recv_ne_bar (k : Dev nD) : (SemLoc.dma (recvS k) : SemLoc sig) ≠ .reg barS := fun h => by cases h
theorem not_bar_send (j : Dev nD) : ¬ IsBar (sendCell c j) := fun h => send_ne_bar j h.2
theorem not_bar_recv (k : Dev nD) : ¬ IsBar (recvCell c k) := fun h => recv_ne_bar k h.2
theorem isDma_send (j : Dev nD) : IsDma (sendCell c j) := ⟨rfl, sendS j, rfl, by rw [sendS_val]; omega⟩
theorem isDma_recv (k : Dev nD) : IsDma (recvCell c k) := ⟨rfl, recvS k, rfl, by rw [recvS_val]; omega⟩

theorem duties_bar : (xRd (F := F) m).duties (barCell c) 0 = Finset.univ := by dsimp only [xRd]; exact if_pos ⟨rfl, rfl, rfl⟩
theorem duties_send (j : Dev nD) : (xRd (F := F) m).duties (sendCell c j) 0 = {0} := by
  dsimp only [xRd]; rw [if_neg (fun h => not_bar_send c j h.2)]; exact if_pos ⟨rfl, isDma_send c j⟩
theorem duties_recv (k : Dev nD) : (xRd (F := F) m).duties (recvCell c k) 0 = {0} := by
  dsimp only [xRd]; rw [if_neg (fun h => not_bar_recv c k h.2)]; exact if_pos ⟨rfl, isDma_recv c k⟩
theorem duties_later (g : GSem nD τ sig) : ∀ r, 1 ≤ r → (xRd (F := F) m).duties g r = ∅ :=
  fun r hr => by dsimp only [xRd]; rw [if_neg fun h => by omega, if_neg fun h => by omega]

theorem amount_bar (d : Dev nD) : (xRd (F := F) m).amount (barCell c) 0 d = 1 := by dsimp only [xRd]; exact if_pos rfl
theorem amount_send (j d : Dev nD) : (xRd (F := F) m).amount (sendCell c j) 0 d = N := by dsimp only [xRd]; exact if_neg (send_ne_bar j)
theorem amount_recv (k d : Dev nD) : (xRd (F := F) m).amount (recvCell c k) 0 d = N := by dsimp only [xRd]; exact if_neg (recv_ne_bar k)

theorem expect_bar : (xRd (F := F) m).expect (barCell c) 0 = 16 := by
  unfold Schedule.expect Schedule.amountOf
  rw [duties_bar, Finset.sum_congr rfl fun d _ => amount_bar m c d, Finset.sum_const, Finset.card_univ, Fintype.card_fin, smul_eq_mul]
  rfl
theorem expect_send (j : Dev nD) : (xRd (F := F) m).expect (sendCell c j) 0 = N := by
  unfold Schedule.expect Schedule.amountOf; rw [duties_send, Finset.sum_singleton, amount_send]
theorem expect_recv (k : Dev nD) : (xRd (F := F) m).expect (recvCell c k) 0 = N := by
  unfold Schedule.expect Schedule.amountOf; rw [duties_recv, Finset.sum_singleton, amount_recv]

theorem payload_bar (d : Dev nD) : (xRd (F := F) m).payload (barCell c) 0 d = barPay c d := by dsimp only [xRd]; rw [if_pos rfl]
theorem payload_send (j d : Dev nD) : (xRd (F := F) m).payload (sendCell c j) 0 d = sendPay m c j := by
  dsimp only [xRd]; rw [if_neg (send_ne_bar j), recvIdx_send, sendIdx_send]
theorem payload_recv (k d : Dev nD) : (xRd (F := F) m).payload (recvCell c k) 0 d = recvPay m c k := by
  dsimp only [xRd]; rw [if_neg (recv_ne_bar k), recvIdx_recv]

/-- The whole of the barrier cell's round: every device's slot `c` and receive-cell fact. -/
theorem rest_bar : bigSep ((xRd (F := F) m).duties (barCell c) 0 \ ∅) (fun d => (xRd (F := F) m).payload (barCell c) 0 d) = bigSep Finset.univ (fun d => barPay (F := F) c d) := by
  rw [Finset.sdiff_empty, duties_bar]; exact bigSep_congr fun d _ => payload_bar m c d
theorem rest_send (j : Dev nD) : bigSep ((xRd (F := F) m).duties (sendCell c j) 0 \ ∅) (fun d => (xRd (F := F) m).payload (sendCell c j) 0 d) = sendPay m c j := by
  rw [Finset.sdiff_empty, duties_send, bigSep_singleton, payload_send]
theorem rest_recv (k : Dev nD) : bigSep ((xRd (F := F) m).duties (recvCell c k) 0 \ ∅) (fun d => (xRd (F := F) m).payload (recvCell c k) 0 d) = recvPay m c k := by
  rw [Finset.sdiff_empty, duties_recv, bigSep_singleton, payload_recv]

end Sched

end Cert.KernelProof
end
-- ==== Proof.Kernel.Proto.lean ====
import proofs.«901061_g7700000000001062_dist_softmax_colshard_i_m2048_n1024_v7x_i16_f32_1_alg».proof.Proof.Kernel.Sched

/-!
# What a device owes, the levels of its waits, and the state its body starts from and ends in

At launch device `c` owes every device's barrier cell one unit (its sixteen signals) and every device's receive cell `c`
the vector's credit (its sixteen copies). It waits on its barrier cell while still owing the receive credits, so receive
cells sit above barrier cells; every other wait happens when it owes nothing more, or is a wait of the pipeline's own
staging, below everything.
-/

noncomputable section

namespace Cert.KernelProof

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch -/

/-- The devices, in the order the kernel addresses them. -/
def devs : List (Dev nD) := [0, 1, 2, 3, 4, 5, 6, 7, 8, 9, 10, 11, 12, 13, 14, 15]

/-- The receive credits device `c` owes the devices `js`: summed so that the first copy peels the last summand. -/
def oweRecv (c : Dev nD) : List (Dev nD) → CellTallies nD τ sig Unit
  | [] => 0
  | j :: js => oweRecv c js + tallyAt (recvCell j c) () N
/-- The barrier units device `c` owes the devices `js`, over `base`: the first signal peels the last summand. -/
def oweBar (base : CellTallies nD τ sig Unit) : List (Dev nD) → CellTallies nD τ sig Unit
  | [] => base
  | j :: js => oweBar base js + tallyAt (barCell j) () 1

def O₁ (c : Dev nD) : CellTallies nD τ sig Unit := oweRecv c devs
def O₀ (c : Dev nD) : CellTallies nD τ sig Unit := oweBar (O₁ c) devs

/-! ## The levels -/

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (recvIdx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The cells of one device, indexed: its barrier cell, its sixteen send cells, its sixteen receive cells -/

def iBar : Fin 33 := 0
def iSend (j : Dev nD) : Fin 33 := ⟨j.val + 1, by have h : j.val < 16 := j.isLt; omega⟩
def iRecv (k : Dev nD) : Fin 33 := ⟨k.val + 17, by have h : k.val < 16 := k.isLt; omega⟩

def csem (i : Fin 33) : SemLoc sig :=
  if h0 : i.val = 0 then .reg barS
  else if h1 : i.val ≤ 16 then .dma (sendS ⟨i.val - 1, by show i.val - 1 < 16; omega⟩)
  else .dma (recvS ⟨i.val - 17, by show i.val - 17 < 16; have := i.isLt; omega⟩)
abbrev kcell (ck : Dev nD × Fin 33) : GSem nD τ sig := ((ck.1 : Thread nD τ), csem ck.2)
/-- The kernel's own (scoped) semaphores: the send and the receive cells. -/
def osem (i : Fin 32) : SemLoc sig := csem i.succ

theorem csem_bar : csem iBar = .reg barS := rfl
theorem csem_send (j : Dev nD) : csem (iSend j) = .dma (sendS j) := by
  unfold csem iSend; rw [dif_neg (by simp), dif_pos (by have h : j.val < 16 := j.isLt; show j.val + 1 ≤ 16; omega)]; rfl
theorem csem_recv (k : Dev nD) : csem (iRecv k) = .dma (recvS k) := by
  unfold csem iRecv; rw [dif_neg (by simp), dif_neg (by show ¬ (k.val + 17 ≤ 16); omega)]; simp only [Nat.add_sub_cancel]

theorem kcell_bar (c : Dev nD) : kcell (c, iBar) = barCell c := rfl
theorem kcell_send (c j : Dev nD) : kcell (c, iSend j) = sendCell c j := by unfold kcell; rw [csem_send]
theorem kcell_recv (c k : Dev nD) : kcell (c, iRecv k) = recvCell c k := by unfold kcell; rw [csem_recv]

/-! ## The ghost state a device's body starts from -/

/-- Every cell's invariant, under the names `K`, and that every cell is at round 0: persistent, known to every device. -/
def records (K : Dev nD × Fin 33 → ℕ) : sProp 𝕄 :=
  iprop((bigSep Finset.univ fun ck : Dev nD × Fin 33 => cellInv ER (xRd m) (K ck) (kcell ck))
    ∗ bigSep Finset.univ fun ck : Dev nD × Fin 33 => reached ER (kcell ck) 0)

instance records_persistent (K : Dev nD × Fin 33 → ℕ) : BI.Persistent (records m K) := by unfold records; infer_instance

/-- The duty tokens device `c` pays with: its duty on every barrier cell, on every device's receive cell `c`, on its own send cells. -/
def payToks (c : Dev nD) : sProp 𝕄 :=
  iprop((bigSep Finset.univ fun j : Dev nD => dutyTok ER (barCell j) 0 c)
    ∗ (bigSep Finset.univ fun j : Dev nD => dutyTok ER (recvCell j c) 0 (0 : Dev nD))
    ∗ (bigSep Finset.univ fun j : Dev nD => dutyTok ER (sendCell c j) 0 (0 : Dev nD)))
/-- Its positions on its own cells. -/
def positions (c : Dev nD) : sProp 𝕄 :=
  iprop(atPos ER (barCell c) 0 ∅ 0
    ∗ (bigSep Finset.univ fun j : Dev nD => atPos ER (sendCell c j) 0 ∅ 0)
    ∗ (bigSep Finset.univ fun k : Dev nD => atPos ER (recvCell c k) 0 ∅ 0))
def ghost (K : Dev nD × Fin 33 → ℕ) (c : Dev nD) : sProp 𝕄 := iprop(records m K ∗ positions c ∗ payToks c)

/-- What device `c`'s body starts from besides its buffers: the ghost state at some names, the credit of its barrier cell's
    sixteen units and of each receive cell's landing, and the level facts. -/
def start (c : Dev nD) : sProp 𝕄 :=
  iprop((∃ K, ghost m K c) ∗ cred (tallyAt (barCell c) () 16) ∗ (bigSep Finset.univ fun k : Dev nD => cred (tallyAt (recvCell c k) () N)) ∗ levAts L lv)

/-- Before the body: that, and the two scratch buffers at some contents. -/
def Φ₀ (c : Dev nD) : sProp 𝕄 := iprop(start m c ∗ (∃ f, lPts c fullShare f) ∗ ∃ f, gPts c f)
/-- After it: the two scratch buffers, and the own cells' counters at zero, closed. -/
def Φ₁ (c : Dev nD) : sProp 𝕄 :=
  iprop((∃ f, lPts c fullShare f) ∗ (∃ f, gPts c f)
    ∗ (bigSep Finset.univ fun j : Dev nD => semVal (sendCell c j) 0) ∗ (bigSep Finset.univ fun k : Dev nD => semVal (recvCell c k) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outBlk m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-- A whole staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is run from at the one grid point, and what it leaves. -/
def bodyPre (K : Dev nD × Fin 33 → ℕ) (c : Dev nD) : sProp 𝕄 :=
  iprop((ghost m K c ∗ cred (tallyAt (barCell c) () 16) ∗ (bigSep Finset.univ fun k : Dev nD => cred (tallyAt (recvCell c k) () N)) ∗ levAts L lv
      ∗ (∃ f, lPts c fullShare f) ∗ ∃ f, gPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xblk m c) ∗ stg c cc0_stg1_0 (outBlk m c))

end Cert.KernelProof
end
-- ==== Proof.Kernel.Slots.lean ====
import proofs.«901061_g7700000000001062_dist_softmax_colshard_i_m2048_n1024_v7x_i16_f32_1_alg».proof.Proof.Kernel.Sched
import Idealize.ShloMosaic.Lib.Pipeline.Value
import Idealize.ShloMosaic.Lib.ValueLayout

/-!
# The gathering buffer as its sixteen slots

Slot `k` of a device's gathering buffer is the `k`-th of the sixteen stacked vectors: the entries `(k, 0, r)`. The slots
are pairwise disjoint and cover the buffer; a copy of a whole vector into a slot leaves exactly that vector there.
-/

noncomputable section

namespace Cert.KernelProof

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots as sets of entries -/

/-- Slot `k`'s entries are those of the rectangle of extents `1 × 1 × 2048` at offset `(k, 0, 0)`. -/
theorem slot_set (k : Dev nD) :
    (slotM k).view.set = (Rect.unit (s := S16x1x2048) (k0_off2 k) S1x1x2048.size (k0_off2_inb k)).set :=
  (View.set_reshape _ _).trans (View.set_slice_whole _ _)

/-- An entry of the gathering buffer lies in slot `k` exactly when its first coordinate is `k`. -/
theorem mem_slot_set (k : Dev nD) (i : S16x1x2048.Idx) :
    i ∈ (slotM k).view.set ↔ (i 0).val = k.val := by
  rw [slot_set, Rect.mem_set_unit, k0_off2_eq]
  constructor
  · intro h
    have h0 : k.val ≤ (i 0).val ∧ (i 0).val < k.val + 1 := h 0
    omega
  · intro h a
    have hi1 : (i 1).val < 1 := (i 1).isLt
    have hi2 : (i 2).val < 2048 := (i 2).isLt
    match a with
    | ⟨0, _⟩ => exact ⟨h.ge, by show (i 0).val < k.val + 1; omega⟩
    | ⟨1, _⟩ => exact ⟨Nat.zero_le _, by show (i 1).val < 0 + 1; omega⟩
    | ⟨2, _⟩ => exact ⟨Nat.zero_le _, by show (i 2).val < 0 + 2048; omega⟩

/-- The sixteen slots are pairwise disjoint: an entry's first coordinate names its slot. -/
theorem slot_disjoint (k k' : Dev nD) (h : k ≠ k') : Disjoint (slotM k).view.set (slotM k').view.set := by
  rw [Finset.disjoint_left]
  intro i hi hi'
  exact h (Fin.ext (((mem_slot_set k i).mp hi).symm.trans ((mem_slot_set k' i).mp hi')))

/-- The sixteen slots cover the buffer: the entry `i` lies in slot `i 0`. -/
theorem slot_cover : (gM : Memref sig .tc .vmem S16x1x2048 .f32).view.set = Finset.univ.biUnion fun k : Dev nD => (slotM k).view.set := by
  refine (View.set_whole cc0_scratch1).trans ?_
  refine (Finset.eq_univ_of_forall fun (i : S16x1x2048.Idx) => ?_).symm
  exact Finset.mem_biUnion.mpr ⟨i 0, Finset.mem_univ _, (mem_slot_set (i 0) i).mpr rfl⟩

/-- Entry `(0, r)` of slot `c` is entry `(c, 0, r)` of the gathering buffer. -/
theorem slot_emb (c : Dev nD) (r : Fin 2048) :
    (slotM c).view.emb (ValueIdx.ix2 (⟨0, Nat.one_pos⟩ : Fin 1) r) = ValueIdx.ix3 (c : Fin 16) (⟨0, Nat.one_pos⟩ : Fin 1) r := by
  show (Rect.unit (s := S16x1x2048) (k0_off2 c) S1x1x2048.size (k0_off2_inb c)).emb
      (Shape.reshapeEquiv squeezes_S1x1x2048_S1x2048.numel_eq (ValueIdx.ix2 (⟨0, Nat.one_pos⟩ : Fin 1) r)) = _
  rw [ValueIdx.reshapeEquiv_ix2_1ab]
  funext a
  apply Fin.ext
  rw [Rect.emb_apply, Rect.off_unit, Rect.stride_unit,
    show k0_off2 c a = (![c.val, 0, 0] : Fin 3 → ℕ) a from congrFun (k0_off2_eq c) a]
  match a with
  | ⟨0, _⟩ => show c.val + 1 * 0 = c.val; omega
  | ⟨1, _⟩ => show 0 + 1 * 0 = 0; rfl
  | ⟨2, _⟩ => show 0 + 1 * r.val = r.val; omega

/-- Every index of a `1 × 2048` vector is `(0, r)`. -/
theorem exists_ix2_zero (y : S1x2048.Idx) : ∃ r : Fin 2048, y = ValueIdx.ix2 (⟨0, Nat.one_pos⟩ : Fin 1) r := by
  have hy0 : (y 0 : Fin 1) = (⟨0, Nat.one_pos⟩ : Fin 1) :=
    Fin.ext (by show (y 0).val = 0; have : (y 0).val < 1 := (y 0).isLt; omega)
  refine ⟨y 1, ?_⟩
  rw [← hy0]; exact ValueIdx.eq_ix2 y

/-! ## The two statements -/

/-- Holding the whole gathering buffer at contents `f` is holding each of its sixteen slots at `f`. -/
theorem gPts_slots (c : Dev nD) (f : Buf (Elt F) ((gM : Memref sig .tc .vmem S16x1x2048 .f32).view.loc (c : Thread nD τ))) :
    (gPts (F := F) c f : sProp 𝕄) = bigSep Finset.univ (fun k : Dev nD => slotPts c k f) := by
  show ((gM : Memref sig .tc .vmem S16x1x2048 .f32).view.loc (c : Thread nD τ) ↦[(gM : Memref sig .tc .vmem S16x1x2048 .f32).view.set]{fullShare} f : sProp 𝕄)
    = bigSep Finset.univ (fun k : Dev nD => ((gM : Memref sig .tc .vmem S16x1x2048 .f32).view.loc (c : Thread nD τ) ↦[(slotM k).view.set]{fullShare} f : sProp 𝕄))
  have h := pointsTo_biUnion (nD := nD) (τ := τ) (sig := sig) (Ix := Unit) (Val := Elt F) (Name := ℕ) (U := UU) (Lvl := ℕ)
    (ℓ := (gM : Memref sig .tc .vmem S16x1x2048 .f32).view.loc (c : Thread nD τ)) (q := fullShare) (f := f)
    Finset.univ (fun k : Dev nD => (slotM k).view.set) (fun k _ k' _ hk => slot_disjoint k k' hk)
  exact (congrArg (fun I => ((gM : Memref sig .tc .vmem S16x1x2048 .f32).view.loc (c : Thread nD τ) ↦[I]{fullShare} f : sProp 𝕄)) slot_cover).trans h

/-- Device `c`'s vector of partial sums copied whole into slot `c` of device `j`'s gathering buffer, over whatever was there:
    the slot then holds what the stacked vectors hold there. -/
theorem slot_write (j c : Dev nD) (fd : Buf (Elt F) ((slotM c).view.loc (j : Thread nD τ))) :
    ((slotM c).view.loc (j : Thread nD τ) ↦[(slotM c).view.set]{fullShare}
        ((slotM c).view.write (Elt F) fd ((lM : Memref sig .tc .vmem S1x2048 .f32).view.read (Elt F) (partSums m c)) Finset.univ) : sProp 𝕄)
      = slotPts j c (gathered m) := by
  unfold slotPts
  refine pointsTo_congr (fun i hi => ?_)
  obtain ⟨y, rfl⟩ := View.exists_emb_of_mem_set _ hi
  obtain ⟨r, rfl⟩ := exists_ix2_zero y
  rw [View.write_emb_of_mem _ _ (Finset.mem_univ _), slot_emb]
  rfl

end Cert.KernelProof
end
-- ==== Proof.Kernel.Steps.lean ====
import proofs.«901061_g7700000000001062_dist_softmax_colshard_i_m2048_n1024_v7x_i16_f32_1_alg».proof.Proof.Kernel.Proto
import proofs.«901061_g7700000000001062_dist_softmax_colshard_i_m2048_n1024_v7x_i16_f32_1_alg».proof.Proof.Kernel.Slots

/-!
# The exchange's steps, each once, at a symbolic device and a symbolic peer

A signal to device `j`'s barrier cell; the copy to device `j`; the wait on receive cell `k`; the wait on send cell `j`;
the wait for sixteen on the own barrier cell. Each is the rounds discipline's rule at this schedule's cells.
-/

noncomputable section

namespace Cert.KernelProof

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem inv_at (K : Dev nD × Fin 33 → ℕ) (ck : Dev nD × Fin 33) :
    (bigSep Finset.univ fun ck : Dev nD × Fin 33 => (cellInv ER (xRd m) (K ck) (kcell ck) : sProp 𝕄)) ⊢ cellInv ER (xRd m) (K ck) (kcell ck) :=
  bigSep_elim (Finset.mem_univ ck)
theorem reached_at (ck : Dev nD × Fin 33) :
    (bigSep Finset.univ fun ck : Dev nD × Fin 33 => (reached ER (kcell ck) 0 : sProp 𝕄)) ⊢ reached ER (kcell ck) 0 :=
  bigSep_elim (Finset.mem_univ ck)

/-- The signal to device `n = j`'s barrier cell: device `c`'s duty there, handing over slot `j` of its own gathering buffer. -/
theorem wp_sig_step (K : Dev nD × Fin 33 → ℕ) (c j n : Dev nD) (hn : n = j) {k' : ℕ} (hk' : 1 = k')
    {α : Type} {Q : α → sProp 𝕄} {k : PUnit → Prog (TpuEff nD τ sig (Elt F) Λ₀ .tc) α}
    (O : CellTallies nD τ sig Unit) (W : Waits sig Unit) (f : Buf (Elt F) ((slotM j).view.loc (c : Thread nD τ))) :
    iprop(records m K ∗ owes (c : Thread nD τ) (O + tallyAt (barCell j) () 1) W ∗ dutyTok ER (barCell j) 0 c ∗ slotPts c j f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk'
  unfold records
  iintro ⟨⟨#HI, #HR⟩, HO, Ht, Hs⟩
  iapply (Rounds.wp_signal 𝒱₀ ER (xRd m) (c : Thread nD τ) none (dst := (n : Thread nD τ)) (κ := K (n, iBar))
      (d := c) (by rw [duties_bar]; exact Finset.mem_univ _) (amount_bar m n c) () O rfl) $$ [HO Ht Hs]
  isplitr; · iapply (inv_at m K (n, iBar)); iexact HI
  isplitl [HO]; · iexact HO
  isplitl [Ht]; · iexact Ht
  isplitl [Hs]
  · rw [payload_bar]; unfold barPay
    isplitl [Hs]; · iexists f; iexact Hs
    ihave Hr := (reached_at (F := F) (c, iRecv n)) $$ HR
    rw [kcell_recv]; iexact Hr
  · ihave Hr := (reached_at (F := F) (n, iBar)) $$ HR
    iexact Hr

/-- The copy of device `c`'s partial sums into slot `c` of device `n = j`, on `c`'s send cell `j` and `j`'s receive cell `c`:
    the lent share of the source comes back with the send cell, the slot, holding the vector, goes to `j` with its receive cell. -/
theorem wp_send_step (K : Dev nD × Fin 33 → ℕ) (c j n : Dev nD) (hn : n = j) (sS : DmaSem sig) (hs : sS = sendS j)
    {hsc : (slotM c : Memref sig (Dev.tc n : Thread nD τ).2.kind .vmem S1x2048 .f32).view.ref.isScScratch = false}
    {hsrc : (lM : Memref sig .tc .vmem S1x2048 .f32).view.WordExact} {hdst : (slotM c : Memref sig .tc .vmem S1x2048 .f32).view.WordExact}
    {hsem : DmaTarget.Typed .vmem (.dma (recvS c)) (.remote (Dev.tc n : Thread nD τ) (slotM c : Memref sig .tc .vmem S1x2048 .f32) (.dma sS) hsc)}
    {α : Type} {Q : α → sProp 𝕄} {k : PUnit → Prog (TpuEff nD τ sig (Elt F) Λ₀ .tc) α}
    (fd : Buf (Elt F) ((slotM c).view.loc (j : Thread nD τ))) (O : CellTallies nD τ sig Unit) (W : Waits sig Unit) :
    iprop(records m K ∗ lPts c (shr j) (partSums m c) ∗ slotPts j c fd
        ∗ owes (c : Thread nD τ) (O + tallyAt (recvCell j c) () N) W
        ∗ dutyTok ER (sendCell c j) 0 (0 : Dev nD) ∗ dutyTok ER (recvCell j c) 0 (0 : Dev nD))
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma lM (.remote (Dev.tc n : Thread nD τ) (slotM c) (.dma sS) hsc) (.dma (recvS c)) hsrc hdst hsem) k) Q) := by
  subst hn; subst hs
  unfold records
  iintro ⟨⟨#HI, #HR⟩, Hsrc, Hdst, HO, Ht1, Ht2⟩
  iapply (Rounds.wp_send_pointsTo 𝒱₀ ER (xRd m) (c : Thread nD τ) none (κ₁ := K (c, iSend n)) (κ₂ := K (n, iRecv c))
    (r₁ := 0) (r₂ := 0) (d₁ := (0 : Dev nD)) (d₂ := (0 : Dev nD)) (fd := fd) (q := shr n) (fs := partSums m c)
    (by rw [duties_send]; exact Finset.mem_singleton_self _) (by rw [duties_recv]; exact Finset.mem_singleton_self _)
    () () N rfl (amount_send m c n 0) (amount_recv m n c 0) O rfl (W := W)
    (by rw [payload_send]; exact BI.Entails.refl _)
    (by rw [payload_recv]; unfold recvPay; exact Entails.of_eq (slot_write m n c fd))) $$ [Hsrc Hdst HO Ht1 Ht2]
  isplitr; · ihave H := (inv_at m K (c, iSend n)) $$ HI; rw [kcell_send]; iexact H
  isplitr; · ihave H := (inv_at m K (n, iRecv c)) $$ HI; rw [kcell_recv]; iexact H
  isplitl [Hsrc]; · unfold lPts; iexact Hsrc
  isplitl [Hdst]; · unfold slotPts; iexact Hdst
  isplitl [HO]; · iexact HO
  isplitl [Ht1]; · iexact Ht1
  isplitr; · ihave H := (reached_at (F := F) (c, iSend n)) $$ HR; rw [kcell_send]; iexact H
  isplitl [Ht2]; · iexact Ht2
  ihave H := (reached_at (F := F) (n, iRecv c)) $$ HR; rw [kcell_recv]; iexact H

/-- The wait on receive cell `k`, owing nothing: slot `k` comes back holding device `k`'s partial sums. -/
theorem wp_recvwait_step (K : Dev nD × Fin 33 → ℕ) (c k : Dev nD) (sm : DmaSem sig) (hs : sm = recvS k)
    {sp sp' : Space} {s s' : Shape} {e e' : EltTy} {src : Memref sig (c : Thread nD τ).2.kind sp' s' e'} {κ' : Kind} {dst : Memref sig κ' sp s e}
    {hsrc : src.view.WordExact} {hdst : dst.view.WordExact} (hN : dst.view.dmaCredit = N)
    {α : Type} {Q : α → sProp 𝕄} {kk : PUnit → Prog (TpuEff nD τ sig (Elt F) Λ₀ .tc) α} (W : Waits sig Unit) :
    iprop(records m K ∗ cred (tallyAt (recvCell c k) () N) ∗ owes (c : Thread nD τ) 0 W ∗ atPos ER (recvCell c k) 0 ∅ 0)
      ⊢ iprop(((owes (c : Thread nD τ) 0 (insert (SemLoc.dma (recvS k), ()) W) ∗ atPos ER (recvCell c k) 1 ∅ 0 ∗ slotPts c k (gathered m))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hs
  unfold records
  iintro ⟨⟨#HI, #HR⟩, Hc, HO, Hat⟩ Hk
  iapply (Rounds.wp_wait_rest_token 𝒱₀ ER (xRd m) (c : Thread nD τ) none (κ := K (c, iRecv k))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · ihave H := (inv_at m K (c, iRecv k)) $$ HI; rw [kcell_recv]; iexact H
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_recv m c k)) $$ Hpay
  unfold recvPay; iexact Hp

/-- The wait on send cell `j`, owing nothing: the share of the partial sums lent to that copy comes back. -/
theorem wp_sendwait_step (K : Dev nD × Fin 33 → ℕ) (c j : Dev nD) (sm : DmaSem sig) (hs : sm = sendS j)
    {sp sp' : Space} {s s' : Shape} {e e' : EltTy} {src : Memref sig (c : Thread nD τ).2.kind sp' s' e'} {κ' : Kind} {dst : Memref sig κ' sp s e}
    {hsrc : src.view.WordExact} {hdst : dst.view.WordExact} (hN : dst.view.dmaCredit = N)
    {α : Type} {Q : α → sProp 𝕄} {kk : PUnit → Prog (TpuEff nD τ sig (Elt F) Λ₀ .tc) α} (W : Waits sig Unit) :
    iprop(records m K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) 1 ∅ 0 ∗ lPts c (shr j) (partSums m c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hs
  unfold records
  iintro ⟨⟨#HI, #HR⟩, Hc, HO, Hat⟩ Hk
  iapply (Rounds.wp_wait_rest_token 𝒱₀ ER (xRd m) (c : Thread nD τ) none (κ := K (c, iSend j))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · ihave H := (inv_at m K (c, iSend j)) $$ HI; rw [kcell_send]; iexact H
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_send m c j)) $$ Hpay
  unfold sendPay; iexact Hp

/-! ## The barrier wait -/

theorem oweRecv_pos {c : Dev nD} {g : GSem nD τ sig} {u : Unit} : ∀ js : List (Dev nD), 0 < oweRecv c js g u → ∃ j, g = recvCell j c
  | [], h => by simp only [oweRecv] at h; exact absurd h (Nat.lt_irrefl 0)
  | j :: js, h => by
    simp only [oweRecv] at h
    rw [Pi.add_apply, Finsupp.add_apply, tallyAt_apply] at h
    by_cases hg : g = recvCell j c ∧ u = ()
    · exact ⟨j, hg.1⟩
    · rw [if_neg hg, Nat.add_zero] at h; exact oweRecv_pos js h

/-- At its barrier wait a device owes receive credits only: receive cells, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by
      obtain ⟨j, rfl⟩ := oweRecv_pos devs hg
      rw [L_tc]; exact Finset.mem_singleton_self _)
    (fun p hp => by rw [Finset.mem_singleton.mp hp]; dsimp only [lv]; rw [if_pos rfl])
    (fun g u hg => by
      obtain ⟨j, rfl⟩ := oweRecv_pos devs hg
      dsimp only [lv]; rw [if_neg (recv_ne_bar c), recvIdx_recv, Option.isSome_some, if_pos rfl]; decide)

/-- The wait for sixteen on the own barrier cell, owing the receive credits: every device's slot `c` comes with it. -/
theorem wp_barwait_step (K : Dev nD × Fin 33 → ℕ) (c : Dev nD) {k' : ℕ} (hk' : k' = 16)
    {α : Type} {Q : α → sProp 𝕄} {kk : PUnit → Prog (TpuEff nD τ sig (Elt F) Λ₀ .tc) α} (W : Waits sig Unit) :
    iprop(records m K ∗ cred (tallyAt (barCell c) () 16) ∗ owes (c : Thread nD τ) (O₁ c) W ∗ levAts L lv ∗ atPos ER (barCell c) 0 ∅ 0)
      ⊢ iprop(((owes (c : Thread nD τ) (O₁ c) (insert (SemLoc.reg barS, ()) W) ∗ atPos ER (barCell c) 1 ∅ 0
              ∗ bigSep Finset.univ (fun d : Dev nD => barPay (F := F) c d))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS k') kk) Q) := by
  subst hk'
  unfold records
  iintro ⟨⟨#HI, #HR⟩, Hc, HO, #Hlev, Hat⟩ Hk
  iapply (Rounds.wp_wait_rest_token 𝒱₀ ER (xRd m) (c : Thread nD τ) none (κ := K (c, iBar))
      (wpE_semWait_eq 𝒱₀ (c : Thread nD τ) none Set.univ) (Set.mem_univ _) () (O := O₁ c) (W := W) (R := 0) (m := 0) (T := ∅)
      (by rw [expect_bar])) $$ [Hc HO Hat]
  · isplitr; · ihave H := (inv_at m K (c, iBar)) $$ HI; iexact H
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  ihave Hp := (Entails.of_eq (rest_bar m c)) $$ Hpay
  iexact Hp

/-- An own cell past its one round closes: its counter is zero again. -/
theorem close_send (K : Dev nD × Fin 33 → ℕ) (c j : Dev nD) :
    iprop(records m K ∗ atPos ER (sendCell c j) 1 ∅ 0) ⊢ (|={Set.univ}=> semVal (sendCell c j) 0 : sProp 𝕄) := by
  unfold records
  iintro ⟨⟨#HI, #HR⟩, Hat⟩
  iapply (Rounds.cell_close ER (xRd m) (Set.mem_univ (K (c, iSend j))) (fun h => h) (R := 0 + 1) (duties_later m (sendCell c j)))
  isplitr; · ihave H := (inv_at m K (c, iSend j)) $$ HI; rw [kcell_send]; iexact H
  iexact Hat
theorem close_recv (K : Dev nD × Fin 33 → ℕ) (c k : Dev nD) :
    iprop(records m K ∗ atPos ER (recvCell c k) 1 ∅ 0) ⊢ (|={Set.univ}=> semVal (recvCell c k) 0 : sProp 𝕄) := by
  unfold records
  iintro ⟨⟨#HI, #HR⟩, Hat⟩
  iapply (Rounds.cell_close ER (xRd m) (Set.mem_univ (K (c, iRecv k))) (fun h => h) (R := 0 + 1) (duties_later m (recvCell c k)))
  isplitr; · ihave H := (inv_at m K (c, iRecv k)) $$ HI; rw [kcell_recv]; iexact H
  iexact Hat

end Cert.KernelProof
end
-- ==== Proof.Kernel.Chain.lean ====
import proofs.«901061_g7700000000001062_dist_softmax_colshard_i_m2048_n1024_v7x_i16_f32_1_alg».proof.Proof.Kernel.Steps

/-!
# A run of like operations, one per device of a list

The body addresses the sixteen devices one after the other, four times over: sixteen signals, sixteen copies, sixteen
receive waits, sixteen send waits. Each such run is a chain of one operation per list entry; a step proved once for a
symbolic entry carries the whole chain, by induction on the list: each entry's own resources go in, its yield comes out,
and a state indexed by the entries still to come is threaded through.
-/

noncomputable section

namespace Cert.KernelProof

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A chain over a list is its head and the chain over its tail. -/
theorem bigSepL_cons' {I : Type} (i : I) (l : List I) (Φ : I → sProp 𝕄) : bigSepL (i :: l) Φ = iprop(Φ i ∗ bigSepL l Φ) :=
  bigSepL_cons i l Φ

/-- One operation per entry of the list, in order, then `rest`. -/
def opChain {ι α : Type} (op : ι → TpuEff nD τ sig (Elt F) Λ₀ .tc PUnit) :
    List ι → Prog (TpuEff nD τ sig (Elt F) Λ₀ .tc) α → Prog (TpuEff nD τ sig (Elt F) Λ₀ .tc) α
  | [], rest => rest
  | i :: is, rest => .op (op i) fun _ => opChain op is rest

theorem wp_opChain {ι α : Type} (c : Dev nD) (op : ι → TpuEff nD τ sig (Elt F) Λ₀ .tc PUnit) (Rec : sProp 𝕄) [BI.Persistent Rec]
    (Pre Post : ι → sProp 𝕄) (Inv : List ι → sProp 𝕄)
    (hstep : ∀ (i : ι) (l : List ι) (k : PUnit → Prog (TpuEff nD τ sig (Elt F) Λ₀ .tc) α) (Q : α → sProp 𝕄),
      iprop(Rec ∗ Pre i ∗ Inv (i :: l))
        ⊢ iprop(((Post i ∗ Inv l) -∗ wp frame (wpE (defs₀ (F := F)) 𝒱₀ (c : Thread nD τ) none) Set.univ (k ⟨⟩) Q)
            -∗ wp frame (wpE (defs₀ (F := F)) 𝒱₀ (c : Thread nD τ) none) Set.univ (.op (op i) k) Q)) :
    ∀ (l : List ι) (rest : Prog (TpuEff nD τ sig (Elt F) Λ₀ .tc) α) (Q : α → sProp 𝕄),
      iprop(Rec ∗ bigSepL l Pre ∗ Inv l)
        ⊢ iprop(((bigSepL l Post ∗ Inv []) -∗ wp frame (wpE (defs₀ (F := F)) 𝒱₀ (c : Thread nD τ) none) Set.univ rest Q)
            -∗ wp frame (wpE (defs₀ (F := F)) 𝒱₀ (c : Thread nD τ) none) Set.univ (opChain op l rest) Q) := by
  intro l
  induction l with
  | nil =>
    intro rest Q
    iintro ⟨#HR, -, HI⟩ Hk
    unfold opChain
    iapply Hk
    isplitr
    · rw [bigSepL_nil]; iempintro
    · iexact HI
  | cons i l ih =>
    intro rest Q
    rw [bigSepL_cons', bigSepL_cons']
    iintro ⟨#HR, ⟨Hp, Hps⟩, HI⟩ Hk
    unfold opChain
    iapply (hstep i l _ Q) $$ [Hp HI]
    · isplitr; · iexact HR
      isplitl [Hp]; · iexact Hp
      iexact HI
    iintro ⟨Hq, HI⟩
    iapply (ih rest Q) $$ [Hps HI]
    · isplitr; · iexact HR
      isplitl [Hps]; · iexact Hps
      iexact HI
    iintro ⟨Hqs, HI⟩
    iapply Hk
    isplitl [Hq Hqs]
    · isplitl [Hq]; · iexact Hq
      iexact Hqs
    · iexact HI

end Cert.KernelProof
end
-- ==== Proof.Kernel.Body.lean ====
import proofs.«901061_g7700000000001062_dist_softmax_colshard_i_m2048_n1024_v7x_i16_f32_1_alg».proof.Proof.Kernel.Chain
import proofs.«901061_g7700000000001062_dist_softmax_colshard_i_m2048_n1024_v7x_i16_f32_1_alg».proof.Proof.Gen.Kernel.Points

/-!
# One device's body

The sixteen signals, the partial sums stored, the barrier wait, the sixteen copies, the sixteen receive waits, the scaled
block stored, the sixteen send waits, the own cells closed: run once, at a symbolic device.
-/

noncomputable section

namespace Cert.KernelProof

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fetch_0 (t : Fin cfg0.N) : (cfg0.win (0 : Fin 2)).fetch t = true := fetch0_0 t

/-- All sixteen devices, one by one. -/
theorem bigSep_devs (Φ : Dev nD → sProp 𝕄) : bigSep Finset.univ Φ = bigSepL devs Φ :=
  bigSep_univ_eq_bigSepL devs (by decide) (by decide) Φ

/-! ## Whole-buffer reads and writes -/

abbrev r0x : Rect S2048x1024 := Rect.unit (s := S2048x1024) ![0, 0] S2048x1024.size inb_S2048x1024_S2048x1024_0_0
abbrev r0l : Rect S1x2048 := Rect.unit (s := S1x2048) ![0, 0] S1x2048.size inb_S1x2048_S1x2048_0_0
abbrev r0g : Rect S16x1x2048 := Rect.unit (s := S16x1x2048) ![0, 0, 0] S16x1x2048.size inb_S16x1x2048_S16x1x2048_0_0_0

theorem hz2 : (![0, 0] : Fin 2 → Nat) = fun _ => 0 := funext fun a => by fin_cases a <;> rfl
theorem hz3 : (![0, 0, 0] : Fin 3 → Nat) = fun _ => 0 := funext fun a => by fin_cases a <;> rfl
theorem read_x (f : (cc0_stg0_0 : Ref sig .tc).ty.Contents (Elt F)) : (xM : Memref sig .tc .vmem S2048x1024 .f32).view.readAt (Elt F) r0x.toLoadRect f = f :=
  Memref.readAt_unit_zero (Elt F) cc0_stg0_0 hz2 _ f
theorem read_g (f : (cc0_scratch1 : Ref sig .tc).ty.Contents (Elt F)) : (gM : Memref sig .tc .vmem S16x1x2048 .f32).view.readAt (Elt F) r0g.toLoadRect f = f :=
  Memref.readAt_unit_zero (Elt F) cc0_scratch1 hz3 _ f
theorem write_l (f w : (cc0_scratch0 : Ref sig .tc).ty.Contents (Elt F)) :
    ((lM : Memref sig .tc .vmem S1x2048 .f32).access r0l : View sig .tc _ _ _).write (Elt F) f w Finset.univ = w :=
  Memref.write_access_unit_zero_univ (Elt F) cc0_scratch0 hz2 _ f w
theorem write_out (f w : (cc0_stg1_0 : Ref sig .tc).ty.Contents (Elt F)) :
    ((oM : Memref sig .tc .vmem S2048x1024 .f32).access r0x : View sig .tc _ _ _).write (Elt F) f w Finset.univ = w :=
  Memref.write_access_unit_zero_univ (Elt F) cc0_stg1_0 hz2 _ f w
theorem l_set : (lM : Memref sig .tc .vmem S1x2048 .f32).view.set = Finset.univ := View.set_whole _
theorem g_set : (gM : Memref sig .tc .vmem S16x1x2048 .f32).view.set = Finset.univ := View.set_whole _

/-! ## The operations as the kernel spells them at a literal device -/

theorem semL_inb : ∀ k : Dev nD, ∀ a, (![k.val] : Fin 1 → Nat) a + S1.size a ≤ S16.size a := by decide
theorem slotL_inb : ∀ k : Dev nD, ∀ a, (![k.val, 0, 0] : Fin 3 → Nat) a + S1x1x2048.size a ≤ S16x1x2048.size a := by decide
/-- Send semaphore `j`, receive semaphore `k`, slot `k`, addressed by the literal index. -/
abbrev sendLs (j : Dev nD) : DmaSem sig := ((cc0_scratch2.slice (Rect.unit (s := S16) ![j.val] S1.size (semL_inb j))).squeeze S_ squeezes_S1_S_).sem
abbrev recvLs (k : Dev nD) : DmaSem sig := ((cc0_scratch3.slice (Rect.unit (s := S16) ![k.val] S1.size (semL_inb k))).squeeze S_ squeezes_S1_S_).sem
abbrev slotL (k : Dev nD) : Memref sig .tc .vmem S1x2048 .f32 :=
  (gM.slice (Rect.unit (s := S16x1x2048) ![k.val, 0, 0] S1x1x2048.size (slotL_inb k)) (fun _ => rfl)).squeeze S1x2048 squeezes_S1x1x2048_S1x2048
theorem sendLs_eq : ∀ j : Dev nD, sendLs j = sendS j := by decide +kernel
theorem recvLs_eq : ∀ k : Dev nD, recvLs k = recvS k := by decide +kernel
theorem slotL_credit (k : Dev nD) : (slotL k).view.dmaCredit = N := rfl

/-- The signal to device `j`; the copy to device `j`; the waits on receive cell `k` and on send cell `j`. -/
def sigOp (j : Dev nD) : TpuEff nD τ sig (Elt F) Λ₀ .tc PUnit := .semSignal (j : Thread nD τ) barS (1#32).toNat
def sendOp (c j : Dev nD) : TpuEff nD τ sig (Elt F) Λ₀ .tc PUnit :=
  .enqueueDma lM (.remote (Dev.tc j) (slotM c) (.dma (sendLs j))) (.dma (recvS c)) (Memref.isWhole_whole cc0_scratch0).wordExact
    ((View.wordExact_bits rfl).reshape _ _) ⟨⟨rfl, Or.inl rfl⟩, trivial⟩
def recvWaitOp (k : Dev nD) : TpuEff nD τ sig (Elt F) Λ₀ .tc PUnit :=
  .waitDma2 (recvLs k) lM (slotL k) (Memref.isWhole_whole cc0_scratch0).wordExact ((View.wordExact_bits rfl).reshape _ _)
def sendWaitOp (j : Dev nD) : TpuEff nD τ sig (Elt F) Λ₀ .tc PUnit :=
  .waitDma2 (sendLs j) (slotL j) lM ((View.wordExact_bits rfl).reshape _ _) (Memref.isWhole_whole cc0_scratch0).wordExact

/-! ## The four runs of sixteen -/

section Runs
variable (K : Dev nD × Fin 33 → ℕ) (c : Dev nD) {α : Type}

/-- The sixteen signals: each pays the device's duty on a barrier cell with a slot of its own gathering buffer. -/
theorem wp_signals (fg : Buf (Elt F) ((gM : Memref sig .tc .vmem S16x1x2048 .f32).view.loc (c : Thread nD τ))) (W : Waits sig Unit)
    (rest : Prog (TpuEff nD τ sig (Elt F) Λ₀ .tc) α) (Q : α → sProp 𝕄) :
    iprop(records m K ∗ bigSepL devs (fun j => iprop(dutyTok ER (barCell j) 0 c ∗ slotPts c j fg)) ∗ owes (c : Thread nD τ) (O₀ c) W)
      ⊢ iprop(((bigSepL devs (fun _ : Dev nD => (iprop(emp) : sProp 𝕄)) ∗ owes (c : Thread nD τ) (O₁ c) W)
            -∗ wp frame (wpE (defs₀ (F := F)) 𝒱₀ (c : Thread nD τ) none) Set.univ rest Q)
          -∗ wp frame (wpE (defs₀ (F := F)) 𝒱₀ (c : Thread nD τ) none) Set.univ (opChain (sigOp (F := F)) devs rest) Q) :=
  wp_opChain c (sigOp (F := F)) (records m K) (fun j => iprop(dutyTok ER (barCell j) 0 c ∗ slotPts c j fg)) (fun _ => iprop(emp))
    (fun l => owes (c : Thread nD τ) (oweBar (O₁ c) l) W)
    (fun i l k Q => by
      iintro ⟨#HR, ⟨Ht, Hs⟩, HO⟩ Hk
      unfold sigOp
      iapply (wp_sig_step m K c i i rfl (by decide) (O := oweBar (O₁ c) l) (W := W) (f := fg)) $$ [HO Ht Hs]
      · isplitr; · iexact HR
        isplitl [HO]; · iexact HO
        isplitl [Ht] <;> iassumption
      iintro HO
      iapply Hk
      isplitr; · iempintro
      iexact HO)
    devs rest Q

/-- The sixteen copies: each lends a share of the partial sums and writes slot `c` of its target. -/
theorem wp_sends (W : Waits sig Unit) (rest : Prog (TpuEff nD τ sig (Elt F) Λ₀ .tc) α) (Q : α → sProp 𝕄) :
    iprop(records m K
        ∗ bigSepL devs (fun j => iprop(lPts c (shr j) (partSums m c) ∗ (∃ fd, slotPts j c fd)
            ∗ dutyTok ER (sendCell c j) 0 (0 : Dev nD) ∗ dutyTok ER (recvCell j c) 0 (0 : Dev nD)))
        ∗ owes (c : Thread nD τ) (O₁ c) W)
      ⊢ iprop(((bigSepL devs (fun j => cred (tallyAt (sendCell c j) () N)) ∗ owes (c : Thread nD τ) 0 W)
            -∗ wp frame (wpE (defs₀ (F := F)) 𝒱₀ (c : Thread nD τ) none) Set.univ rest Q)
          -∗ wp frame (wpE (defs₀ (F := F)) 𝒱₀ (c : Thread nD τ) none) Set.univ (opChain (sendOp (F := F) c) devs rest) Q) :=
  wp_opChain c (sendOp (F := F) c) (records m K)
    (fun j => iprop(lPts c (shr j) (partSums m c) ∗ (∃ fd, slotPts j c fd)
      ∗ dutyTok ER (sendCell c j) 0 (0 : Dev nD) ∗ dutyTok ER (recvCell j c) 0 (0 : Dev nD)))
    (fun j => cred (tallyAt (sendCell c j) () N))
    (fun l => owes (c : Thread nD τ) (oweRecv c l) W)
    (fun i l k Q => by
      iintro ⟨#HR, ⟨Hsrc, ⟨%fd, Hdst⟩, Ht1, Ht2⟩, HO⟩ Hk
      unfold sendOp
      iapply (wp_send_step m K c i i rfl (sendLs i) (sendLs_eq i) fd (O := oweRecv c l) (W := W)) $$ [Hsrc Hdst HO Ht1 Ht2]
      · isplitr; · iexact HR
        isplitl [Hsrc]; · iexact Hsrc
        isplitl [Hdst]; · iexact Hdst
        isplitl [HO]; · iexact HO
        isplitl [Ht1] <;> iassumption
      iintro ⟨Hc, HO⟩
      iapply Hk
      isplitl [Hc] <;> iassumption)
    devs rest Q

/-- The sixteen receive waits: slot `k` comes back holding device `k`'s partial sums. -/
theorem wp_recvWaits (rest : Prog (TpuEff nD τ sig (Elt F) Λ₀ .tc) α) (Q : α → sProp 𝕄) :
    iprop(records m K
        ∗ bigSepL devs (fun k => iprop(cred (tallyAt (recvCell c k) () N) ∗ atPos ER (recvCell c k) 0 ∅ 0))
        ∗ (∃ W, owes (c : Thread nD τ) 0 W))
      ⊢ iprop(((bigSepL devs (fun k => iprop(atPos ER (recvCell c k) 1 ∅ 0 ∗ slotPts c k (gathered m))) ∗ (∃ W, owes (c : Thread nD τ) 0 W))
            -∗ wp frame (wpE (defs₀ (F := F)) 𝒱₀ (c : Thread nD τ) none) Set.univ rest Q)
          -∗ wp frame (wpE (defs₀ (F := F)) 𝒱₀ (c : Thread nD τ) none) Set.univ (opChain (recvWaitOp (F := F)) devs rest) Q) :=
  wp_opChain c (recvWaitOp (F := F)) (records m K)
    (fun k => iprop(cred (tallyAt (recvCell c k) () N) ∗ atPos ER (recvCell c k) 0 ∅ 0))
    (fun k => iprop(atPos ER (recvCell c k) 1 ∅ 0 ∗ slotPts c k (gathered m)))
    (fun _ => iprop(∃ W, owes (c : Thread nD τ) 0 W))
    (fun i l k Q => by
      iintro ⟨#HR, ⟨Hc, Hat⟩, ⟨%W, HO⟩⟩ Hk
      unfold recvWaitOp
      iapply (wp_recvwait_step m K c i (recvLs i) (recvLs_eq i) (slotL_credit i) W) $$ [Hc HO Hat]
      · isplitr; · iexact HR
        isplitl [Hc]; · iexact Hc
        isplitl [HO] <;> iassumption
      iintro ⟨HO, Hat, Hs⟩
      iapply Hk
      isplitl [Hat Hs]
      · isplitl [Hat] <;> iassumption
      · iexists _; iexact HO)
    devs rest Q

/-- The sixteen send waits: the lent shares of the partial sums come back. -/
theorem wp_sendWaits (rest : Prog (TpuEff nD τ sig (Elt F) Λ₀ .tc) α) (Q : α → sProp 𝕄) :
    iprop(records m K
        ∗ bigSepL devs (fun j => iprop(cred (tallyAt (sendCell c j) () N) ∗ atPos ER (sendCell c j) 0 ∅ 0))
        ∗ (∃ W, owes (c : Thread nD τ) 0 W))
      ⊢ iprop(((bigSepL devs (fun j => iprop(atPos ER (sendCell c j) 1 ∅ 0 ∗ lPts c (shr j) (partSums m c))) ∗ (∃ W, owes (c : Thread nD τ) 0 W))
            -∗ wp frame (wpE (defs₀ (F := F)) 𝒱₀ (c : Thread nD τ) none) Set.univ rest Q)
          -∗ wp frame (wpE (defs₀ (F := F)) 𝒱₀ (c : Thread nD τ) none) Set.univ (opChain (sendWaitOp (F := F)) devs rest) Q) :=
  wp_opChain c (sendWaitOp (F := F)) (records m K)
    (fun j => iprop(cred (tallyAt (sendCell c j) () N) ∗ atPos ER (sendCell c j) 0 ∅ 0))
    (fun j => iprop(atPos ER (sendCell c j) 1 ∅ 0 ∗ lPts c (shr j) (partSums m c)))
    (fun _ => iprop(∃ W, owes (c : Thread nD τ) 0 W))
    (fun i l k Q => by
      iintro ⟨#HR, ⟨Hc, Hat⟩, ⟨%W, HO⟩⟩ Hk
      unfold sendWaitOp
      iapply (wp_sendwait_step m K c i (sendLs i) (sendLs_eq i) (rfl : (lM : Memref sig .tc .vmem S1x2048 .f32).view.dmaCredit = N) W) $$ [Hc HO Hat]
      · isplitr; · iexact HR
        isplitl [Hc]; · iexact Hc
        isplitl [HO] <;> iassumption
      iintro ⟨HO, Hat, Hs⟩
      iapply Hk
      isplitl [Hat Hs]
      · isplitl [Hat] <;> iassumption
      · iexists _; iexact HO)
    devs rest Q

end Runs

/-! ## Gluing: sixteen-fold resources together and apart, a persistent fact dealt to each -/

theorem devs2 (A B : Dev nD → sProp 𝕄) : iprop(bigSep Finset.univ A ∗ bigSep Finset.univ B) ⊢ bigSepL devs (fun j => iprop(A j ∗ B j)) := by
  rw [← bigSep_devs, bigSep_sep']
theorem devs2_split (A B : Dev nD → sProp 𝕄) : bigSepL devs (fun j => iprop(A j ∗ B j)) ⊢ iprop(bigSep Finset.univ A ∗ bigSep Finset.univ B) := by
  rw [← bigSep_devs, bigSep_sep']
theorem devs4 (A B C D : Dev nD → sProp 𝕄) :
    iprop(bigSep Finset.univ A ∗ bigSep Finset.univ B ∗ bigSep Finset.univ C ∗ bigSep Finset.univ D)
      ⊢ bigSepL devs (fun j => iprop(A j ∗ B j ∗ C j ∗ D j)) := by
  rw [← bigSep_devs, bigSep_sep', bigSep_sep', bigSep_sep']

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The own cells, each past its one round, close: their counters are zero again. -/
theorem close_sends (K : Dev nD × Fin 33 → ℕ) (c : Dev nD) :
    iprop(records m K ∗ bigSep Finset.univ (fun j : Dev nD => atPos ER (sendCell c j) 1 ∅ 0))
      ⊢ (|={Set.univ}=> bigSep Finset.univ (fun j : Dev nD => semVal (sendCell c j) 0) : sProp 𝕄) :=
  (bigSep_with_persistent (R := records m K) fun j _ => close_send m K c j).trans (bigSep_fupd _ _)
theorem close_recvs (K : Dev nD × Fin 33 → ℕ) (c : Dev nD) :
    iprop(records m K ∗ bigSep Finset.univ (fun k : Dev nD => atPos ER (recvCell c k) 1 ∅ 0))
      ⊢ (|={Set.univ}=> bigSep Finset.univ (fun k : Dev nD => semVal (recvCell c k) 0) : sProp 𝕄) :=
  (bigSep_with_persistent (R := records m K) fun k _ => close_recv m K c k).trans (bigSep_fupd _ _)

/-- A barrier landing's slot, the rest dropped. -/
theorem barPay_slot (c d : Dev nD) : (barPay (F := F) c d : sProp 𝕄) ⊢ iprop(∃ fd, slotPts d c fd) := by
  unfold barPay; iintro ⟨H, -⟩; iexact H

/-! ## The body -/

set_option maxHeartbeats 3200000 in
set_option maxRecDepth 65536 in
/-- The body, symbolically executed from `bodyPre` to `bodyPost`. -/
theorem sound_body (K : Dev nD × Fin 33 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part14_eq_skeleton]; unfold k0_part14_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel
    k0_part11_skel k0_part12_skel k0_part13_skel
  simp only [semSignalWord, semWaitWord, Prog.lift, Prog.bind_op, Prog.bind_ret, Prog.pure_eq_ret, wp_deviceId]
  unfold bodyPre ghost positions payToks
  iintro ⟨⟨⟨⟨#Hrec, ⟨HatB, HatS, HatR⟩, ⟨HtB, HtR, HtS⟩⟩, HcB, HcR, #Hlev, ⟨%fl, Hl⟩, ⟨%fg, Hg⟩⟩, Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  -- the sixteen signals: to device j's barrier cell, with slot j of the own gathering buffer
  ihave Hsl := (Entails.of_eq (gPts_slots c fg)) $$ Hg
  ihave Hp := (devs2 (fun j : Dev nD => (dutyTok ER (barCell j) 0 c : sProp 𝕄)) (fun j => slotPts c j fg)) $$ [HtB Hsl]
  · isplitl [HtB] <;> iassumption
  iapply (wp_signals m K c fg W _ Kt) $$ [Hp HO]
  · isplitr; · iexact Hrec
    isplitl [Hp] <;> iassumption
  iintro ⟨-, HO⟩
  -- the block loaded, its partial row sums stored
  iapply (wp_load 𝒱₀ (c : Thread nD τ) none Set.univ (m := xM) (Finset.subset_univ _)) $$ Hx; iintro Hx
  rw [read_x]
  unfold lPts
  iapply (wp_load 𝒱₀ (c : Thread nD τ) none Set.univ (m := lM) (by rw [l_set]; exact Finset.subset_univ _)) $$ Hl; iintro Hl
  iapply (wp_store 𝒱₀ (c : Thread nD τ) none Set.univ (m := lM) (r := r0l) (Mk := Finset.univ) (by rw [l_set]; exact Finset.subset_univ _)) $$ Hl; iintro Hl
  rw [write_l, show k0_pay2 (xblk m c) = partSums m c from rfl]
  -- the barrier wait: every device's slot c comes with it
  iapply (wp_barwait_step m K c (by decide) W) $$ [HcB HO HatB]
  · isplitr; · iexact Hrec
    isplitl [HcB]; · iexact HcB
    isplitl [HO]; · iexact HO
    isplitr; · iexact Hlev
    iexact HatB
  iintro ⟨HO, HatB, Hbp⟩
  -- the sixteen copies, each with a share of the partial sums
  ihave Hsh := (Transfers.pointsTo_toks_split fullShare 16) $$ Hl
  icases Hsh with ⟨Hlr, Hlq⟩
  ihave Hslots := (show (bigSep Finset.univ (fun d : Dev nD => barPay (F := F) c d) : sProp 𝕄)
      ⊢ bigSep Finset.univ (fun d : Dev nD => iprop(∃ fd, slotPts d c fd)) from
    bigSep_mono fun d _ => barPay_slot c d) $$ Hbp
  ihave Hp := (devs4 (fun j : Dev nD => lPts c (shr j) (partSums m c)) (fun j : Dev nD => iprop(∃ fd, slotPts j c fd))
    (fun j : Dev nD => (dutyTok ER (sendCell c j) 0 (0 : Dev nD) : sProp 𝕄)) (fun j : Dev nD => (dutyTok ER (recvCell j c) 0 (0 : Dev nD) : sProp 𝕄))) $$ [Hlq Hslots HtS HtR]
  · isplitl [Hlq]; · unfold lPts; iexact Hlq
    isplitl [Hslots]; · iexact Hslots
    isplitl [HtS] <;> iassumption
  iapply (wp_sends m K c _ _ Kt) $$ [Hp HO]
  · isplitr; · iexact Hrec
    isplitl [Hp] <;> iassumption
  iintro ⟨Hcs, HO⟩
  -- the sixteen receive waits: the sixteen slots come back holding the sixteen vectors of partial sums
  ihave Hcs := (Entails.of_eq (bigSep_devs (fun j : Dev nD => (cred (tallyAt (sendCell c j) () N) : sProp 𝕄))).symm) $$ Hcs
  ihave Hp := (devs2 (fun k : Dev nD => (cred (tallyAt (recvCell c k) () N) : sProp 𝕄)) (fun k => atPos ER (recvCell c k) 0 ∅ 0)) $$ [HcR HatR]
  · isplitl [HcR] <;> iassumption
  iapply (wp_recvWaits m K c _ Kt) $$ [Hp HO]
  · isplitr; · iexact Hrec
    isplitl [Hp]; · iexact Hp
    iexists _; iexact HO
  iintro ⟨Hy, HO⟩
  ihave Hy := (devs2_split (fun k : Dev nD => (atPos ER (recvCell c k) 1 ∅ 0 : sProp 𝕄)) (fun k => slotPts c k (gathered m))) $$ Hy
  icases Hy with ⟨HatR, Hgs⟩
  ihave Hg := (Entails.of_eq (gPts_slots c (gathered m)).symm) $$ Hgs
  -- the gathered sums loaded, the scaled block stored
  unfold gPts
  iapply (wp_load 𝒱₀ (c : Thread nD τ) none Set.univ (m := gM) (by rw [g_set]; exact Finset.subset_univ _)) $$ Hg; iintro Hg
  rw [read_g]
  iapply (wp_load 𝒱₀ (c : Thread nD τ) none Set.univ (m := oM) (Finset.subset_univ _)) $$ Hout; iintro Hout
  iapply (wp_store 𝒱₀ (c : Thread nD τ) none Set.univ (m := oM) (r := r0x) (Mk := Finset.univ) (Finset.subset_univ _)) $$ Hout; iintro Hout
  rw [write_out, show k0_pay3 (k0_pay1 (xblk m c)) (gathered m) = outBlk m c from rfl]
  -- the sixteen send waits: the lent shares come back
  ihave Hp := (devs2 (fun j : Dev nD => (cred (tallyAt (sendCell c j) () N) : sProp 𝕄)) (fun j => atPos ER (sendCell c j) 0 ∅ 0)) $$ [Hcs HatS]
  · isplitl [Hcs] <;> iassumption
  iapply (wp_sendWaits m K c _ Kt) $$ [Hp HO]
  · isplitr; · iexact Hrec
    isplitl [Hp] <;> iassumption
  iintro ⟨Hy, HO⟩
  ihave Hy := (devs2_split (fun j : Dev nD => (atPos ER (sendCell c j) 1 ∅ 0 : sProp 𝕄)) (fun j => lPts c (shr j) (partSums m c))) $$ Hy
  icases Hy with ⟨HatS, Hlq⟩
  -- the shares joined, the own cells closed
  ihave Hl := (Transfers.pointsTo_toks_join fullShare 16) $$ [Hlr Hlq]
  · isplitl [Hlr]; · iexact Hlr
    unfold lPts; iexact Hlq
  imod (close_sends m K c) $$ [HatS] with HzS
  · isplitr; · iexact Hrec
    iexact HatS
  imod (close_recvs m K c) $$ [HatR] with HzR
  · isplitr; · iexact Hrec
    iexact HatR
  rw [wp_ret]; imodintro
  iapply Hk
  unfold bodyPost Φ₁ Dat.owesAt Pipeline.owesWithin
  rw [show (dats m 0 c).owed t₀.succ = 0 from rfl]
  isplitl [Hl Hg HzS HzR]
  · isplitl [Hl]; · iexists _; unfold lPts; iexact Hl
    isplitl [Hg]; · iexists _; unfold gPts; iexact Hg
    isplitl [HzS] <;> iassumption
  isplitl [HO]
  · icases HO with ⟨%W3, HO⟩
    iexists W3
    isplitr; · ipureintro; exact fun _ _ => Or.inl trivial
    iexact HO
  isplitl [Hx]
  · iexists _; isplitr; · (ipureintro; rfl)
    iexact Hx
  iexists _; isplitr; · (ipureintro; rfl)
  iexact Hout

/-- info: 'Cert.KernelProof.sound_body' depends on axioms: [propext, Classical.choice, Quot.sound] -/
#guard_msgs in #print axioms sound_body

end Cert.KernelProof
end
-- ==== Proof.Kernel.Launch.lean ====
import proofs.«901061_g7700000000001062_dist_softmax_colshard_i_m2048_n1024_v7x_i16_f32_1_alg».proof.Proof.Kernel.Body
import proofs.«901061_g7700000000001062_dist_softmax_colshard_i_m2048_n1024_v7x_i16_f32_1_alg».proof.Proof.Gen.Kernel.Frame

/-!
# The launch: from every device's body to the run of the whole program
-/

noncomputable section

namespace Cert.KernelProof

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- Holding a whole buffer through its whole memref is holding the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  show iprop(∃ f, ⌜(Memref.whole b).view.read (Elt F) f = X⌝ ∗ ((Memref.whole b).view.loc (c : Thread nD τ) ↦[(Memref.whole b).view.set]{fullShare} f)) = _
  rw [Memref.view_whole, View.set_whole]
  rfl

set_option maxRecDepth 4000 in
/-- What the library hands the body at the one grid point. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 32768 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hl, Hgm⟩, Ho, Hx, Hout⟩
  iapply (sound_body m K c fun _ => bodyPost m c)
  unfold bodyPre
  isplitr []
  · isplitl [Hg Hrest Hl Hgm]
    · isplitl [Hg]; · iexact Hg
      icases Hrest with ⟨H1, H2, H3⟩
      isplitl [H1]; · iexact H1
      isplitl [H2]; · iexact H2
      isplitl [H3]; · iexact H3
      isplitl [Hl]; · iexact Hl
      iexact Hgm
    isplitl [Ho]; · iexact Ho
    isplitl [Hx] <;> iassumption
  · iintro H; iexact H

/-! ## The launch -/

theorem ownSemFacts : Pipeline.OwnSemFacts cfg0.spec osem := by decide +kernel

theorem share_eq (c : Dev nD) (w : Fin cfg0.W) : (dats m 0 c).share w = fullShare := by unfold Dat.share; split <;> rfl

theorem csem_injective : Function.Injective (csem : Fin 33 → SemLoc sig) := by decide +kernel

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's thirty-three cells. -/
def xCells : Finset (GSem nD τ sig) := Finset.univ.map ⟨kcell, kcell_injective⟩

/-- The duty tokens minted on a device's own cells: its barrier cell's sixteen, one for each send and each receive cell. -/
def tokOf : Dev nD × (Dev nD ⊕ (Dev nD ⊕ Dev nD)) → GSem nD τ sig × ℕ × Dev nD
  | (c, .inl d) => (barCell c, 0, d)
  | (c, .inr (.inl j)) => (sendCell c j, 0, 0)
  | (c, .inr (.inr k)) => (recvCell c k, 0, 0)

theorem tokOf_injective : Function.Injective tokOf := by
  rintro ⟨c, x⟩ ⟨c', x'⟩ h
  have h1 : c = c' := by
    have := congrArg (fun y : GSem nD τ sig × ℕ × Dev nD => y.1.1.1) h
    rcases x with d | j | k <;> rcases x' with d' | j' | k' <;> exact this
  subst h1
  have h2 : (tokOf (c, x)).1.2 = (tokOf (c, x')).1.2 := congrArg (fun y : GSem nD τ sig × ℕ × Dev nD => y.1.2) h
  have h3 : (tokOf (c, x)).2.2 = (tokOf (c, x')).2.2 := congrArg (fun y : GSem nD τ sig × ℕ × Dev nD => y.2.2) h
  rcases x with d | j | k <;> rcases x' with d' | j' | k'
  · have : d = d' := h3
    rw [this]
  · exact absurd h2 (fun h' => by cases h')
  · exact absurd h2 (fun h' => by cases h')
  · exact absurd h2 (fun h' => by cases h')
  · have : j = j' := sendS_inj (SemLoc.dma.inj h2)
    rw [this]
  · exact absurd (SemLoc.dma.inj h2) (sendS_ne_recvS j k')
  · exact absurd h2 (fun h' => by cases h')
  · exact absurd (SemLoc.dma.inj h2).symm (sendS_ne_recvS j' k)
  · have : k = k' := recvS_inj (SemLoc.dma.inj h2)
    rw [this]

def xToks : Finset (GSem nD τ sig × ℕ × Dev nD) := Finset.univ.map ⟨tokOf, tokOf_injective⟩

/-- The launch element: the pipeline library's copy beside the exchange's. -/
def u₀ : UU :=
  (initOf (Pipeline.cells cfgs cellOf_inj) (Pipeline.launchToks cfgs cellOf_inj), initOf xCells xToks)

/-- The duty tokens of device `c`'s own cells. -/
def toks (c : Dev nD) : sProp 𝕄 :=
  iprop((bigSep Finset.univ fun d : Dev nD => dutyTok ER (barCell c) 0 d)
    ∗ (bigSep Finset.univ fun j : Dev nD => dutyTok ER (sendCell c j) 0 (0 : Dev nD))
    ∗ (bigSep Finset.univ fun k : Dev nD => dutyTok ER (recvCell c k) 0 (0 : Dev nD)))

/-- What the launch element deals device `c`. -/
def G (c : Dev nD) : sProp 𝕄 :=
  iprop((bigSep Finset.univ fun k : Fin 33 => roundState ER (xRd m) (kcell (c, k)) 0)
    ∗ (bigSep Finset.univ fun k : Fin 33 => iprop(atPos ER (kcell (c, k)) 0 ∅ 0 ∗ reached ER (kcell (c, k)) 0)) ∗ toks c)

/-- What the global step makes of it. -/
def G' (c : Dev nD) : sProp 𝕄 := iprop(∃ K, ghost m K c)

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 33 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_sum, bigSep_univ_sum]; rfl
  iintro HX
  imod (Rounds.fund ER (xRd m) xCells xToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The cell index: the barrier cell, the sixteen send cells, the sixteen receive cells -/

theorem dev_lt (j : Dev nD) : j.val < 16 := j.isLt
theorem iBar_val : (iBar : Fin 33).val = 0 := rfl
theorem iSend_val (j : Dev nD) : (iSend j).val = j.val + 1 := rfl
theorem iRecv_val (k : Dev nD) : (iRecv k).val = k.val + 17 := rfl

theorem iSend_injective : Function.Injective iSend := fun a b h => by
  have := congrArg Fin.val h; rw [iSend_val, iSend_val] at this; exact Fin.ext (by omega)
theorem iRecv_injective : Function.Injective iRecv := fun a b h => by
  have := congrArg Fin.val h; rw [iRecv_val, iRecv_val] at this; exact Fin.ext (by omega)

theorem univ33 : (Finset.univ : Finset (Fin 33))
    = insert iBar (Finset.univ.map ⟨iSend, iSend_injective⟩ ∪ Finset.univ.map ⟨iRecv, iRecv_injective⟩) := by
  ext i
  simp only [Finset.mem_univ, Finset.mem_insert, Finset.mem_union, Finset.mem_map, Function.Embedding.coeFn_mk, true_and, true_iff]
  by_cases h0 : i.val = 0
  · exact Or.inl (Fin.ext h0)
  · by_cases h1 : i.val ≤ 16
    · exact Or.inr (Or.inl ⟨⟨i.val - 1, by show i.val - 1 < 16; omega⟩, Fin.ext (by show i.val - 1 + 1 = i.val; omega)⟩)
    · exact Or.inr (Or.inr ⟨⟨i.val - 17, by show i.val - 17 < 16; have := i.isLt; omega⟩, Fin.ext (by show i.val - 17 + 17 = i.val; omega)⟩)

/-- A family over a device's thirty-three cells, sorted by kind. -/
theorem bigSep_fin33 (Φ : Fin 33 → sProp 𝕄) : bigSep Finset.univ Φ
    = iprop(Φ iBar ∗ (bigSep Finset.univ fun j : Dev nD => Φ (iSend j)) ∗ bigSep Finset.univ fun k : Dev nD => Φ (iRecv k)) := by
  have hd : Disjoint (Finset.univ.map ⟨iSend, iSend_injective⟩) (Finset.univ.map ⟨iRecv, iRecv_injective⟩) := by
    rw [Finset.disjoint_left]; intro a ha hb
    obtain ⟨j, -, rfl⟩ := Finset.mem_map.mp ha
    obtain ⟨k, -, hk⟩ := Finset.mem_map.mp hb
    have e := congrArg Fin.val hk
    have e1 := iSend_val j; have e2 := iRecv_val k; have hj := dev_lt j
    simp only [Function.Embedding.coeFn_mk] at e
    omega
  have hn : iBar ∉ Finset.univ.map ⟨iSend, iSend_injective⟩ ∪ Finset.univ.map ⟨iRecv, iRecv_injective⟩ := by
    intro h
    rcases Finset.mem_union.mp h with h | h
    · obtain ⟨j, -, hj⟩ := Finset.mem_map.mp h
      have e := congrArg Fin.val hj; have e1 := iSend_val j; have e0 := iBar_val
      simp only [Function.Embedding.coeFn_mk] at e
      omega
    · obtain ⟨k, -, hk⟩ := Finset.mem_map.mp h
      have e := congrArg Fin.val hk; have e1 := iRecv_val k; have e0 := iBar_val
      simp only [Function.Embedding.coeFn_mk] at e
      omega
  rw [univ33, bigSep_insert hn, bigSep_union hd, bigSep_map, bigSep_map]; rfl

/-- The kernel's own thirty-two semaphores, sorted likewise. -/
def oSend (j : Dev nD) : Fin 32 := ⟨j.val, by have := dev_lt j; omega⟩
def oRecv (k : Dev nD) : Fin 32 := ⟨k.val + 16, by have := dev_lt k; omega⟩
theorem oSend_val (j : Dev nD) : (oSend j).val = j.val := rfl
theorem oRecv_val (k : Dev nD) : (oRecv k).val = k.val + 16 := rfl
theorem oSend_injective : Function.Injective oSend := fun a b h => by
  have := congrArg Fin.val h; rw [oSend_val, oSend_val] at this; exact Fin.ext this
theorem oRecv_injective : Function.Injective oRecv := fun a b h => by
  have := congrArg Fin.val h; rw [oRecv_val, oRecv_val] at this; exact Fin.ext (by omega)

theorem osem_send (j : Dev nD) : osem (oSend j) = .dma (sendS j) := by
  have : (oSend j).succ = iSend j := Fin.ext rfl
  unfold osem; rw [this, csem_send]
theorem osem_recv (k : Dev nD) : osem (oRecv k) = .dma (recvS k) := by
  have : (oRecv k).succ = iRecv k := Fin.ext (by show k.val + 16 + 1 = k.val + 17; omega)
  unfold osem; rw [this, csem_recv]

theorem univ32 : (Finset.univ : Finset (Fin 32))
    = Finset.univ.map ⟨oSend, oSend_injective⟩ ∪ Finset.univ.map ⟨oRecv, oRecv_injective⟩ := by
  ext i
  simp only [Finset.mem_univ, Finset.mem_union, Finset.mem_map, Function.Embedding.coeFn_mk, true_and, true_iff]
  by_cases h1 : i.val < 16
  · exact Or.inl ⟨⟨i.val, h1⟩, Fin.ext rfl⟩
  · exact Or.inr ⟨⟨i.val - 16, by show i.val - 16 < 16; have := i.isLt; omega⟩, Fin.ext (by show i.val - 16 + 16 = i.val; omega)⟩

theorem bigSep_fin32 (Φ : Fin 32 → sProp 𝕄) : bigSep Finset.univ Φ
    = iprop((bigSep Finset.univ fun j : Dev nD => Φ (oSend j)) ∗ bigSep Finset.univ fun k : Dev nD => Φ (oRecv k)) := by
  have hd : Disjoint (Finset.univ.map ⟨oSend, oSend_injective⟩) (Finset.univ.map ⟨oRecv, oRecv_injective⟩) := by
    rw [Finset.disjoint_left]; intro a ha hb
    obtain ⟨j, -, rfl⟩ := Finset.mem_map.mp ha
    obtain ⟨k, -, hk⟩ := Finset.mem_map.mp hb
    have e := congrArg Fin.val hk
    have e1 := oSend_val j; have e2 := oRecv_val k; have hj := dev_lt j
    simp only [Function.Embedding.coeFn_mk] at e
    omega
  rw [univ32, bigSep_union hd, bigSep_map, bigSep_map]; rfl

/-! ### The semaphores at launch -/

/-- The send and the receive semaphores are the kernel's own thirty-two; -/
theorem ownSems0_eq (c : Dev nD) : (Pipeline.ownSems0 (Ix := Unit) (Name := ℕ) (U := UU) (Lvl := ℕ) (Val := Elt F) (τ := τ) osem c : sProp 𝕄)
    = iprop((bigSep Finset.univ fun j : Dev nD => semVal (sendCell c j) 0) ∗ bigSep Finset.univ fun k : Dev nD => semVal (recvCell c k) 0) := by
  unfold Pipeline.ownSems0; rw [bigSep_fin32]; simp only [osem_send, osem_recv]

/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [ownSems0_eq, unscopedSems0_eq, bigSep_fin33]
  simp only [kcell_bar, kcell_send, kcell_recv]
  iintro ⟨⟨HS, HV⟩, HB⟩
  isplitl [HB]; · iexact HB
  isplitl [HS] <;> iassumption

/-- One device's cells' invariants allocated, from its counters at zero and the round states dealt to it. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (xRd m) κ (kcell (c, k))))
          ∗ (bigSep Finset.univ fun k : Fin 33 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (xRd m) (kcell (c, k)) 0)
      ⊢ (|={Set.univ}=> bigSep Finset.univ fun k : Fin 33 => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Every device's ghost state from what the devices' own cells give -/

theorem ghost_intro (K : Dev nD × Fin 33 → ℕ) (c : Dev nD) : iprop(records m K ∗ positions c ∗ payToks c) ⊢ G' m c := by
  unfold G' ghost
  iintro H; iexists K; iexact H

theorem positions_eq (c : Dev nD) : (bigSep Finset.univ fun k : Fin 33 => (atPos ER (kcell (c, k)) 0 ∅ 0 : sProp 𝕄)) = positions c := by
  rw [bigSep_fin33]; unfold positions
  simp only [kcell_bar, kcell_send, kcell_recv]

/-- The tokens dealt to their payers: the token of device `d`'s duty on device `c`'s barrier cell goes to `d`, the token
    of device `c`'s receive cell `k` to the sender `k`; a send cell's token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_comm (fun c d : Dev nD => (dutyTok ER (barCell c) 0 d : sProp 𝕄)),
    bigSep_univ_comm (fun c k : Dev nD => (dutyTok ER (recvCell c k) 0 (0 : Dev nD) : sProp 𝕄))]
  iintro ⟨H1, H2, H3⟩
  isplitl [H1]; · iexact H1
  isplitl [H3]; · iexact H3
  iexact H2

theorem regroup :
    (bigSep Finset.univ fun c : Dev nD => iprop((bigSep Finset.univ fun k : Fin 33 => iprop(∃ κ : ℕ, cellInv ER (xRd m) κ (kcell (c, k))))
          ∗ (bigSep Finset.univ fun k : Fin 33 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 33 => iprop(∃ κ : ℕ, cellInv ER (xRd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (xRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ iprop(positions c ∗ payToks c) from Entails.of_eq (by rw [positions_eq])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b k k' : Dev nD} : Iff (recvCell a k = recvCell b k') (a = b ∧ k = k') :=
  ⟨fun h => ⟨Fin.ext (congrArg (fun g : GSem nD τ sig => g.1.1.val) h), recvS_inj (SemLoc.dma.inj (congrArg Prod.snd h))⟩,
    fun h => by rw [h.1, h.2]⟩
theorem recv_ne_barCell (a k b : Dev nD) : recvCell a k ≠ barCell b := fun h => recv_ne_bar k (congrArg Prod.snd h)

theorem devs_count (c : Dev nD) : devs.count c = 1 := by revert c; decide

/-- What a device owes, read at a receive cell and at a barrier cell: the receive credits, -/
theorem oweRecv_recv (d : Dev nD) (js : List (Dev nD)) (c k : Dev nD) :
    oweRecv d js (recvCell c k) () = if k = d then js.count c * N else 0 := by
  induction js with
  | nil => show (0 : ℕ) = _; split <;> simp
  | cons j js ih =>
    show (oweRecv d js + tallyAt (recvCell j d) () N) (recvCell c k) () = _
    rw [Pi.add_apply, Finsupp.add_apply, ih, tallyAt_apply, List.count_cons]
    by_cases hk : k = d
    · subst hk
      by_cases hj : c = j
      · subst hj; simp [Nat.add_mul]
      · have h1 : ¬ (recvCell c k = recvCell j k ∧ () = ()) := fun h => hj (recv_eq_iff.mp h.1).1
        have h2 : (j == c) = false := by rw [beq_eq_false_iff_ne]; exact Ne.symm hj
        rw [if_neg h1, h2]; simp
    · have h1 : ¬ (recvCell c k = recvCell j d ∧ () = ()) := fun h => hk (recv_eq_iff.mp h.1).2
      rw [if_neg hk, if_neg h1, if_neg hk]
theorem oweRecv_bar (d : Dev nD) (js : List (Dev nD)) (c : Dev nD) : oweRecv d js (barCell c) () = 0 := by
  induction js with
  | nil => rfl
  | cons j js ih =>
    show (oweRecv d js + tallyAt (recvCell j d) () N) (barCell c) () = _
    rw [Pi.add_apply, Finsupp.add_apply, ih, tallyAt_ne_cell (fun h => recv_ne_barCell j d c h.symm), Finsupp.zero_apply, Nat.add_zero]

/-- and the barrier units over them. -/
theorem oweBar_bar (base : CellTallies nD τ sig Unit) (js : List (Dev nD)) (c : Dev nD) :
    oweBar base js (barCell c) () = base (barCell c) () + js.count c := by
  induction js with
  | nil => rfl
  | cons j js ih =>
    show (oweBar base js + tallyAt (barCell j) () 1) (barCell c) () = _
    rw [Pi.add_apply, Finsupp.add_apply, ih, tallyAt_apply, List.count_cons]
    by_cases hj : c = j
    · subst hj; simp <;> omega
    · have h1 : ¬ (barCell c = barCell j ∧ () = ()) := fun h => hj (bar_eq_iff.mp h.1)
      have h2 : (j == c) = false := by rw [beq_eq_false_iff_ne]; exact Ne.symm hj
      rw [if_neg h1, h2]; simp
theorem oweBar_recv (base : CellTallies nD τ sig Unit) (js : List (Dev nD)) (c k : Dev nD) :
    oweBar base js (recvCell c k) () = base (recvCell c k) () := by
  induction js with
  | nil => rfl
  | cons j js ih =>
    show (oweBar base js + tallyAt (barCell j) () 1) (recvCell c k) () = _
    rw [Pi.add_apply, Finsupp.add_apply, ih, tallyAt_ne_cell (recv_ne_barCell c k j), Finsupp.zero_apply, Nat.add_zero]

/-- Every device owes every barrier cell one unit, -/
theorem owed_bar (d c : Dev nD) : O₀ d (barCell c) () = 1 := by
  unfold O₀ O₁; rw [oweBar_bar, oweRecv_bar, devs_count]
/-- and device `d` owes a receive cell `k` the vector's credit when `k = d`. -/
theorem owed_recv (d c k : Dev nD) : O₀ d (recvCell c k) () = if k = d then N else 0 := by
  unfold O₀ O₁; rw [oweBar_recv, oweRecv_recv, devs_count, Nat.one_mul]

theorem launch_bar (c : Dev nD) :
    tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar d c, Finset.sum_const, Finset.card_univ,
    Fintype.card_fin, smul_eq_mul]
  rfl

theorem launch_recv (c k : Dev nD) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq Finset.univ k fun _ => N, if_pos (Finset.mem_univ _)]

/-- A device's launch credit: its barrier cell's sixteen units, each receive cell's landing. -/
theorem creds (c : Dev nD) :
    (Pipeline.launchCred O₀ c : sProp 𝕄) ⊢ iprop(cred (tallyAt (barCell c) () 16) ∗ bigSep Finset.univ fun k : Dev nD => cred (tallyAt (recvCell c k) () N)) := by
  have hinj : Function.Injective (fun k : Dev nD => (SemLoc.dma (recvS k) : SemLoc sig)) := fun a b h => recvS_inj (SemLoc.dma.inj h)
  have hsub : Finset.univ.map ⟨fun k : Dev nD => (SemLoc.dma (recvS k) : SemLoc sig), hinj⟩ ⊆ Finset.univ.erase (SemLoc.reg barS) := fun s hs => by
    obtain ⟨k, -, rfl⟩ := Finset.mem_map.mp hs
    exact Finset.mem_erase.mpr ⟨recv_ne_bar k, Finset.mem_univ _⟩
  unfold Pipeline.launchCred
  rw [bigSep_univ_at _ (SemLoc.reg barS), launch_bar]
  refine sep_mono_right ((bigSep_subset hsub).trans ?_)
  rw [bigSep_map]
  exact Entails.of_eq (bigSep_congr fun k _ => congrArg cred (launch_recv c k))

/-! ### The levels of the staging waits -/

theorem owedRecv_pos_cell {d : Dev nD} {js : List (Dev nD)} {g : GSem nD τ sig} {u : Unit} (h : 0 < oweRecv d js g u) : ∃ j, g = recvCell j d := by
  induction js with
  | nil => exact absurd h (Nat.lt_irrefl 0)
  | cons j js ih =>
    rcases Pipeline.add_pos_cases (show 0 < (oweRecv d js + tallyAt (recvCell j d) () N) g u from h) with h | h
    · exact ih h
    · exact ⟨j, (Pipeline.tallyAt_pos h).1⟩
theorem owedBar_pos_cell {base : CellTallies nD τ sig Unit} {js : List (Dev nD)} {g : GSem nD τ sig} {u : Unit} (h : 0 < oweBar base js g u) :
    0 < base g u ∨ ∃ j, g = barCell j := by
  induction js with
  | nil => exact Or.inl h
  | cons j js ih =>
    rcases Pipeline.add_pos_cases (show 0 < (oweBar base js + tallyAt (barCell j) () 1) g u from h) with h | h
    · exact ih h
    · exact Or.inr ⟨j, (Pipeline.tallyAt_pos h).1⟩
/-- What a device owes at launch sits on barrier cells and receive cells only. -/
theorem owed_pos_cell {c : Dev nD} {g : GSem nD τ sig} {u : Unit} (h : 0 < O₀ c g u) : (∃ j, g = barCell j) ∨ ∃ j, g = recvCell j c := by
  rcases owedBar_pos_cell h with h | h
  · exact Or.inr (owedRecv_pos_cell h)
  · exact Or.inl h

theorem recvIdx_of_ne (s : SemLoc sig) (h : ∀ k : Dev nD, s ≠ .dma (recvS k)) : recvIdx s = none := by
  unfold recvIdx
  rw [Finset.filter_false_of_mem (fun k _ => h k)]; rfl

/-- A wait on a staging cell, while the device owes all it owes at launch or nothing: level 0, below barrier and receive cells. -/
theorem mayWait_stage (c : Dev nD) (q : DmaSem sig) (hq : ∀ k : Dev nD, (SemLoc.dma q : SemLoc sig) ≠ .dma (recvS k))
    (O : CellTallies nD τ sig Unit) (hO : O = O₀ c ∨ O = 0) :
    (levAts L lv : sProp 𝕄) ⊢ MayWait (c : Thread nD τ) (.dma q) () O := by
  rcases hO with rfl | rfl
  · have hl : lv ((c : Thread nD τ), SemLoc.dma q) () = 0 := by
      dsimp only [lv]; rw [if_neg (fun h => by cases h), recvIdx_of_ne _ hq]; rfl
    refine Pipeline.mayWait_of_levAts (by rw [L_tc]; exact Finset.mem_singleton_self _) fun g u hg => ?_
    rcases owed_pos_cell hg with ⟨j, rfl⟩ | ⟨j, rfl⟩
    · refine ⟨by rw [L_tc]; exact Finset.mem_singleton.mpr rfl, ?_⟩
      rw [hl]; dsimp only [lv]; rw [if_pos rfl]; exact Nat.one_pos
    · refine ⟨by rw [L_tc]; exact Finset.mem_singleton.mpr rfl, ?_⟩
      rw [hl]; dsimp only [lv]; rw [if_neg (recv_ne_bar c), recvIdx_recv]; exact Nat.succ_pos 1
  · rw [MayWait_zero]; iintro -; iempintro

/-! ### The theorem's side conditions -/

theorem lPts_eq (c : Dev nD) (f : Buf (Elt F) ((c : Thread nD τ).loc cc0_scratch0)) :
    lPts c fullShare f = (((c : Thread nD τ).loc cc0_scratch0) ↦{fullShare} f : sProp 𝕄) := by unfold lPts; rw [View.set_whole]
theorem gPts_eq (c : Dev nD) (f : Buf (Elt F) ((c : Thread nD τ).loc cc0_scratch1)) :
    gPts c f = (((c : Thread nD τ).loc cc0_scratch1) ↦{fullShare} f : sProp 𝕄) := by unfold gPts; rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hl⟩, ⟨%g, Hg⟩⟩
  isplitl [Hs]; · iexact Hs
  isplitl [Hl]
  · iexists f; rw [lPts_eq]; iexact Hl
  · iexists g; rw [gPts_eq]; iexact Hg

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hl⟩, ⟨%g, Hg⟩, HzS, HzV⟩
  isplitr; · iempintro
  isplitl [HzS HzV]
  · isplitl [HzS] <;> iassumption
  isplitl [Hl]
  · iexists f; rw [← lPts_eq]; iexact Hl
  · iexists g; rw [← gPts_eq]; iexact Hg

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

/-- The windows' arrays after the one grid point. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every weakly fair execution of @main terminates, and every final state has the windows' arrays as the one grid point leaves them. -/
theorem run_arrays : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array after the run holds what it held: an input window's array is never written back. -/
theorem finalA_x (c : Dev nD) : finalA m c (0 : Fin 2) = m (win0_0.arr.view.loc (c : Thread nD τ)) :=
  (dats (F := F) m 0 c).arrAt_in (0 : Fin 2) rfl _

/-- The result array after the run: the one grid point writes back its one block, which is the whole array, from the
    staging buffer the body left at the scaled block. -/
theorem finalA_out (c : Dev nD) : finalA m c (1 : Fin 2) = outBlk m c := by
  show (dats m 0 c).arrAt (1 : Fin 2) (t₀.val + 1) = outBlk m c
  rw [Dat.arrAt_succ, if_pos (flush0_1 t₀)]
  exact Memref.write_access_unit_zero_univ (Elt F) main_v1 (off := fun a => win0_1.index t₀ a * win0_1.size a)
    (funext fun a => by fin_cases a <;> rfl) _ _ (outBlk m c)

/-- At the compiled mesh of sixteen devices, from any memory with zero counters: every weakly fair execution of @main
    terminates, and every final state has each device's result array at its scaled block and its argument unchanged. -/
theorem run_main : θ_run defs (onTc (τ := τ) (main (F := F))) ⟨m, fun _ => 0, ρ⟩ (fun r => ∀ c : Dev nD,
    r.2.mem ((c.tc : Thread nD τ).loc main_v1) = outBlk m c
      ∧ r.2.mem ((c.tc : Thread nD τ).loc main_arg0) = m ((c.tc : Thread nD τ).loc main_arg0)) :=
  (θ_run defs _ _).mono (fun _ h c => ⟨(h c 1).trans (finalA_out m c), (h c 0).trans (finalA_x m c)⟩) (run_arrays m ρ)

/-- info: 'Cert.KernelProof.run_main' depends on axioms: [propext, Classical.choice, Quot.sound] -/
#guard_msgs in #print axioms run_main

end Cert.KernelProof
end
-- ==== Proof.KernelIdeal.Spec.lean ====
import proofs.«901061_g7700000000001062_dist_softmax_colshard_i_m2048_n1024_v7x_i16_f32_1_alg».proof.Proof.Gen.KernelIdeal.Skeleton
import Idealize.ShloMosaic.Lib.ValueIdx

/-!
# What each device computes, as pure functions of the launch memory

Device `c` holds block `c` (columns `1024·c … 1024·c + 1023`) of the matrix `x`. Its kernel forms
`e = exp x` on its block and the row sums of `e` over its own columns (a row vector of length 2048); the sixteen
devices exchange these row vectors, so that every device ends holding all sixteen, stacked; each then adds
the sixteen vectors (the row sums of `exp x` over ALL columns), takes reciprocals, and scales its block of `e`
row by row. The terms below name these values; they are the same at every float instance.
-/

noncomputable section

namespace Cert.KernelIdeal.Spec

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Device `c`'s block of `x`, as the kernel finds it in its input window. -/
def xblk (c : Dev nD) : Vec F S2048x1024 .f32 :=
  (win0_0.blk (0 : Fin 1)).view.read (Elt F) (m ((c : Thread nD τ).loc main_arg0))

/-- `exp` of device `c`'s block. -/
def expBlk (c : Dev nD) : FVec F S2048x1024 .f32 := k0_pay1 (xblk m c)

/-- The row sums of `exp x` over device `c`'s columns, as a row vector. -/
def partSums (c : Dev nD) : FVec F S1x2048 .f32 := k0_pay2 (xblk m c)

/-- The sixteen devices' partial row sums stacked: entry `(d, 0, r)` is device `d`'s partial sum of row `r`. -/
def gathered : Vec F S16x1x2048 .f32 := fun i => partSums m (i 0) (ValueIdx.ix2 (0 : Fin 1) (i 2))

/-- Device `c`'s result block: `exp x` scaled, row by row, by the reciprocal of the sum of the sixteen partial row sums. -/
def outBlk (c : Dev nD) : FVec F S2048x1024 .f32 := k0_pay3 (expBlk m c) (gathered m)

end Cert.KernelIdeal.Spec

end
-- ==== Proof.KernelIdeal.Sched.lean ====
import proofs.«901061_g7700000000001062_dist_softmax_colshard_i_m2048_n1024_v7x_i16_f32_1_alg».proof.Proof.KernelIdeal.Spec
import proofs.«901061_g7700000000001062_dist_softmax_colshard_i_m2048_n1024_v7x_i16_f32_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

/-!
# The exchange of partial row sums among the sixteen devices: cells, rounds, payloads

Every device `c` signals the barrier semaphore of every device (itself included) once and waits for sixteen units on its
own: after that wait all sixteen devices are inside the kernel. Device `d`'s signal to device `c` hands `c` the one slot
of `d`'s gathering buffer that `c` will write (slot `c`), and the fact that `d`'s receive semaphore `c` is at its first
round. Then `c` copies its vector of partial row sums into slot `c` of every device `j`, on its own send semaphore `j`
and on `j`'s receive semaphore `c`; the sixteen copies read the one source at sixteen shares of it. A receive
semaphore's one landing hands its owner the slot holding the sender's partial sums; a send semaphore's hands the
sender its share of the source back.
-/

noncomputable section

namespace Cert.KernelIdealProof

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero. -/
def st0 : MemSt nD τ sig (Elt F) := ⟨m, fun _ => 0, ρ⟩

/-! ## Memrefs and cells -/

abbrev xM : Memref sig .tc .vmem S2048x1024 .f32 := Memref.whole cc0_stg0_0
abbrev oM : Memref sig .tc .vmem S2048x1024 .f32 := Memref.whole cc0_stg1_0
/-- The vector of partial row sums. -/
abbrev lM : Memref sig .tc .vmem S1x2048 .f32 := Memref.whole cc0_scratch0
/-- The gathering buffer: sixteen such vectors. -/
abbrev gM : Memref sig .tc .vmem S16x1x2048 .f32 := Memref.whole cc0_scratch1
/-- Slot `k` of the gathering buffer. -/
abbrev slotM (k : Dev nD) : Memref sig .tc .vmem S1x2048 .f32 :=
  (gM.slice (Rect.unit (s := S16x1x2048) (k0_off2 k) S1x1x2048.size (k0_off2_inb k)) (fun _ => rfl)).squeeze S1x2048 squeezes_S1x1x2048_S1x2048

abbrev barS : Sem sig := (SemArray.scalar (sig.barrier 0 rfl) : Sems sig S_).sem
/-- Send semaphore `j` (the copy to device `j`), receive semaphore `k` (the copy from device `k`). -/
abbrev sendS (j : Dev nD) : DmaSem sig := ((cc0_scratch2.slice (Rect.unit (s := S16) (k0_off1 j) S1.size (k0_off1_inb j))).squeeze S_ squeezes_S1_S_).sem
abbrev recvS (k : Dev nD) : DmaSem sig := ((cc0_scratch3.slice (Rect.unit (s := S16) (k0_off1 k) S1.size (k0_off1_inb k))).squeeze S_ squeezes_S1_S_).sem

theorem sendS_val : ∀ j : Dev nD, (sendS j).val = 2 + j.val := by decide +kernel
theorem recvS_val : ∀ k : Dev nD, (recvS k).val = 18 + k.val := by decide +kernel

abbrev barCell (c : Dev nD) : GSem nD τ sig := ((c : Thread nD τ), .reg barS)
abbrev sendCell (c j : Dev nD) : GSem nD τ sig := ((c : Thread nD τ), .dma (sendS j))
abbrev recvCell (c k : Dev nD) : GSem nD τ sig := ((c : Thread nD τ), .dma (recvS k))

abbrev N : ℕ := (lM : Memref sig .tc .vmem S1x2048 .f32).view.dmaCredit
theorem N_pos : 0 < N := View.dmaCredit_pos _ (by decide)

/-! ## Contents and points-to assertions -/

def lPts (c : Dev nD) (q : PosShare TreeShare) (f : Buf (Elt F) ((lM : Memref sig .tc .vmem S1x2048 .f32).view.loc (c : Thread nD τ))) : sProp 𝕄 :=
  (lM : Memref sig .tc .vmem S1x2048 .f32).view.loc (c : Thread nD τ) ↦[(lM : Memref sig .tc .vmem S1x2048 .f32).view.set]{q} f
/-- Slot `k` of device `c`'s gathering buffer, at contents `f` (a valuation of the whole buffer: only slot `k` of it matters). -/
def slotPts (c k : Dev nD) (f : Buf (Elt F) ((slotM k).view.loc (c : Thread nD τ))) : sProp 𝕄 :=
  (slotM k).view.loc (c : Thread nD τ) ↦[(slotM k).view.set]{fullShare} f
def gPts (c : Dev nD) (f : Buf (Elt F) ((gM : Memref sig .tc .vmem S16x1x2048 .f32).view.loc (c : Thread nD τ))) : sProp 𝕄 :=
  (gM : Memref sig .tc .vmem S16x1x2048 .f32).view.loc (c : Thread nD τ) ↦[(gM : Memref sig .tc .vmem S16x1x2048 .f32).view.set]{fullShare} f

/-- The share of its vector of partial sums that device `c` lends to its copy to device `j`. -/
abbrev shr (j : Dev nD) : PosShare TreeShare := Transfers.shareTok fullShare 16 j

instance lPts_storable (c : Dev nD) (q) (f) : BI.Storable (upEmb : UEmb _ 𝕄) (lPts (F := F) c q f) := by unfold lPts; infer_instance
instance slotPts_storable (c k : Dev nD) (f) : BI.Storable (upEmb : UEmb _ 𝕄) (slotPts (F := F) c k f) := by unfold slotPts; infer_instance
instance gPts_storable (c : Dev nD) (f) : BI.Storable (upEmb : UEmb _ 𝕄) (gPts (F := F) c f) := by unfold gPts; infer_instance

/-! ## The schedule -/

/-- What device `d`'s signal hands device `c`: slot `c` of `d`'s gathering buffer, and that `d`'s receive cell `c` is at round 0. -/
def barPay (c d : Dev nD) : sProp 𝕄 := iprop((∃ f, slotPts d c f) ∗ reached ER (recvCell d c) 0)
/-- What the landing on device `c`'s receive cell `k` hands it: slot `k` holding device `k`'s partial sums. -/
def recvPay (c k : Dev nD) : sProp 𝕄 := slotPts c k (gathered m)
/-- What the completion on device `c`'s send cell `j` hands it back: the share of its partial sums it lent. -/
def sendPay (c j : Dev nD) : sProp 𝕄 := lPts c (shr j) (partSums m c)

abbrev IsBar (g : GSem nD τ sig) : Prop := g.1.2 = .tc ∧ g.2 = .reg barS
abbrev IsDma (g : GSem nD τ sig) : Prop := g.1.2 = .tc ∧ ∃ q : DmaSem sig, g.2 = .dma q ∧ 2 ≤ q.val

/-- Which of a device's semaphores a location is: its send cell `j` or its receive cell `k`. -/
def sendIdx (s : SemLoc sig) : Option (Dev nD) := (Finset.univ.filter fun j : Dev nD => s = .dma (sendS j)).min
def recvIdx (s : SemLoc sig) : Option (Dev nD) := (Finset.univ.filter fun k : Dev nD => s = .dma (recvS k)).min

/-- One round, round 0: a barrier cell has sixteen duties of one unit, one per device; a send or a receive cell one duty
    (named `0`) of the vector's credit. -/
def xRd : Rounds.Schedule (GSem nD τ sig) (Dev nD) 𝕄 where
  duties g r := if r = 0 ∧ IsBar g then Finset.univ else if r = 0 ∧ IsDma g then {0} else ∅
  unitless _ := False
  amount g _ _ := if g.2 = .reg barS then 1 else N
  payload g _ d :=
    if g.2 = .reg barS then barPay g.1.1 d
    else match recvIdx g.2 with
      | some k => recvPay m g.1.1 k
      | none => match sendIdx g.2 with
        | some j => sendPay m g.1.1 j
        | none => iprop(emp)
  amount_pos g _ _ _ := by
    by_cases h : g.2 = .reg barS
    · rw [if_pos h]; exact Nat.one_pos
    · rw [if_neg h]; exact N_pos

theorem sendS_inj : Function.Injective (sendS : Dev nD → DmaSem sig) := by decide +kernel
theorem recvS_inj : Function.Injective (recvS : Dev nD → DmaSem sig) := by decide +kernel
theorem sendS_ne_recvS : ∀ j k : Dev nD, sendS j ≠ recvS k := by decide +kernel

theorem recvIdx_recv (k : Dev nD) : recvIdx (SemLoc.dma (recvS k) : SemLoc sig) = some k := by
  unfold recvIdx
  have : (Finset.univ.filter fun k' : Dev nD => (SemLoc.dma (recvS k) : SemLoc sig) = .dma (recvS k')) = {k} := by
    ext k'; simp only [Finset.mem_filter, Finset.mem_univ, true_and, Finset.mem_singleton]
    constructor
    · intro h; exact (recvS_inj (SemLoc.dma.inj h)).symm
    · rintro rfl; rfl
  rw [this]; rfl
theorem recvIdx_send (j : Dev nD) : recvIdx (SemLoc.dma (sendS j) : SemLoc sig) = none := by
  unfold recvIdx
  have : (Finset.univ.filter fun k' : Dev nD => (SemLoc.dma (sendS j) : SemLoc sig) = .dma (recvS k')) = ∅ := by
    ext k'; simp only [Finset.mem_filter, Finset.mem_univ, true_and, Finset.notMem_empty, iff_false]
    intro h; exact sendS_ne_recvS j k' (SemLoc.dma.inj h)
  rw [this]; rfl
theorem sendIdx_send (j : Dev nD) : sendIdx (SemLoc.dma (sendS j) : SemLoc sig) = some j := by
  unfold sendIdx
  have : (Finset.univ.filter fun j' : Dev nD => (SemLoc.dma (sendS j) : SemLoc sig) = .dma (sendS j')) = {j} := by
    ext j'; simp only [Finset.mem_filter, Finset.mem_univ, true_and, Finset.mem_singleton]
    constructor
    · intro h; exact (sendS_inj (SemLoc.dma.inj h)).symm
    · rintro rfl; rfl
  rw [this]; rfl

instance xRd_payload_storable (g : GSem nD τ sig) (r : ℕ) (d : Dev nD) :
    BI.Storable (upEmb : UEmb _ 𝕄) ((xRd (F := F) m).payload g r d) := by
  show BI.Storable upEmb (if g.2 = .reg barS then barPay g.1.1 d
    else match recvIdx g.2 with
      | some k => recvPay m g.1.1 k
      | none => match sendIdx g.2 with
        | some j => sendPay m g.1.1 j
        | none => iprop(emp))
  unfold barPay recvPay sendPay
  (repeat' split) <;> infer_instance

section Sched
variable (c : Dev nD)

theorem send_ne_bar (j : Dev nD) : (SemLoc.dma (sendS j) : SemLoc sig) ≠ .reg barS := fun h => by cases h
theorem recv_ne_bar (k : Dev nD) : (SemLoc.dma (recvS k) : SemLoc sig) ≠ .reg barS := fun h => by cases h
theorem not_bar_send (j : Dev nD) : ¬ IsBar (sendCell c j) := fun h => send_ne_bar j h.2
theorem not_bar_recv (k : Dev nD) : ¬ IsBar (recvCell c k) := fun h => recv_ne_bar k h.2
theorem isDma_send (j : Dev nD) : IsDma (sendCell c j) := ⟨rfl, sendS j, rfl, by rw [sendS_val]; omega⟩
theorem isDma_recv (k : Dev nD) : IsDma (recvCell c k) := ⟨rfl, recvS k, rfl, by rw [recvS_val]; omega⟩

theorem duties_bar : (xRd (F := F) m).duties (barCell c) 0 = Finset.univ := by dsimp only [xRd]; exact if_pos ⟨rfl, rfl, rfl⟩
theorem duties_send (j : Dev nD) : (xRd (F := F) m).duties (sendCell c j) 0 = {0} := by
  dsimp only [xRd]; rw [if_neg (fun h => not_bar_send c j h.2)]; exact if_pos ⟨rfl, isDma_send c j⟩
theorem duties_recv (k : Dev nD) : (xRd (F := F) m).duties (recvCell c k) 0 = {0} := by
  dsimp only [xRd]; rw [if_neg (fun h => not_bar_recv c k h.2)]; exact if_pos ⟨rfl, isDma_recv c k⟩
theorem duties_later (g : GSem nD τ sig) : ∀ r, 1 ≤ r → (xRd (F := F) m).duties g r = ∅ :=
  fun r hr => by dsimp only [xRd]; rw [if_neg fun h => by omega, if_neg fun h => by omega]

theorem amount_bar (d : Dev nD) : (xRd (F := F) m).amount (barCell c) 0 d = 1 := by dsimp only [xRd]; exact if_pos rfl
theorem amount_send (j d : Dev nD) : (xRd (F := F) m).amount (sendCell c j) 0 d = N := by dsimp only [xRd]; exact if_neg (send_ne_bar j)
theorem amount_recv (k d : Dev nD) : (xRd (F := F) m).amount (recvCell c k) 0 d = N := by dsimp only [xRd]; exact if_neg (recv_ne_bar k)

theorem expect_bar : (xRd (F := F) m).expect (barCell c) 0 = 16 := by
  unfold Schedule.expect Schedule.amountOf
  rw [duties_bar, Finset.sum_congr rfl fun d _ => amount_bar m c d, Finset.sum_const, Finset.card_univ, Fintype.card_fin, smul_eq_mul]
  rfl
theorem expect_send (j : Dev nD) : (xRd (F := F) m).expect (sendCell c j) 0 = N := by
  unfold Schedule.expect Schedule.amountOf; rw [duties_send, Finset.sum_singleton, amount_send]
theorem expect_recv (k : Dev nD) : (xRd (F := F) m).expect (recvCell c k) 0 = N := by
  unfold Schedule.expect Schedule.amountOf; rw [duties_recv, Finset.sum_singleton, amount_recv]

theorem payload_bar (d : Dev nD) : (xRd (F := F) m).payload (barCell c) 0 d = barPay c d := by dsimp only [xRd]; rw [if_pos rfl]
theorem payload_send (j d : Dev nD) : (xRd (F := F) m).payload (sendCell c j) 0 d = sendPay m c j := by
  dsimp only [xRd]; rw [if_neg (send_ne_bar j), recvIdx_send, sendIdx_send]
theorem payload_recv (k d : Dev nD) : (xRd (F := F) m).payload (recvCell c k) 0 d = recvPay m c k := by
  dsimp only [xRd]; rw [if_neg (recv_ne_bar k), recvIdx_recv]

/-- The whole of the barrier cell's round: every device's slot `c` and receive-cell fact. -/
theorem rest_bar : bigSep ((xRd (F := F) m).duties (barCell c) 0 \ ∅) (fun d => (xRd (F := F) m).payload (barCell c) 0 d) = bigSep Finset.univ (fun d => barPay (F := F) c d) := by
  rw [Finset.sdiff_empty, duties_bar]; exact bigSep_congr fun d _ => payload_bar m c d
theorem rest_send (j : Dev nD) : bigSep ((xRd (F := F) m).duties (sendCell c j) 0 \ ∅) (fun d => (xRd (F := F) m).payload (sendCell c j) 0 d) = sendPay m c j := by
  rw [Finset.sdiff_empty, duties_send, bigSep_singleton, payload_send]
theorem rest_recv (k : Dev nD) : bigSep ((xRd (F := F) m).duties (recvCell c k) 0 \ ∅) (fun d => (xRd (F := F) m).payload (recvCell c k) 0 d) = recvPay m c k := by
  rw [Finset.sdiff_empty, duties_recv, bigSep_singleton, payload_recv]

end Sched

end Cert.KernelIdealProof
end
-- ==== Proof.KernelIdeal.Proto.lean ====
import proofs.«901061_g7700000000001062_dist_softmax_colshard_i_m2048_n1024_v7x_i16_f32_1_alg».proof.Proof.KernelIdeal.Sched

/-!
# What a device owes, the levels of its waits, and the state its body starts from and ends in

At launch device `c` owes every device's barrier cell one unit (its sixteen signals) and every device's receive cell `c`
the vector's credit (its sixteen copies). It waits on its barrier cell while still owing the receive credits, so receive
cells sit above barrier cells; every other wait happens when it owes nothing more, or is a wait of the pipeline's own
staging, below everything.
-/

noncomputable section

namespace Cert.KernelIdealProof

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch -/

/-- The devices, in the order the kernel addresses them. -/
def devs : List (Dev nD) := [0, 1, 2, 3, 4, 5, 6, 7, 8, 9, 10, 11, 12, 13, 14, 15]

/-- The receive credits device `c` owes the devices `js`: summed so that the first copy peels the last summand. -/
def oweRecv (c : Dev nD) : List (Dev nD) → CellTallies nD τ sig Unit
  | [] => 0
  | j :: js => oweRecv c js + tallyAt (recvCell j c) () N
/-- The barrier units device `c` owes the devices `js`, over `base`: the first signal peels the last summand. -/
def oweBar (base : CellTallies nD τ sig Unit) : List (Dev nD) → CellTallies nD τ sig Unit
  | [] => base
  | j :: js => oweBar base js + tallyAt (barCell j) () 1

def O₁ (c : Dev nD) : CellTallies nD τ sig Unit := oweRecv c devs
def O₀ (c : Dev nD) : CellTallies nD τ sig Unit := oweBar (O₁ c) devs

/-! ## The levels -/

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (recvIdx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The cells of one device, indexed: its barrier cell, its sixteen send cells, its sixteen receive cells -/

def iBar : Fin 33 := 0
def iSend (j : Dev nD) : Fin 33 := ⟨j.val + 1, by have h : j.val < 16 := j.isLt; omega⟩
def iRecv (k : Dev nD) : Fin 33 := ⟨k.val + 17, by have h : k.val < 16 := k.isLt; omega⟩

def csem (i : Fin 33) : SemLoc sig :=
  if h0 : i.val = 0 then .reg barS
  else if h1 : i.val ≤ 16 then .dma (sendS ⟨i.val - 1, by show i.val - 1 < 16; omega⟩)
  else .dma (recvS ⟨i.val - 17, by show i.val - 17 < 16; have := i.isLt; omega⟩)
abbrev kcell (ck : Dev nD × Fin 33) : GSem nD τ sig := ((ck.1 : Thread nD τ), csem ck.2)
/-- The kernel's own (scoped) semaphores: the send and the receive cells. -/
def osem (i : Fin 32) : SemLoc sig := csem i.succ

theorem csem_bar : csem iBar = .reg barS := rfl
theorem csem_send (j : Dev nD) : csem (iSend j) = .dma (sendS j) := by
  unfold csem iSend; rw [dif_neg (by simp), dif_pos (by have h : j.val < 16 := j.isLt; show j.val + 1 ≤ 16; omega)]; rfl
theorem csem_recv (k : Dev nD) : csem (iRecv k) = .dma (recvS k) := by
  unfold csem iRecv; rw [dif_neg (by simp), dif_neg (by show ¬ (k.val + 17 ≤ 16); omega)]; simp only [Nat.add_sub_cancel]

theorem kcell_bar (c : Dev nD) : kcell (c, iBar) = barCell c := rfl
theorem kcell_send (c j : Dev nD) : kcell (c, iSend j) = sendCell c j := by unfold kcell; rw [csem_send]
theorem kcell_recv (c k : Dev nD) : kcell (c, iRecv k) = recvCell c k := by unfold kcell; rw [csem_recv]

/-! ## The ghost state a device's body starts from -/

/-- Every cell's invariant, under the names `K`, and that every cell is at round 0: persistent, known to every device. -/
def records (K : Dev nD × Fin 33 → ℕ) : sProp 𝕄 :=
  iprop((bigSep Finset.univ fun ck : Dev nD × Fin 33 => cellInv ER (xRd m) (K ck) (kcell ck))
    ∗ bigSep Finset.univ fun ck : Dev nD × Fin 33 => reached ER (kcell ck) 0)

instance records_persistent (K : Dev nD × Fin 33 → ℕ) : BI.Persistent (records m K) := by unfold records; infer_instance

/-- The duty tokens device `c` pays with: its duty on every barrier cell, on every device's receive cell `c`, on its own send cells. -/
def payToks (c : Dev nD) : sProp 𝕄 :=
  iprop((bigSep Finset.univ fun j : Dev nD => dutyTok ER (barCell j) 0 c)
    ∗ (bigSep Finset.univ fun j : Dev nD => dutyTok ER (recvCell j c) 0 (0 : Dev nD))
    ∗ (bigSep Finset.univ fun j : Dev nD => dutyTok ER (sendCell c j) 0 (0 : Dev nD)))
/-- Its positions on its own cells. -/
def positions (c : Dev nD) : sProp 𝕄 :=
  iprop(atPos ER (barCell c) 0 ∅ 0
    ∗ (bigSep Finset.univ fun j : Dev nD => atPos ER (sendCell c j) 0 ∅ 0)
    ∗ (bigSep Finset.univ fun k : Dev nD => atPos ER (recvCell c k) 0 ∅ 0))
def ghost (K : Dev nD × Fin 33 → ℕ) (c : Dev nD) : sProp 𝕄 := iprop(records m K ∗ positions c ∗ payToks c)

/-- What device `c`'s body starts from besides its buffers: the ghost state at some names, the credit of its barrier cell's
    sixteen units and of each receive cell's landing, and the level facts. -/
def start (c : Dev nD) : sProp 𝕄 :=
  iprop((∃ K, ghost m K c) ∗ cred (tallyAt (barCell c) () 16) ∗ (bigSep Finset.univ fun k : Dev nD => cred (tallyAt (recvCell c k) () N)) ∗ levAts L lv)

/-- Before the body: that, and the two scratch buffers at some contents. -/
def Φ₀ (c : Dev nD) : sProp 𝕄 := iprop(start m c ∗ (∃ f, lPts c fullShare f) ∗ ∃ f, gPts c f)
/-- After it: the two scratch buffers, and the own cells' counters at zero, closed. -/
def Φ₁ (c : Dev nD) : sProp 𝕄 :=
  iprop((∃ f, lPts c fullShare f) ∗ (∃ f, gPts c f)
    ∗ (bigSep Finset.univ fun j : Dev nD => semVal (sendCell c j) 0) ∗ (bigSep Finset.univ fun k : Dev nD => semVal (recvCell c k) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outBlk m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-- A whole staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is run from at the one grid point, and what it leaves. -/
def bodyPre (K : Dev nD × Fin 33 → ℕ) (c : Dev nD) : sProp 𝕄 :=
  iprop((ghost m K c ∗ cred (tallyAt (barCell c) () 16) ∗ (bigSep Finset.univ fun k : Dev nD => cred (tallyAt (recvCell c k) () N)) ∗ levAts L lv
      ∗ (∃ f, lPts c fullShare f) ∗ ∃ f, gPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xblk m c) ∗ stg c cc0_stg1_0 (outBlk m c))

end Cert.KernelIdealProof
end
-- ==== Proof.KernelIdeal.Slots.lean ====
import proofs.«901061_g7700000000001062_dist_softmax_colshard_i_m2048_n1024_v7x_i16_f32_1_alg».proof.Proof.KernelIdeal.Sched
import Idealize.ShloMosaic.Lib.Pipeline.Value
import Idealize.ShloMosaic.Lib.ValueLayout

/-!
# The gathering buffer as its sixteen slots

Slot `k` of a device's gathering buffer is the `k`-th of the sixteen stacked vectors: the entries `(k, 0, r)`. The slots
are pairwise disjoint and cover the buffer; a copy of a whole vector into a slot leaves exactly that vector there.
-/

noncomputable section

namespace Cert.KernelIdealProof

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots as sets of entries -/

/-- Slot `k`'s entries are those of the rectangle of extents `1 × 1 × 2048` at offset `(k, 0, 0)`. -/
theorem slot_set (k : Dev nD) :
    (slotM k).view.set = (Rect.unit (s := S16x1x2048) (k0_off2 k) S1x1x2048.size (k0_off2_inb k)).set :=
  (View.set_reshape _ _).trans (View.set_slice_whole _ _)

/-- An entry of the gathering buffer lies in slot `k` exactly when its first coordinate is `k`. -/
theorem mem_slot_set (k : Dev nD) (i : S16x1x2048.Idx) :
    i ∈ (slotM k).view.set ↔ (i 0).val = k.val := by
  rw [slot_set, Rect.mem_set_unit, k0_off2_eq]
  constructor
  · intro h
    have h0 : k.val ≤ (i 0).val ∧ (i 0).val < k.val + 1 := h 0
    omega
  · intro h a
    have hi1 : (i 1).val < 1 := (i 1).isLt
    have hi2 : (i 2).val < 2048 := (i 2).isLt
    match a with
    | ⟨0, _⟩ => exact ⟨h.ge, by show (i 0).val < k.val + 1; omega⟩
    | ⟨1, _⟩ => exact ⟨Nat.zero_le _, by show (i 1).val < 0 + 1; omega⟩
    | ⟨2, _⟩ => exact ⟨Nat.zero_le _, by show (i 2).val < 0 + 2048; omega⟩

/-- The sixteen slots are pairwise disjoint: an entry's first coordinate names its slot. -/
theorem slot_disjoint (k k' : Dev nD) (h : k ≠ k') : Disjoint (slotM k).view.set (slotM k').view.set := by
  rw [Finset.disjoint_left]
  intro i hi hi'
  exact h (Fin.ext (((mem_slot_set k i).mp hi).symm.trans ((mem_slot_set k' i).mp hi')))

/-- The sixteen slots cover the buffer: the entry `i` lies in slot `i 0`. -/
theorem slot_cover : (gM : Memref sig .tc .vmem S16x1x2048 .f32).view.set = Finset.univ.biUnion fun k : Dev nD => (slotM k).view.set := by
  refine (View.set_whole cc0_scratch1).trans ?_
  refine (Finset.eq_univ_of_forall fun (i : S16x1x2048.Idx) => ?_).symm
  exact Finset.mem_biUnion.mpr ⟨i 0, Finset.mem_univ _, (mem_slot_set (i 0) i).mpr rfl⟩

/-- Entry `(0, r)` of slot `c` is entry `(c, 0, r)` of the gathering buffer. -/
theorem slot_emb (c : Dev nD) (r : Fin 2048) :
    (slotM c).view.emb (ValueIdx.ix2 (⟨0, Nat.one_pos⟩ : Fin 1) r) = ValueIdx.ix3 (c : Fin 16) (⟨0, Nat.one_pos⟩ : Fin 1) r := by
  show (Rect.unit (s := S16x1x2048) (k0_off2 c) S1x1x2048.size (k0_off2_inb c)).emb
      (Shape.reshapeEquiv squeezes_S1x1x2048_S1x2048.numel_eq (ValueIdx.ix2 (⟨0, Nat.one_pos⟩ : Fin 1) r)) = _
  rw [ValueIdx.reshapeEquiv_ix2_1ab]
  funext a
  apply Fin.ext
  rw [Rect.emb_apply, Rect.off_unit, Rect.stride_unit,
    show k0_off2 c a = (![c.val, 0, 0] : Fin 3 → ℕ) a from congrFun (k0_off2_eq c) a]
  match a with
  | ⟨0, _⟩ => show c.val + 1 * 0 = c.val; omega
  | ⟨1, _⟩ => show 0 + 1 * 0 = 0; rfl
  | ⟨2, _⟩ => show 0 + 1 * r.val = r.val; omega

/-- Every index of a `1 × 2048` vector is `(0, r)`. -/
theorem exists_ix2_zero (y : S1x2048.Idx) : ∃ r : Fin 2048, y = ValueIdx.ix2 (⟨0, Nat.one_pos⟩ : Fin 1) r := by
  have hy0 : (y 0 : Fin 1) = (⟨0, Nat.one_pos⟩ : Fin 1) :=
    Fin.ext (by show (y 0).val = 0; have : (y 0).val < 1 := (y 0).isLt; omega)
  refine ⟨y 1, ?_⟩
  rw [← hy0]; exact ValueIdx.eq_ix2 y

/-! ## The two statements -/

/-- Holding the whole gathering buffer at contents `f` is holding each of its sixteen slots at `f`. -/
theorem gPts_slots (c : Dev nD) (f : Buf (Elt F) ((gM : Memref sig .tc .vmem S16x1x2048 .f32).view.loc (c : Thread nD τ))) :
    (gPts (F := F) c f : sProp 𝕄) = bigSep Finset.univ (fun k : Dev nD => slotPts c k f) := by
  show ((gM : Memref sig .tc .vmem S16x1x2048 .f32).view.loc (c : Thread nD τ) ↦[(gM : Memref sig .tc .vmem S16x1x2048 .f32).view.set]{fullShare} f : sProp 𝕄)
    = bigSep Finset.univ (fun k : Dev nD => ((gM : Memref sig .tc .vmem S16x1x2048 .f32).view.loc (c : Thread nD τ) ↦[(slotM k).view.set]{fullShare} f : sProp 𝕄))
  have h := pointsTo_biUnion (nD := nD) (τ := τ) (sig := sig) (Ix := Unit) (Val := Elt F) (Name := ℕ) (U := UU) (Lvl := ℕ)
    (ℓ := (gM : Memref sig .tc .vmem S16x1x2048 .f32).view.loc (c : Thread nD τ)) (q := fullShare) (f := f)
    Finset.univ (fun k : Dev nD => (slotM k).view.set) (fun k _ k' _ hk => slot_disjoint k k' hk)
  exact (congrArg (fun I => ((gM : Memref sig .tc .vmem S16x1x2048 .f32).view.loc (c : Thread nD τ) ↦[I]{fullShare} f : sProp 𝕄)) slot_cover).trans h

/-- Device `c`'s vector of partial sums copied whole into slot `c` of device `j`'s gathering buffer, over whatever was there:
    the slot then holds what the stacked vectors hold there. -/
theorem slot_write (j c : Dev nD) (fd : Buf (Elt F) ((slotM c).view.loc (j : Thread nD τ))) :
    ((slotM c).view.loc (j : Thread nD τ) ↦[(slotM c).view.set]{fullShare}
        ((slotM c).view.write (Elt F) fd ((lM : Memref sig .tc .vmem S1x2048 .f32).view.read (Elt F) (partSums m c)) Finset.univ) : sProp 𝕄)
      = slotPts j c (gathered m) := by
  unfold slotPts
  refine pointsTo_congr (fun i hi => ?_)
  obtain ⟨y, rfl⟩ := View.exists_emb_of_mem_set _ hi
  obtain ⟨r, rfl⟩ := exists_ix2_zero y
  rw [View.write_emb_of_mem _ _ (Finset.mem_univ _), slot_emb]
  rfl

end Cert.KernelIdealProof
end
-- ==== Proof.KernelIdeal.Steps.lean ====
import proofs.«901061_g7700000000001062_dist_softmax_colshard_i_m2048_n1024_v7x_i16_f32_1_alg».proof.Proof.KernelIdeal.Proto
import proofs.«901061_g7700000000001062_dist_softmax_colshard_i_m2048_n1024_v7x_i16_f32_1_alg».proof.Proof.KernelIdeal.Slots

/-!
# The exchange's steps, each once, at a symbolic device and a symbolic peer

A signal to device `j`'s barrier cell; the copy to device `j`; the wait on receive cell `k`; the wait on send cell `j`;
the wait for sixteen on the own barrier cell. Each is the rounds discipline's rule at this schedule's cells.
-/

noncomputable section

namespace Cert.KernelIdealProof

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem inv_at (K : Dev nD × Fin 33 → ℕ) (ck : Dev nD × Fin 33) :
    (bigSep Finset.univ fun ck : Dev nD × Fin 33 => (cellInv ER (xRd m) (K ck) (kcell ck) : sProp 𝕄)) ⊢ cellInv ER (xRd m) (K ck) (kcell ck) :=
  bigSep_elim (Finset.mem_univ ck)
theorem reached_at (ck : Dev nD × Fin 33) :
    (bigSep Finset.univ fun ck : Dev nD × Fin 33 => (reached ER (kcell ck) 0 : sProp 𝕄)) ⊢ reached ER (kcell ck) 0 :=
  bigSep_elim (Finset.mem_univ ck)

/-- The signal to device `n = j`'s barrier cell: device `c`'s duty there, handing over slot `j` of its own gathering buffer. -/
theorem wp_sig_step (K : Dev nD × Fin 33 → ℕ) (c j n : Dev nD) (hn : n = j) {k' : ℕ} (hk' : 1 = k')
    {α : Type} {Q : α → sProp 𝕄} {k : PUnit → Prog (TpuEff nD τ sig (Elt F) Λ₀ .tc) α}
    (O : CellTallies nD τ sig Unit) (W : Waits sig Unit) (f : Buf (Elt F) ((slotM j).view.loc (c : Thread nD τ))) :
    iprop(records m K ∗ owes (c : Thread nD τ) (O + tallyAt (barCell j) () 1) W ∗ dutyTok ER (barCell j) 0 c ∗ slotPts c j f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk'
  unfold records
  iintro ⟨⟨#HI, #HR⟩, HO, Ht, Hs⟩
  iapply (Rounds.wp_signal 𝒱₀ ER (xRd m) (c : Thread nD τ) none (dst := (n : Thread nD τ)) (κ := K (n, iBar))
      (d := c) (by rw [duties_bar]; exact Finset.mem_univ _) (amount_bar m n c) () O rfl) $$ [HO Ht Hs]
  isplitr; · iapply (inv_at m K (n, iBar)); iexact HI
  isplitl [HO]; · iexact HO
  isplitl [Ht]; · iexact Ht
  isplitl [Hs]
  · rw [payload_bar]; unfold barPay
    isplitl [Hs]; · iexists f; iexact Hs
    ihave Hr := (reached_at (F := F) (c, iRecv n)) $$ HR
    rw [kcell_recv]; iexact Hr
  · ihave Hr := (reached_at (F := F) (n, iBar)) $$ HR
    iexact Hr

/-- The copy of device `c`'s partial sums into slot `c` of device `n = j`, on `c`'s send cell `j` and `j`'s receive cell `c`:
    the lent share of the source comes back with the send cell, the slot, holding the vector, goes to `j` with its receive cell. -/
theorem wp_send_step (K : Dev nD × Fin 33 → ℕ) (c j n : Dev nD) (hn : n = j) (sS : DmaSem sig) (hs : sS = sendS j)
    {hsc : (slotM c : Memref sig (Dev.tc n : Thread nD τ).2.kind .vmem S1x2048 .f32).view.ref.isScScratch = false}
    {hsrc : (lM : Memref sig .tc .vmem S1x2048 .f32).view.WordExact} {hdst : (slotM c : Memref sig .tc .vmem S1x2048 .f32).view.WordExact}
    {hsem : DmaTarget.Typed .vmem (.dma (recvS c)) (.remote (Dev.tc n : Thread nD τ) (slotM c : Memref sig .tc .vmem S1x2048 .f32) (.dma sS) hsc)}
    {α : Type} {Q : α → sProp 𝕄} {k : PUnit → Prog (TpuEff nD τ sig (Elt F) Λ₀ .tc) α}
    (fd : Buf (Elt F) ((slotM c).view.loc (j : Thread nD τ))) (O : CellTallies nD τ sig Unit) (W : Waits sig Unit) :
    iprop(records m K ∗ lPts c (shr j) (partSums m c) ∗ slotPts j c fd
        ∗ owes (c : Thread nD τ) (O + tallyAt (recvCell j c) () N) W
        ∗ dutyTok ER (sendCell c j) 0 (0 : Dev nD) ∗ dutyTok ER (recvCell j c) 0 (0 : Dev nD))
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma lM (.remote (Dev.tc n : Thread nD τ) (slotM c) (.dma sS) hsc) (.dma (recvS c)) hsrc hdst hsem) k) Q) := by
  subst hn; subst hs
  unfold records
  iintro ⟨⟨#HI, #HR⟩, Hsrc, Hdst, HO, Ht1, Ht2⟩
  iapply (Rounds.wp_send_pointsTo 𝒱₀ ER (xRd m) (c : Thread nD τ) none (κ₁ := K (c, iSend n)) (κ₂ := K (n, iRecv c))
    (r₁ := 0) (r₂ := 0) (d₁ := (0 : Dev nD)) (d₂ := (0 : Dev nD)) (fd := fd) (q := shr n) (fs := partSums m c)
    (by rw [duties_send]; exact Finset.mem_singleton_self _) (by rw [duties_recv]; exact Finset.mem_singleton_self _)
    () () N rfl (amount_send m c n 0) (amount_recv m n c 0) O rfl (W := W)
    (by rw [payload_send]; exact BI.Entails.refl _)
    (by rw [payload_recv]; unfold recvPay; exact Entails.of_eq (slot_write m n c fd))) $$ [Hsrc Hdst HO Ht1 Ht2]
  isplitr; · ihave H := (inv_at m K (c, iSend n)) $$ HI; rw [kcell_send]; iexact H
  isplitr; · ihave H := (inv_at m K (n, iRecv c)) $$ HI; rw [kcell_recv]; iexact H
  isplitl [Hsrc]; · unfold lPts; iexact Hsrc
  isplitl [Hdst]; · unfold slotPts; iexact Hdst
  isplitl [HO]; · iexact HO
  isplitl [Ht1]; · iexact Ht1
  isplitr; · ihave H := (reached_at (F := F) (c, iSend n)) $$ HR; rw [kcell_send]; iexact H
  isplitl [Ht2]; · iexact Ht2
  ihave H := (reached_at (F := F) (n, iRecv c)) $$ HR; rw [kcell_recv]; iexact H

/-- The wait on receive cell `k`, owing nothing: slot `k` comes back holding device `k`'s partial sums. -/
theorem wp_recvwait_step (K : Dev nD × Fin 33 → ℕ) (c k : Dev nD) (sm : DmaSem sig) (hs : sm = recvS k)
    {sp sp' : Space} {s s' : Shape} {e e' : EltTy} {src : Memref sig (c : Thread nD τ).2.kind sp' s' e'} {κ' : Kind} {dst : Memref sig κ' sp s e}
    {hsrc : src.view.WordExact} {hdst : dst.view.WordExact} (hN : dst.view.dmaCredit = N)
    {α : Type} {Q : α → sProp 𝕄} {kk : PUnit → Prog (TpuEff nD τ sig (Elt F) Λ₀ .tc) α} (W : Waits sig Unit) :
    iprop(records m K ∗ cred (tallyAt (recvCell c k) () N) ∗ owes (c : Thread nD τ) 0 W ∗ atPos ER (recvCell c k) 0 ∅ 0)
      ⊢ iprop(((owes (c : Thread nD τ) 0 (insert (SemLoc.dma (recvS k), ()) W) ∗ atPos ER (recvCell c k) 1 ∅ 0 ∗ slotPts c k (gathered m))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hs
  unfold records
  iintro ⟨⟨#HI, #HR⟩, Hc, HO, Hat⟩ Hk
  iapply (Rounds.wp_wait_rest_token 𝒱₀ ER (xRd m) (c : Thread nD τ) none (κ := K (c, iRecv k))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · ihave H := (inv_at m K (c, iRecv k)) $$ HI; rw [kcell_recv]; iexact H
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_recv m c k)) $$ Hpay
  unfold recvPay; iexact Hp

/-- The wait on send cell `j`, owing nothing: the share of the partial sums lent to that copy comes back. -/
theorem wp_sendwait_step (K : Dev nD × Fin 33 → ℕ) (c j : Dev nD) (sm : DmaSem sig) (hs : sm = sendS j)
    {sp sp' : Space} {s s' : Shape} {e e' : EltTy} {src : Memref sig (c : Thread nD τ).2.kind sp' s' e'} {κ' : Kind} {dst : Memref sig κ' sp s e}
    {hsrc : src.view.WordExact} {hdst : dst.view.WordExact} (hN : dst.view.dmaCredit = N)
    {α : Type} {Q : α → sProp 𝕄} {kk : PUnit → Prog (TpuEff nD τ sig (Elt F) Λ₀ .tc) α} (W : Waits sig Unit) :
    iprop(records m K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) 1 ∅ 0 ∗ lPts c (shr j) (partSums m c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hs
  unfold records
  iintro ⟨⟨#HI, #HR⟩, Hc, HO, Hat⟩ Hk
  iapply (Rounds.wp_wait_rest_token 𝒱₀ ER (xRd m) (c : Thread nD τ) none (κ := K (c, iSend j))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · ihave H := (inv_at m K (c, iSend j)) $$ HI; rw [kcell_send]; iexact H
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_send m c j)) $$ Hpay
  unfold sendPay; iexact Hp

/-! ## The barrier wait -/

theorem oweRecv_pos {c : Dev nD} {g : GSem nD τ sig} {u : Unit} : ∀ js : List (Dev nD), 0 < oweRecv c js g u → ∃ j, g = recvCell j c
  | [], h => by simp only [oweRecv] at h; exact absurd h (Nat.lt_irrefl 0)
  | j :: js, h => by
    simp only [oweRecv] at h
    rw [Pi.add_apply, Finsupp.add_apply, tallyAt_apply] at h
    by_cases hg : g = recvCell j c ∧ u = ()
    · exact ⟨j, hg.1⟩
    · rw [if_neg hg, Nat.add_zero] at h; exact oweRecv_pos js h

/-- At its barrier wait a device owes receive credits only: receive cells, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by
      obtain ⟨j, rfl⟩ := oweRecv_pos devs hg
      rw [L_tc]; exact Finset.mem_singleton_self _)
    (fun p hp => by rw [Finset.mem_singleton.mp hp]; dsimp only [lv]; rw [if_pos rfl])
    (fun g u hg => by
      obtain ⟨j, rfl⟩ := oweRecv_pos devs hg
      dsimp only [lv]; rw [if_neg (recv_ne_bar c), recvIdx_recv, Option.isSome_some, if_pos rfl]; decide)

/-- The wait for sixteen on the own barrier cell, owing the receive credits: every device's slot `c` comes with it. -/
theorem wp_barwait_step (K : Dev nD × Fin 33 → ℕ) (c : Dev nD) {k' : ℕ} (hk' : k' = 16)
    {α : Type} {Q : α → sProp 𝕄} {kk : PUnit → Prog (TpuEff nD τ sig (Elt F) Λ₀ .tc) α} (W : Waits sig Unit) :
    iprop(records m K ∗ cred (tallyAt (barCell c) () 16) ∗ owes (c : Thread nD τ) (O₁ c) W ∗ levAts L lv ∗ atPos ER (barCell c) 0 ∅ 0)
      ⊢ iprop(((owes (c : Thread nD τ) (O₁ c) (insert (SemLoc.reg barS, ()) W) ∗ atPos ER (barCell c) 1 ∅ 0
              ∗ bigSep Finset.univ (fun d : Dev nD => barPay (F := F) c d))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS k') kk) Q) := by
  subst hk'
  unfold records
  iintro ⟨⟨#HI, #HR⟩, Hc, HO, #Hlev, Hat⟩ Hk
  iapply (Rounds.wp_wait_rest_token 𝒱₀ ER (xRd m) (c : Thread nD τ) none (κ := K (c, iBar))
      (wpE_semWait_eq 𝒱₀ (c : Thread nD τ) none Set.univ) (Set.mem_univ _) () (O := O₁ c) (W := W) (R := 0) (m := 0) (T := ∅)
      (by rw [expect_bar])) $$ [Hc HO Hat]
  · isplitr; · ihave H := (inv_at m K (c, iBar)) $$ HI; iexact H
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  ihave Hp := (Entails.of_eq (rest_bar m c)) $$ Hpay
  iexact Hp

/-- An own cell past its one round closes: its counter is zero again. -/
theorem close_send (K : Dev nD × Fin 33 → ℕ) (c j : Dev nD) :
    iprop(records m K ∗ atPos ER (sendCell c j) 1 ∅ 0) ⊢ (|={Set.univ}=> semVal (sendCell c j) 0 : sProp 𝕄) := by
  unfold records
  iintro ⟨⟨#HI, #HR⟩, Hat⟩
  iapply (Rounds.cell_close ER (xRd m) (Set.mem_univ (K (c, iSend j))) (fun h => h) (R := 0 + 1) (duties_later m (sendCell c j)))
  isplitr; · ihave H := (inv_at m K (c, iSend j)) $$ HI; rw [kcell_send]; iexact H
  iexact Hat
theorem close_recv (K : Dev nD × Fin 33 → ℕ) (c k : Dev nD) :
    iprop(records m K ∗ atPos ER (recvCell c k) 1 ∅ 0) ⊢ (|={Set.univ}=> semVal (recvCell c k) 0 : sProp 𝕄) := by
  unfold records
  iintro ⟨⟨#HI, #HR⟩, Hat⟩
  iapply (Rounds.cell_close ER (xRd m) (Set.mem_univ (K (c, iRecv k))) (fun h => h) (R := 0 + 1) (duties_later m (recvCell c k)))
  isplitr; · ihave H := (inv_at m K (c, iRecv k)) $$ HI; rw [kcell_recv]; iexact H
  iexact Hat

end Cert.KernelIdealProof
end
-- ==== Proof.KernelIdeal.Chain.lean ====
import proofs.«901061_g7700000000001062_dist_softmax_colshard_i_m2048_n1024_v7x_i16_f32_1_alg».proof.Proof.KernelIdeal.Steps

/-!
# A run of like operations, one per device of a list

The body addresses the sixteen devices one after the other, four times over: sixteen signals, sixteen copies, sixteen
receive waits, sixteen send waits. Each such run is a chain of one operation per list entry; a step proved once for a
symbolic entry carries the whole chain, by induction on the list: each entry's own resources go in, its yield comes out,
and a state indexed by the entries still to come is threaded through.
-/

noncomputable section

namespace Cert.KernelIdealProof

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A chain over a list is its head and the chain over its tail. -/
theorem bigSepL_cons' {I : Type} (i : I) (l : List I) (Φ : I → sProp 𝕄) : bigSepL (i :: l) Φ = iprop(Φ i ∗ bigSepL l Φ) :=
  bigSepL_cons i l Φ

/-- One operation per entry of the list, in order, then `rest`. -/
def opChain {ι α : Type} (op : ι → TpuEff nD τ sig (Elt F) Λ₀ .tc PUnit) :
    List ι → Prog (TpuEff nD τ sig (Elt F) Λ₀ .tc) α → Prog (TpuEff nD τ sig (Elt F) Λ₀ .tc) α
  | [], rest => rest
  | i :: is, rest => .op (op i) fun _ => opChain op is rest

theorem wp_opChain {ι α : Type} (c : Dev nD) (op : ι → TpuEff nD τ sig (Elt F) Λ₀ .tc PUnit) (Rec : sProp 𝕄) [BI.Persistent Rec]
    (Pre Post : ι → sProp 𝕄) (Inv : List ι → sProp 𝕄)
    (hstep : ∀ (i : ι) (l : List ι) (k : PUnit → Prog (TpuEff nD τ sig (Elt F) Λ₀ .tc) α) (Q : α → sProp 𝕄),
      iprop(Rec ∗ Pre i ∗ Inv (i :: l))
        ⊢ iprop(((Post i ∗ Inv l) -∗ wp frame (wpE (defs₀ (F := F)) 𝒱₀ (c : Thread nD τ) none) Set.univ (k ⟨⟩) Q)
            -∗ wp frame (wpE (defs₀ (F := F)) 𝒱₀ (c : Thread nD τ) none) Set.univ (.op (op i) k) Q)) :
    ∀ (l : List ι) (rest : Prog (TpuEff nD τ sig (Elt F) Λ₀ .tc) α) (Q : α → sProp 𝕄),
      iprop(Rec ∗ bigSepL l Pre ∗ Inv l)
        ⊢ iprop(((bigSepL l Post ∗ Inv []) -∗ wp frame (wpE (defs₀ (F := F)) 𝒱₀ (c : Thread nD τ) none) Set.univ rest Q)
            -∗ wp frame (wpE (defs₀ (F := F)) 𝒱₀ (c : Thread nD τ) none) Set.univ (opChain op l rest) Q) := by
  intro l
  induction l with
  | nil =>
    intro rest Q
    iintro ⟨#HR, -, HI⟩ Hk
    unfold opChain
    iapply Hk
    isplitr
    · rw [bigSepL_nil]; iempintro
    · iexact HI
  | cons i l ih =>
    intro rest Q
    rw [bigSepL_cons', bigSepL_cons']
    iintro ⟨#HR, ⟨Hp, Hps⟩, HI⟩ Hk
    unfold opChain
    iapply (hstep i l _ Q) $$ [Hp HI]
    · isplitr; · iexact HR
      isplitl [Hp]; · iexact Hp
      iexact HI
    iintro ⟨Hq, HI⟩
    iapply (ih rest Q) $$ [Hps HI]
    · isplitr; · iexact HR
      isplitl [Hps]; · iexact Hps
      iexact HI
    iintro ⟨Hqs, HI⟩
    iapply Hk
    isplitl [Hq Hqs]
    · isplitl [Hq]; · iexact Hq
      iexact Hqs
    · iexact HI

end Cert.KernelIdealProof
end
-- ==== Proof.KernelIdeal.Body.lean ====
import proofs.«901061_g7700000000001062_dist_softmax_colshard_i_m2048_n1024_v7x_i16_f32_1_alg».proof.Proof.KernelIdeal.Chain
import proofs.«901061_g7700000000001062_dist_softmax_colshard_i_m2048_n1024_v7x_i16_f32_1_alg».proof.Proof.Gen.KernelIdeal.Points

/-!
# One device's body

The sixteen signals, the partial sums stored, the barrier wait, the sixteen copies, the sixteen receive waits, the scaled
block stored, the sixteen send waits, the own cells closed: run once, at a symbolic device.
-/

noncomputable section

namespace Cert.KernelIdealProof

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fetch_0 (t : Fin cfg0.N) : (cfg0.win (0 : Fin 2)).fetch t = true := fetch0_0 t

/-- All sixteen devices, one by one. -/
theorem bigSep_devs (Φ : Dev nD → sProp 𝕄) : bigSep Finset.univ Φ = bigSepL devs Φ :=
  bigSep_univ_eq_bigSepL devs (by decide) (by decide) Φ

/-! ## Whole-buffer reads and writes -/

abbrev r0x : Rect S2048x1024 := Rect.unit (s := S2048x1024) ![0, 0] S2048x1024.size inb_S2048x1024_S2048x1024_0_0
abbrev r0l : Rect S1x2048 := Rect.unit (s := S1x2048) ![0, 0] S1x2048.size inb_S1x2048_S1x2048_0_0
abbrev r0g : Rect S16x1x2048 := Rect.unit (s := S16x1x2048) ![0, 0, 0] S16x1x2048.size inb_S16x1x2048_S16x1x2048_0_0_0

theorem hz2 : (![0, 0] : Fin 2 → Nat) = fun _ => 0 := funext fun a => by fin_cases a <;> rfl
theorem hz3 : (![0, 0, 0] : Fin 3 → Nat) = fun _ => 0 := funext fun a => by fin_cases a <;> rfl
theorem read_x (f : (cc0_stg0_0 : Ref sig .tc).ty.Contents (Elt F)) : (xM : Memref sig .tc .vmem S2048x1024 .f32).view.readAt (Elt F) r0x.toLoadRect f = f :=
  Memref.readAt_unit_zero (Elt F) cc0_stg0_0 hz2 _ f
theorem read_g (f : (cc0_scratch1 : Ref sig .tc).ty.Contents (Elt F)) : (gM : Memref sig .tc .vmem S16x1x2048 .f32).view.readAt (Elt F) r0g.toLoadRect f = f :=
  Memref.readAt_unit_zero (Elt F) cc0_scratch1 hz3 _ f
theorem write_l (f w : (cc0_scratch0 : Ref sig .tc).ty.Contents (Elt F)) :
    ((lM : Memref sig .tc .vmem S1x2048 .f32).access r0l : View sig .tc _ _ _).write (Elt F) f w Finset.univ = w :=
  Memref.write_access_unit_zero_univ (Elt F) cc0_scratch0 hz2 _ f w
theorem write_out (f w : (cc0_stg1_0 : Ref sig .tc).ty.Contents (Elt F)) :
    ((oM : Memref sig .tc .vmem S2048x1024 .f32).access r0x : View sig .tc _ _ _).write (Elt F) f w Finset.univ = w :=
  Memref.write_access_unit_zero_univ (Elt F) cc0_stg1_0 hz2 _ f w
theorem l_set : (lM : Memref sig .tc .vmem S1x2048 .f32).view.set = Finset.univ := View.set_whole _
theorem g_set : (gM : Memref sig .tc .vmem S16x1x2048 .f32).view.set = Finset.univ := View.set_whole _

/-! ## The operations as the kernel spells them at a literal device -/

theorem semL_inb : ∀ k : Dev nD, ∀ a, (![k.val] : Fin 1 → Nat) a + S1.size a ≤ S16.size a := by decide
theorem slotL_inb : ∀ k : Dev nD, ∀ a, (![k.val, 0, 0] : Fin 3 → Nat) a + S1x1x2048.size a ≤ S16x1x2048.size a := by decide
/-- Send semaphore `j`, receive semaphore `k`, slot `k`, addressed by the literal index. -/
abbrev sendLs (j : Dev nD) : DmaSem sig := ((cc0_scratch2.slice (Rect.unit (s := S16) ![j.val] S1.size (semL_inb j))).squeeze S_ squeezes_S1_S_).sem
abbrev recvLs (k : Dev nD) : DmaSem sig := ((cc0_scratch3.slice (Rect.unit (s := S16) ![k.val] S1.size (semL_inb k))).squeeze S_ squeezes_S1_S_).sem
abbrev slotL (k : Dev nD) : Memref sig .tc .vmem S1x2048 .f32 :=
  (gM.slice (Rect.unit (s := S16x1x2048) ![k.val, 0, 0] S1x1x2048.size (slotL_inb k)) (fun _ => rfl)).squeeze S1x2048 squeezes_S1x1x2048_S1x2048
theorem sendLs_eq : ∀ j : Dev nD, sendLs j = sendS j := by decide +kernel
theorem recvLs_eq : ∀ k : Dev nD, recvLs k = recvS k := by decide +kernel
theorem slotL_credit (k : Dev nD) : (slotL k).view.dmaCredit = N := rfl

/-- The signal to device `j`; the copy to device `j`; the waits on receive cell `k` and on send cell `j`. -/
def sigOp (j : Dev nD) : TpuEff nD τ sig (Elt F) Λ₀ .tc PUnit := .semSignal (j : Thread nD τ) barS (1#32).toNat
def sendOp (c j : Dev nD) : TpuEff nD τ sig (Elt F) Λ₀ .tc PUnit :=
  .enqueueDma lM (.remote (Dev.tc j) (slotM c) (.dma (sendLs j))) (.dma (recvS c)) (Memref.isWhole_whole cc0_scratch0).wordExact
    ((View.wordExact_bits rfl).reshape _ _) ⟨⟨rfl, Or.inl rfl⟩, trivial⟩
def recvWaitOp (k : Dev nD) : TpuEff nD τ sig (Elt F) Λ₀ .tc PUnit :=
  .waitDma2 (recvLs k) lM (slotL k) (Memref.isWhole_whole cc0_scratch0).wordExact ((View.wordExact_bits rfl).reshape _ _)
def sendWaitOp (j : Dev nD) : TpuEff nD τ sig (Elt F) Λ₀ .tc PUnit :=
  .waitDma2 (sendLs j) (slotL j) lM ((View.wordExact_bits rfl).reshape _ _) (Memref.isWhole_whole cc0_scratch0).wordExact

/-! ## The four runs of sixteen -/

section Runs
variable (K : Dev nD × Fin 33 → ℕ) (c : Dev nD) {α : Type}

/-- The sixteen signals: each pays the device's duty on a barrier cell with a slot of its own gathering buffer. -/
theorem wp_signals (fg : Buf (Elt F) ((gM : Memref sig .tc .vmem S16x1x2048 .f32).view.loc (c : Thread nD τ))) (W : Waits sig Unit)
    (rest : Prog (TpuEff nD τ sig (Elt F) Λ₀ .tc) α) (Q : α → sProp 𝕄) :
    iprop(records m K ∗ bigSepL devs (fun j => iprop(dutyTok ER (barCell j) 0 c ∗ slotPts c j fg)) ∗ owes (c : Thread nD τ) (O₀ c) W)
      ⊢ iprop(((bigSepL devs (fun _ : Dev nD => (iprop(emp) : sProp 𝕄)) ∗ owes (c : Thread nD τ) (O₁ c) W)
            -∗ wp frame (wpE (defs₀ (F := F)) 𝒱₀ (c : Thread nD τ) none) Set.univ rest Q)
          -∗ wp frame (wpE (defs₀ (F := F)) 𝒱₀ (c : Thread nD τ) none) Set.univ (opChain (sigOp (F := F)) devs rest) Q) :=
  wp_opChain c (sigOp (F := F)) (records m K) (fun j => iprop(dutyTok ER (barCell j) 0 c ∗ slotPts c j fg)) (fun _ => iprop(emp))
    (fun l => owes (c : Thread nD τ) (oweBar (O₁ c) l) W)
    (fun i l k Q => by
      iintro ⟨#HR, ⟨Ht, Hs⟩, HO⟩ Hk
      unfold sigOp
      iapply (wp_sig_step m K c i i rfl (by decide) (O := oweBar (O₁ c) l) (W := W) (f := fg)) $$ [HO Ht Hs]
      · isplitr; · iexact HR
        isplitl [HO]; · iexact HO
        isplitl [Ht] <;> iassumption
      iintro HO
      iapply Hk
      isplitr; · iempintro
      iexact HO)
    devs rest Q

/-- The sixteen copies: each lends a share of the partial sums and writes slot `c` of its target. -/
theorem wp_sends (W : Waits sig Unit) (rest : Prog (TpuEff nD τ sig (Elt F) Λ₀ .tc) α) (Q : α → sProp 𝕄) :
    iprop(records m K
        ∗ bigSepL devs (fun j => iprop(lPts c (shr j) (partSums m c) ∗ (∃ fd, slotPts j c fd)
            ∗ dutyTok ER (sendCell c j) 0 (0 : Dev nD) ∗ dutyTok ER (recvCell j c) 0 (0 : Dev nD)))
        ∗ owes (c : Thread nD τ) (O₁ c) W)
      ⊢ iprop(((bigSepL devs (fun j => cred (tallyAt (sendCell c j) () N)) ∗ owes (c : Thread nD τ) 0 W)
            -∗ wp frame (wpE (defs₀ (F := F)) 𝒱₀ (c : Thread nD τ) none) Set.univ rest Q)
          -∗ wp frame (wpE (defs₀ (F := F)) 𝒱₀ (c : Thread nD τ) none) Set.univ (opChain (sendOp (F := F) c) devs rest) Q) :=
  wp_opChain c (sendOp (F := F) c) (records m K)
    (fun j => iprop(lPts c (shr j) (partSums m c) ∗ (∃ fd, slotPts j c fd)
      ∗ dutyTok ER (sendCell c j) 0 (0 : Dev nD) ∗ dutyTok ER (recvCell j c) 0 (0 : Dev nD)))
    (fun j => cred (tallyAt (sendCell c j) () N))
    (fun l => owes (c : Thread nD τ) (oweRecv c l) W)
    (fun i l k Q => by
      iintro ⟨#HR, ⟨Hsrc, ⟨%fd, Hdst⟩, Ht1, Ht2⟩, HO⟩ Hk
      unfold sendOp
      iapply (wp_send_step m K c i i rfl (sendLs i) (sendLs_eq i) fd (O := oweRecv c l) (W := W)) $$ [Hsrc Hdst HO Ht1 Ht2]
      · isplitr; · iexact HR
        isplitl [Hsrc]; · iexact Hsrc
        isplitl [Hdst]; · iexact Hdst
        isplitl [HO]; · iexact HO
        isplitl [Ht1] <;> iassumption
      iintro ⟨Hc, HO⟩
      iapply Hk
      isplitl [Hc] <;> iassumption)
    devs rest Q

/-- The sixteen receive waits: slot `k` comes back holding device `k`'s partial sums. -/
theorem wp_recvWaits (rest : Prog (TpuEff nD τ sig (Elt F) Λ₀ .tc) α) (Q : α → sProp 𝕄) :
    iprop(records m K
        ∗ bigSepL devs (fun k => iprop(cred (tallyAt (recvCell c k) () N) ∗ atPos ER (recvCell c k) 0 ∅ 0))
        ∗ (∃ W, owes (c : Thread nD τ) 0 W))
      ⊢ iprop(((bigSepL devs (fun k => iprop(atPos ER (recvCell c k) 1 ∅ 0 ∗ slotPts c k (gathered m))) ∗ (∃ W, owes (c : Thread nD τ) 0 W))
            -∗ wp frame (wpE (defs₀ (F := F)) 𝒱₀ (c : Thread nD τ) none) Set.univ rest Q)
          -∗ wp frame (wpE (defs₀ (F := F)) 𝒱₀ (c : Thread nD τ) none) Set.univ (opChain (recvWaitOp (F := F)) devs rest) Q) :=
  wp_opChain c (recvWaitOp (F := F)) (records m K)
    (fun k => iprop(cred (tallyAt (recvCell c k) () N) ∗ atPos ER (recvCell c k) 0 ∅ 0))
    (fun k => iprop(atPos ER (recvCell c k) 1 ∅ 0 ∗ slotPts c k (gathered m)))
    (fun _ => iprop(∃ W, owes (c : Thread nD τ) 0 W))
    (fun i l k Q => by
      iintro ⟨#HR, ⟨Hc, Hat⟩, ⟨%W, HO⟩⟩ Hk
      unfold recvWaitOp
      iapply (wp_recvwait_step m K c i (recvLs i) (recvLs_eq i) (slotL_credit i) W) $$ [Hc HO Hat]
      · isplitr; · iexact HR
        isplitl [Hc]; · iexact Hc
        isplitl [HO] <;> iassumption
      iintro ⟨HO, Hat, Hs⟩
      iapply Hk
      isplitl [Hat Hs]
      · isplitl [Hat] <;> iassumption
      · iexists _; iexact HO)
    devs rest Q

/-- The sixteen send waits: the lent shares of the partial sums come back. -/
theorem wp_sendWaits (rest : Prog (TpuEff nD τ sig (Elt F) Λ₀ .tc) α) (Q : α → sProp 𝕄) :
    iprop(records m K
        ∗ bigSepL devs (fun j => iprop(cred (tallyAt (sendCell c j) () N) ∗ atPos ER (sendCell c j) 0 ∅ 0))
        ∗ (∃ W, owes (c : Thread nD τ) 0 W))
      ⊢ iprop(((bigSepL devs (fun j => iprop(atPos ER (sendCell c j) 1 ∅ 0 ∗ lPts c (shr j) (partSums m c))) ∗ (∃ W, owes (c : Thread nD τ) 0 W))
            -∗ wp frame (wpE (defs₀ (F := F)) 𝒱₀ (c : Thread nD τ) none) Set.univ rest Q)
          -∗ wp frame (wpE (defs₀ (F := F)) 𝒱₀ (c : Thread nD τ) none) Set.univ (opChain (sendWaitOp (F := F)) devs rest) Q) :=
  wp_opChain c (sendWaitOp (F := F)) (records m K)
    (fun j => iprop(cred (tallyAt (sendCell c j) () N) ∗ atPos ER (sendCell c j) 0 ∅ 0))
    (fun j => iprop(atPos ER (sendCell c j) 1 ∅ 0 ∗ lPts c (shr j) (partSums m c)))
    (fun _ => iprop(∃ W, owes (c : Thread nD τ) 0 W))
    (fun i l k Q => by
      iintro ⟨#HR, ⟨Hc, Hat⟩, ⟨%W, HO⟩⟩ Hk
      unfold sendWaitOp
      iapply (wp_sendwait_step m K c i (sendLs i) (sendLs_eq i) (rfl : (lM : Memref sig .tc .vmem S1x2048 .f32).view.dmaCredit = N) W) $$ [Hc HO Hat]
      · isplitr; · iexact HR
        isplitl [Hc]; · iexact Hc
        isplitl [HO] <;> iassumption
      iintro ⟨HO, Hat, Hs⟩
      iapply Hk
      isplitl [Hat Hs]
      · isplitl [Hat] <;> iassumption
      · iexists _; iexact HO)
    devs rest Q

end Runs

/-! ## Gluing: sixteen-fold resources together and apart, a persistent fact dealt to each -/

theorem devs2 (A B : Dev nD → sProp 𝕄) : iprop(bigSep Finset.univ A ∗ bigSep Finset.univ B) ⊢ bigSepL devs (fun j => iprop(A j ∗ B j)) := by
  rw [← bigSep_devs, bigSep_sep']
theorem devs2_split (A B : Dev nD → sProp 𝕄) : bigSepL devs (fun j => iprop(A j ∗ B j)) ⊢ iprop(bigSep Finset.univ A ∗ bigSep Finset.univ B) := by
  rw [← bigSep_devs, bigSep_sep']
theorem devs4 (A B C D : Dev nD → sProp 𝕄) :
    iprop(bigSep Finset.univ A ∗ bigSep Finset.univ B ∗ bigSep Finset.univ C ∗ bigSep Finset.univ D)
      ⊢ bigSepL devs (fun j => iprop(A j ∗ B j ∗ C j ∗ D j)) := by
  rw [← bigSep_devs, bigSep_sep', bigSep_sep', bigSep_sep']

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The own cells, each past its one round, close: their counters are zero again. -/
theorem close_sends (K : Dev nD × Fin 33 → ℕ) (c : Dev nD) :
    iprop(records m K ∗ bigSep Finset.univ (fun j : Dev nD => atPos ER (sendCell c j) 1 ∅ 0))
      ⊢ (|={Set.univ}=> bigSep Finset.univ (fun j : Dev nD => semVal (sendCell c j) 0) : sProp 𝕄) :=
  (bigSep_with_persistent (R := records m K) fun j _ => close_send m K c j).trans (bigSep_fupd _ _)
theorem close_recvs (K : Dev nD × Fin 33 → ℕ) (c : Dev nD) :
    iprop(records m K ∗ bigSep Finset.univ (fun k : Dev nD => atPos ER (recvCell c k) 1 ∅ 0))
      ⊢ (|={Set.univ}=> bigSep Finset.univ (fun k : Dev nD => semVal (recvCell c k) 0) : sProp 𝕄) :=
  (bigSep_with_persistent (R := records m K) fun k _ => close_recv m K c k).trans (bigSep_fupd _ _)

/-- A barrier landing's slot, the rest dropped. -/
theorem barPay_slot (c d : Dev nD) : (barPay (F := F) c d : sProp 𝕄) ⊢ iprop(∃ fd, slotPts d c fd) := by
  unfold barPay; iintro ⟨H, -⟩; iexact H

/-! ## The body -/

set_option maxHeartbeats 3200000 in
set_option maxRecDepth 65536 in
/-- The body, symbolically executed from `bodyPre` to `bodyPost`. -/
theorem sound_body (K : Dev nD × Fin 33 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part14_eq_skeleton]; unfold k0_part14_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel
    k0_part11_skel k0_part12_skel k0_part13_skel
  simp only [semSignalWord, semWaitWord, Prog.lift, Prog.bind_op, Prog.bind_ret, Prog.pure_eq_ret, wp_deviceId]
  unfold bodyPre ghost positions payToks
  iintro ⟨⟨⟨⟨#Hrec, ⟨HatB, HatS, HatR⟩, ⟨HtB, HtR, HtS⟩⟩, HcB, HcR, #Hlev, ⟨%fl, Hl⟩, ⟨%fg, Hg⟩⟩, Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  -- the sixteen signals: to device j's barrier cell, with slot j of the own gathering buffer
  ihave Hsl := (Entails.of_eq (gPts_slots c fg)) $$ Hg
  ihave Hp := (devs2 (fun j : Dev nD => (dutyTok ER (barCell j) 0 c : sProp 𝕄)) (fun j => slotPts c j fg)) $$ [HtB Hsl]
  · isplitl [HtB] <;> iassumption
  iapply (wp_signals m K c fg W _ Kt) $$ [Hp HO]
  · isplitr; · iexact Hrec
    isplitl [Hp] <;> iassumption
  iintro ⟨-, HO⟩
  -- the block loaded, its partial row sums stored
  iapply (wp_load 𝒱₀ (c : Thread nD τ) none Set.univ (m := xM) (Finset.subset_univ _)) $$ Hx; iintro Hx
  rw [read_x]
  unfold lPts
  iapply (wp_load 𝒱₀ (c : Thread nD τ) none Set.univ (m := lM) (by rw [l_set]; exact Finset.subset_univ _)) $$ Hl; iintro Hl
  iapply (wp_store 𝒱₀ (c : Thread nD τ) none Set.univ (m := lM) (r := r0l) (Mk := Finset.univ) (by rw [l_set]; exact Finset.subset_univ _)) $$ Hl; iintro Hl
  rw [write_l, show k0_pay2 (xblk m c) = partSums m c from rfl]
  -- the barrier wait: every device's slot c comes with it
  iapply (wp_barwait_step m K c (by decide) W) $$ [HcB HO HatB]
  · isplitr; · iexact Hrec
    isplitl [HcB]; · iexact HcB
    isplitl [HO]; · iexact HO
    isplitr; · iexact Hlev
    iexact HatB
  iintro ⟨HO, HatB, Hbp⟩
  -- the sixteen copies, each with a share of the partial sums
  ihave Hsh := (Transfers.pointsTo_toks_split fullShare 16) $$ Hl
  icases Hsh with ⟨Hlr, Hlq⟩
  ihave Hslots := (show (bigSep Finset.univ (fun d : Dev nD => barPay (F := F) c d) : sProp 𝕄)
      ⊢ bigSep Finset.univ (fun d : Dev nD => iprop(∃ fd, slotPts d c fd)) from
    bigSep_mono fun d _ => barPay_slot c d) $$ Hbp
  ihave Hp := (devs4 (fun j : Dev nD => lPts c (shr j) (partSums m c)) (fun j : Dev nD => iprop(∃ fd, slotPts j c fd))
    (fun j : Dev nD => (dutyTok ER (sendCell c j) 0 (0 : Dev nD) : sProp 𝕄)) (fun j : Dev nD => (dutyTok ER (recvCell j c) 0 (0 : Dev nD) : sProp 𝕄))) $$ [Hlq Hslots HtS HtR]
  · isplitl [Hlq]; · unfold lPts; iexact Hlq
    isplitl [Hslots]; · iexact Hslots
    isplitl [HtS] <;> iassumption
  iapply (wp_sends m K c _ _ Kt) $$ [Hp HO]
  · isplitr; · iexact Hrec
    isplitl [Hp] <;> iassumption
  iintro ⟨Hcs, HO⟩
  -- the sixteen receive waits: the sixteen slots come back holding the sixteen vectors of partial sums
  ihave Hcs := (Entails.of_eq (bigSep_devs (fun j : Dev nD => (cred (tallyAt (sendCell c j) () N) : sProp 𝕄))).symm) $$ Hcs
  ihave Hp := (devs2 (fun k : Dev nD => (cred (tallyAt (recvCell c k) () N) : sProp 𝕄)) (fun k => atPos ER (recvCell c k) 0 ∅ 0)) $$ [HcR HatR]
  · isplitl [HcR] <;> iassumption
  iapply (wp_recvWaits m K c _ Kt) $$ [Hp HO]
  · isplitr; · iexact Hrec
    isplitl [Hp]; · iexact Hp
    iexists _; iexact HO
  iintro ⟨Hy, HO⟩
  ihave Hy := (devs2_split (fun k : Dev nD => (atPos ER (recvCell c k) 1 ∅ 0 : sProp 𝕄)) (fun k => slotPts c k (gathered m))) $$ Hy
  icases Hy with ⟨HatR, Hgs⟩
  ihave Hg := (Entails.of_eq (gPts_slots c (gathered m)).symm) $$ Hgs
  -- the gathered sums loaded, the scaled block stored
  unfold gPts
  iapply (wp_load 𝒱₀ (c : Thread nD τ) none Set.univ (m := gM) (by rw [g_set]; exact Finset.subset_univ _)) $$ Hg; iintro Hg
  rw [read_g]
  iapply (wp_load 𝒱₀ (c : Thread nD τ) none Set.univ (m := oM) (Finset.subset_univ _)) $$ Hout; iintro Hout
  iapply (wp_store 𝒱₀ (c : Thread nD τ) none Set.univ (m := oM) (r := r0x) (Mk := Finset.univ) (Finset.subset_univ _)) $$ Hout; iintro Hout
  rw [write_out, show k0_pay3 (k0_pay1 (xblk m c)) (gathered m) = outBlk m c from rfl]
  -- the sixteen send waits: the lent shares come back
  ihave Hp := (devs2 (fun j : Dev nD => (cred (tallyAt (sendCell c j) () N) : sProp 𝕄)) (fun j => atPos ER (sendCell c j) 0 ∅ 0)) $$ [Hcs HatS]
  · isplitl [Hcs] <;> iassumption
  iapply (wp_sendWaits m K c _ Kt) $$ [Hp HO]
  · isplitr; · iexact Hrec
    isplitl [Hp] <;> iassumption
  iintro ⟨Hy, HO⟩
  ihave Hy := (devs2_split (fun j : Dev nD => (atPos ER (sendCell c j) 1 ∅ 0 : sProp 𝕄)) (fun j => lPts c (shr j) (partSums m c))) $$ Hy
  icases Hy with ⟨HatS, Hlq⟩
  -- the shares joined, the own cells closed
  ihave Hl := (Transfers.pointsTo_toks_join fullShare 16) $$ [Hlr Hlq]
  · isplitl [Hlr]; · iexact Hlr
    unfold lPts; iexact Hlq
  imod (close_sends m K c) $$ [HatS] with HzS
  · isplitr; · iexact Hrec
    iexact HatS
  imod (close_recvs m K c) $$ [HatR] with HzR
  · isplitr; · iexact Hrec
    iexact HatR
  rw [wp_ret]; imodintro
  iapply Hk
  unfold bodyPost Φ₁ Dat.owesAt Pipeline.owesWithin
  rw [show (dats m 0 c).owed t₀.succ = 0 from rfl]
  isplitl [Hl Hg HzS HzR]
  · isplitl [Hl]; · iexists _; unfold lPts; iexact Hl
    isplitl [Hg]; · iexists _; unfold gPts; iexact Hg
    isplitl [HzS] <;> iassumption
  isplitl [HO]
  · icases HO with ⟨%W3, HO⟩
    iexists W3
    isplitr; · ipureintro; exact fun _ _ => Or.inl trivial
    iexact HO
  isplitl [Hx]
  · iexists _; isplitr; · (ipureintro; rfl)
    iexact Hx
  iexists _; isplitr; · (ipureintro; rfl)
  iexact Hout

/-- info: 'Cert.KernelIdealProof.sound_body' depends on axioms: [propext, Classical.choice, Quot.sound] -/
#guard_msgs in #print axioms sound_body

end Cert.KernelIdealProof
end
-- ==== Proof.KernelIdeal.Launch.lean ====
import proofs.«901061_g7700000000001062_dist_softmax_colshard_i_m2048_n1024_v7x_i16_f32_1_alg».proof.Proof.KernelIdeal.Body
import proofs.«901061_g7700000000001062_dist_softmax_colshard_i_m2048_n1024_v7x_i16_f32_1_alg».proof.Proof.Gen.KernelIdeal.Frame

/-!
# The launch: from every device's body to the run of the whole program
-/

noncomputable section

namespace Cert.KernelIdealProof

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- Holding a whole buffer through its whole memref is holding the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  show iprop(∃ f, ⌜(Memref.whole b).view.read (Elt F) f = X⌝ ∗ ((Memref.whole b).view.loc (c : Thread nD τ) ↦[(Memref.whole b).view.set]{fullShare} f)) = _
  rw [Memref.view_whole, View.set_whole]
  rfl

set_option maxRecDepth 4000 in
/-- What the library hands the body at the one grid point. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 32768 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hl, Hgm⟩, Ho, Hx, Hout⟩
  iapply (sound_body m K c fun _ => bodyPost m c)
  unfold bodyPre
  isplitr []
  · isplitl [Hg Hrest Hl Hgm]
    · isplitl [Hg]; · iexact Hg
      icases Hrest with ⟨H1, H2, H3⟩
      isplitl [H1]; · iexact H1
      isplitl [H2]; · iexact H2
      isplitl [H3]; · iexact H3
      isplitl [Hl]; · iexact Hl
      iexact Hgm
    isplitl [Ho]; · iexact Ho
    isplitl [Hx] <;> iassumption
  · iintro H; iexact H

/-! ## The launch -/

theorem ownSemFacts : Pipeline.OwnSemFacts cfg0.spec osem := by decide +kernel

theorem share_eq (c : Dev nD) (w : Fin cfg0.W) : (dats m 0 c).share w = fullShare := by unfold Dat.share; split <;> rfl

theorem csem_injective : Function.Injective (csem : Fin 33 → SemLoc sig) := by decide +kernel

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's thirty-three cells. -/
def xCells : Finset (GSem nD τ sig) := Finset.univ.map ⟨kcell, kcell_injective⟩

/-- The duty tokens minted on a device's own cells: its barrier cell's sixteen, one for each send and each receive cell. -/
def tokOf : Dev nD × (Dev nD ⊕ (Dev nD ⊕ Dev nD)) → GSem nD τ sig × ℕ × Dev nD
  | (c, .inl d) => (barCell c, 0, d)
  | (c, .inr (.inl j)) => (sendCell c j, 0, 0)
  | (c, .inr (.inr k)) => (recvCell c k, 0, 0)

theorem tokOf_injective : Function.Injective tokOf := by
  rintro ⟨c, x⟩ ⟨c', x'⟩ h
  have h1 : c = c' := by
    have := congrArg (fun y : GSem nD τ sig × ℕ × Dev nD => y.1.1.1) h
    rcases x with d | j | k <;> rcases x' with d' | j' | k' <;> exact this
  subst h1
  have h2 : (tokOf (c, x)).1.2 = (tokOf (c, x')).1.2 := congrArg (fun y : GSem nD τ sig × ℕ × Dev nD => y.1.2) h
  have h3 : (tokOf (c, x)).2.2 = (tokOf (c, x')).2.2 := congrArg (fun y : GSem nD τ sig × ℕ × Dev nD => y.2.2) h
  rcases x with d | j | k <;> rcases x' with d' | j' | k'
  · have : d = d' := h3
    rw [this]
  · exact absurd h2 (fun h' => by cases h')
  · exact absurd h2 (fun h' => by cases h')
  · exact absurd h2 (fun h' => by cases h')
  · have : j = j' := sendS_inj (SemLoc.dma.inj h2)
    rw [this]
  · exact absurd (SemLoc.dma.inj h2) (sendS_ne_recvS j k')
  · exact absurd h2 (fun h' => by cases h')
  · exact absurd (SemLoc.dma.inj h2).symm (sendS_ne_recvS j' k)
  · have : k = k' := recvS_inj (SemLoc.dma.inj h2)
    rw [this]

def xToks : Finset (GSem nD τ sig × ℕ × Dev nD) := Finset.univ.map ⟨tokOf, tokOf_injective⟩

/-- The launch element: the pipeline library's copy beside the exchange's. -/
def u₀ : UU :=
  (initOf (Pipeline.cells cfgs cellOf_inj) (Pipeline.launchToks cfgs cellOf_inj), initOf xCells xToks)

/-- The duty tokens of device `c`'s own cells. -/
def toks (c : Dev nD) : sProp 𝕄 :=
  iprop((bigSep Finset.univ fun d : Dev nD => dutyTok ER (barCell c) 0 d)
    ∗ (bigSep Finset.univ fun j : Dev nD => dutyTok ER (sendCell c j) 0 (0 : Dev nD))
    ∗ (bigSep Finset.univ fun k : Dev nD => dutyTok ER (recvCell c k) 0 (0 : Dev nD)))

/-- What the launch element deals device `c`. -/
def G (c : Dev nD) : sProp 𝕄 :=
  iprop((bigSep Finset.univ fun k : Fin 33 => roundState ER (xRd m) (kcell (c, k)) 0)
    ∗ (bigSep Finset.univ fun k : Fin 33 => iprop(atPos ER (kcell (c, k)) 0 ∅ 0 ∗ reached ER (kcell (c, k)) 0)) ∗ toks c)

/-- What the global step makes of it. -/
def G' (c : Dev nD) : sProp 𝕄 := iprop(∃ K, ghost m K c)

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 33 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_sum, bigSep_univ_sum]; rfl
  iintro HX
  imod (Rounds.fund ER (xRd m) xCells xToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The cell index: the barrier cell, the sixteen send cells, the sixteen receive cells -/

theorem dev_lt (j : Dev nD) : j.val < 16 := j.isLt
theorem iBar_val : (iBar : Fin 33).val = 0 := rfl
theorem iSend_val (j : Dev nD) : (iSend j).val = j.val + 1 := rfl
theorem iRecv_val (k : Dev nD) : (iRecv k).val = k.val + 17 := rfl

theorem iSend_injective : Function.Injective iSend := fun a b h => by
  have := congrArg Fin.val h; rw [iSend_val, iSend_val] at this; exact Fin.ext (by omega)
theorem iRecv_injective : Function.Injective iRecv := fun a b h => by
  have := congrArg Fin.val h; rw [iRecv_val, iRecv_val] at this; exact Fin.ext (by omega)

theorem univ33 : (Finset.univ : Finset (Fin 33))
    = insert iBar (Finset.univ.map ⟨iSend, iSend_injective⟩ ∪ Finset.univ.map ⟨iRecv, iRecv_injective⟩) := by
  ext i
  simp only [Finset.mem_univ, Finset.mem_insert, Finset.mem_union, Finset.mem_map, Function.Embedding.coeFn_mk, true_and, true_iff]
  by_cases h0 : i.val = 0
  · exact Or.inl (Fin.ext h0)
  · by_cases h1 : i.val ≤ 16
    · exact Or.inr (Or.inl ⟨⟨i.val - 1, by show i.val - 1 < 16; omega⟩, Fin.ext (by show i.val - 1 + 1 = i.val; omega)⟩)
    · exact Or.inr (Or.inr ⟨⟨i.val - 17, by show i.val - 17 < 16; have := i.isLt; omega⟩, Fin.ext (by show i.val - 17 + 17 = i.val; omega)⟩)

/-- A family over a device's thirty-three cells, sorted by kind. -/
theorem bigSep_fin33 (Φ : Fin 33 → sProp 𝕄) : bigSep Finset.univ Φ
    = iprop(Φ iBar ∗ (bigSep Finset.univ fun j : Dev nD => Φ (iSend j)) ∗ bigSep Finset.univ fun k : Dev nD => Φ (iRecv k)) := by
  have hd : Disjoint (Finset.univ.map ⟨iSend, iSend_injective⟩) (Finset.univ.map ⟨iRecv, iRecv_injective⟩) := by
    rw [Finset.disjoint_left]; intro a ha hb
    obtain ⟨j, -, rfl⟩ := Finset.mem_map.mp ha
    obtain ⟨k, -, hk⟩ := Finset.mem_map.mp hb
    have e := congrArg Fin.val hk
    have e1 := iSend_val j; have e2 := iRecv_val k; have hj := dev_lt j
    simp only [Function.Embedding.coeFn_mk] at e
    omega
  have hn : iBar ∉ Finset.univ.map ⟨iSend, iSend_injective⟩ ∪ Finset.univ.map ⟨iRecv, iRecv_injective⟩ := by
    intro h
    rcases Finset.mem_union.mp h with h | h
    · obtain ⟨j, -, hj⟩ := Finset.mem_map.mp h
      have e := congrArg Fin.val hj; have e1 := iSend_val j; have e0 := iBar_val
      simp only [Function.Embedding.coeFn_mk] at e
      omega
    · obtain ⟨k, -, hk⟩ := Finset.mem_map.mp h
      have e := congrArg Fin.val hk; have e1 := iRecv_val k; have e0 := iBar_val
      simp only [Function.Embedding.coeFn_mk] at e
      omega
  rw [univ33, bigSep_insert hn, bigSep_union hd, bigSep_map, bigSep_map]; rfl

/-- The kernel's own thirty-two semaphores, sorted likewise. -/
def oSend (j : Dev nD) : Fin 32 := ⟨j.val, by have := dev_lt j; omega⟩
def oRecv (k : Dev nD) : Fin 32 := ⟨k.val + 16, by have := dev_lt k; omega⟩
theorem oSend_val (j : Dev nD) : (oSend j).val = j.val := rfl
theorem oRecv_val (k : Dev nD) : (oRecv k).val = k.val + 16 := rfl
theorem oSend_injective : Function.Injective oSend := fun a b h => by
  have := congrArg Fin.val h; rw [oSend_val, oSend_val] at this; exact Fin.ext this
theorem oRecv_injective : Function.Injective oRecv := fun a b h => by
  have := congrArg Fin.val h; rw [oRecv_val, oRecv_val] at this; exact Fin.ext (by omega)

theorem osem_send (j : Dev nD) : osem (oSend j) = .dma (sendS j) := by
  have : (oSend j).succ = iSend j := Fin.ext rfl
  unfold osem; rw [this, csem_send]
theorem osem_recv (k : Dev nD) : osem (oRecv k) = .dma (recvS k) := by
  have : (oRecv k).succ = iRecv k := Fin.ext (by show k.val + 16 + 1 = k.val + 17; omega)
  unfold osem; rw [this, csem_recv]

theorem univ32 : (Finset.univ : Finset (Fin 32))
    = Finset.univ.map ⟨oSend, oSend_injective⟩ ∪ Finset.univ.map ⟨oRecv, oRecv_injective⟩ := by
  ext i
  simp only [Finset.mem_univ, Finset.mem_union, Finset.mem_map, Function.Embedding.coeFn_mk, true_and, true_iff]
  by_cases h1 : i.val < 16
  · exact Or.inl ⟨⟨i.val, h1⟩, Fin.ext rfl⟩
  · exact Or.inr ⟨⟨i.val - 16, by show i.val - 16 < 16; have := i.isLt; omega⟩, Fin.ext (by show i.val - 16 + 16 = i.val; omega)⟩

theorem bigSep_fin32 (Φ : Fin 32 → sProp 𝕄) : bigSep Finset.univ Φ
    = iprop((bigSep Finset.univ fun j : Dev nD => Φ (oSend j)) ∗ bigSep Finset.univ fun k : Dev nD => Φ (oRecv k)) := by
  have hd : Disjoint (Finset.univ.map ⟨oSend, oSend_injective⟩) (Finset.univ.map ⟨oRecv, oRecv_injective⟩) := by
    rw [Finset.disjoint_left]; intro a ha hb
    obtain ⟨j, -, rfl⟩ := Finset.mem_map.mp ha
    obtain ⟨k, -, hk⟩ := Finset.mem_map.mp hb
    have e := congrArg Fin.val hk
    have e1 := oSend_val j; have e2 := oRecv_val k; have hj := dev_lt j
    simp only [Function.Embedding.coeFn_mk] at e
    omega
  rw [univ32, bigSep_union hd, bigSep_map, bigSep_map]; rfl

/-! ### The semaphores at launch -/

/-- The send and the receive semaphores are the kernel's own thirty-two; -/
theorem ownSems0_eq (c : Dev nD) : (Pipeline.ownSems0 (Ix := Unit) (Name := ℕ) (U := UU) (Lvl := ℕ) (Val := Elt F) (τ := τ) osem c : sProp 𝕄)
    = iprop((bigSep Finset.univ fun j : Dev nD => semVal (sendCell c j) 0) ∗ bigSep Finset.univ fun k : Dev nD => semVal (recvCell c k) 0) := by
  unfold Pipeline.ownSems0; rw [bigSep_fin32]; simp only [osem_send, osem_recv]

/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [ownSems0_eq, unscopedSems0_eq, bigSep_fin33]
  simp only [kcell_bar, kcell_send, kcell_recv]
  iintro ⟨⟨HS, HV⟩, HB⟩
  isplitl [HB]; · iexact HB
  isplitl [HS] <;> iassumption

/-- One device's cells' invariants allocated, from its counters at zero and the round states dealt to it. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (xRd m) κ (kcell (c, k))))
          ∗ (bigSep Finset.univ fun k : Fin 33 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (xRd m) (kcell (c, k)) 0)
      ⊢ (|={Set.univ}=> bigSep Finset.univ fun k : Fin 33 => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Every device's ghost state from what the devices' own cells give -/

theorem ghost_intro (K : Dev nD × Fin 33 → ℕ) (c : Dev nD) : iprop(records m K ∗ positions c ∗ payToks c) ⊢ G' m c := by
  unfold G' ghost
  iintro H; iexists K; iexact H

theorem positions_eq (c : Dev nD) : (bigSep Finset.univ fun k : Fin 33 => (atPos ER (kcell (c, k)) 0 ∅ 0 : sProp 𝕄)) = positions c := by
  rw [bigSep_fin33]; unfold positions
  simp only [kcell_bar, kcell_send, kcell_recv]

/-- The tokens dealt to their payers: the token of device `d`'s duty on device `c`'s barrier cell goes to `d`, the token
    of device `c`'s receive cell `k` to the sender `k`; a send cell's token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_comm (fun c d : Dev nD => (dutyTok ER (barCell c) 0 d : sProp 𝕄)),
    bigSep_univ_comm (fun c k : Dev nD => (dutyTok ER (recvCell c k) 0 (0 : Dev nD) : sProp 𝕄))]
  iintro ⟨H1, H2, H3⟩
  isplitl [H1]; · iexact H1
  isplitl [H3]; · iexact H3
  iexact H2

theorem regroup :
    (bigSep Finset.univ fun c : Dev nD => iprop((bigSep Finset.univ fun k : Fin 33 => iprop(∃ κ : ℕ, cellInv ER (xRd m) κ (kcell (c, k))))
          ∗ (bigSep Finset.univ fun k : Fin 33 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 33 => iprop(∃ κ : ℕ, cellInv ER (xRd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (xRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ iprop(positions c ∗ payToks c) from Entails.of_eq (by rw [positions_eq])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b k k' : Dev nD} : Iff (recvCell a k = recvCell b k') (a = b ∧ k = k') :=
  ⟨fun h => ⟨Fin.ext (congrArg (fun g : GSem nD τ sig => g.1.1.val) h), recvS_inj (SemLoc.dma.inj (congrArg Prod.snd h))⟩,
    fun h => by rw [h.1, h.2]⟩
theorem recv_ne_barCell (a k b : Dev nD) : recvCell a k ≠ barCell b := fun h => recv_ne_bar k (congrArg Prod.snd h)

theorem devs_count (c : Dev nD) : devs.count c = 1 := by revert c; decide

/-- What a device owes, read at a receive cell and at a barrier cell: the receive credits, -/
theorem oweRecv_recv (d : Dev nD) (js : List (Dev nD)) (c k : Dev nD) :
    oweRecv d js (recvCell c k) () = if k = d then js.count c * N else 0 := by
  induction js with
  | nil => show (0 : ℕ) = _; split <;> simp
  | cons j js ih =>
    show (oweRecv d js + tallyAt (recvCell j d) () N) (recvCell c k) () = _
    rw [Pi.add_apply, Finsupp.add_apply, ih, tallyAt_apply, List.count_cons]
    by_cases hk : k = d
    · subst hk
      by_cases hj : c = j
      · subst hj; simp [Nat.add_mul]
      · have h1 : ¬ (recvCell c k = recvCell j k ∧ () = ()) := fun h => hj (recv_eq_iff.mp h.1).1
        have h2 : (j == c) = false := by rw [beq_eq_false_iff_ne]; exact Ne.symm hj
        rw [if_neg h1, h2]; simp
    · have h1 : ¬ (recvCell c k = recvCell j d ∧ () = ()) := fun h => hk (recv_eq_iff.mp h.1).2
      rw [if_neg hk, if_neg h1, if_neg hk]
theorem oweRecv_bar (d : Dev nD) (js : List (Dev nD)) (c : Dev nD) : oweRecv d js (barCell c) () = 0 := by
  induction js with
  | nil => rfl
  | cons j js ih =>
    show (oweRecv d js + tallyAt (recvCell j d) () N) (barCell c) () = _
    rw [Pi.add_apply, Finsupp.add_apply, ih, tallyAt_ne_cell (fun h => recv_ne_barCell j d c h.symm), Finsupp.zero_apply, Nat.add_zero]

/-- and the barrier units over them. -/
theorem oweBar_bar (base : CellTallies nD τ sig Unit) (js : List (Dev nD)) (c : Dev nD) :
    oweBar base js (barCell c) () = base (barCell c) () + js.count c := by
  induction js with
  | nil => rfl
  | cons j js ih =>
    show (oweBar base js + tallyAt (barCell j) () 1) (barCell c) () = _
    rw [Pi.add_apply, Finsupp.add_apply, ih, tallyAt_apply, List.count_cons]
    by_cases hj : c = j
    · subst hj; simp <;> omega
    · have h1 : ¬ (barCell c = barCell j ∧ () = ()) := fun h => hj (bar_eq_iff.mp h.1)
      have h2 : (j == c) = false := by rw [beq_eq_false_iff_ne]; exact Ne.symm hj
      rw [if_neg h1, h2]; simp
theorem oweBar_recv (base : CellTallies nD τ sig Unit) (js : List (Dev nD)) (c k : Dev nD) :
    oweBar base js (recvCell c k) () = base (recvCell c k) () := by
  induction js with
  | nil => rfl
  | cons j js ih =>
    show (oweBar base js + tallyAt (barCell j) () 1) (recvCell c k) () = _
    rw [Pi.add_apply, Finsupp.add_apply, ih, tallyAt_ne_cell (recv_ne_barCell c k j), Finsupp.zero_apply, Nat.add_zero]

/-- Every device owes every barrier cell one unit, -/
theorem owed_bar (d c : Dev nD) : O₀ d (barCell c) () = 1 := by
  unfold O₀ O₁; rw [oweBar_bar, oweRecv_bar, devs_count]
/-- and device `d` owes a receive cell `k` the vector's credit when `k = d`. -/
theorem owed_recv (d c k : Dev nD) : O₀ d (recvCell c k) () = if k = d then N else 0 := by
  unfold O₀ O₁; rw [oweBar_recv, oweRecv_recv, devs_count, Nat.one_mul]

theorem launch_bar (c : Dev nD) :
    tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar d c, Finset.sum_const, Finset.card_univ,
    Fintype.card_fin, smul_eq_mul]
  rfl

theorem launch_recv (c k : Dev nD) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq Finset.univ k fun _ => N, if_pos (Finset.mem_univ _)]

/-- A device's launch credit: its barrier cell's sixteen units, each receive cell's landing. -/
theorem creds (c : Dev nD) :
    (Pipeline.launchCred O₀ c : sProp 𝕄) ⊢ iprop(cred (tallyAt (barCell c) () 16) ∗ bigSep Finset.univ fun k : Dev nD => cred (tallyAt (recvCell c k) () N)) := by
  have hinj : Function.Injective (fun k : Dev nD => (SemLoc.dma (recvS k) : SemLoc sig)) := fun a b h => recvS_inj (SemLoc.dma.inj h)
  have hsub : Finset.univ.map ⟨fun k : Dev nD => (SemLoc.dma (recvS k) : SemLoc sig), hinj⟩ ⊆ Finset.univ.erase (SemLoc.reg barS) := fun s hs => by
    obtain ⟨k, -, rfl⟩ := Finset.mem_map.mp hs
    exact Finset.mem_erase.mpr ⟨recv_ne_bar k, Finset.mem_univ _⟩
  unfold Pipeline.launchCred
  rw [bigSep_univ_at _ (SemLoc.reg barS), launch_bar]
  refine sep_mono_right ((bigSep_subset hsub).trans ?_)
  rw [bigSep_map]
  exact Entails.of_eq (bigSep_congr fun k _ => congrArg cred (launch_recv c k))

/-! ### The levels of the staging waits -/

theorem owedRecv_pos_cell {d : Dev nD} {js : List (Dev nD)} {g : GSem nD τ sig} {u : Unit} (h : 0 < oweRecv d js g u) : ∃ j, g = recvCell j d := by
  induction js with
  | nil => exact absurd h (Nat.lt_irrefl 0)
  | cons j js ih =>
    rcases Pipeline.add_pos_cases (show 0 < (oweRecv d js + tallyAt (recvCell j d) () N) g u from h) with h | h
    · exact ih h
    · exact ⟨j, (Pipeline.tallyAt_pos h).1⟩
theorem owedBar_pos_cell {base : CellTallies nD τ sig Unit} {js : List (Dev nD)} {g : GSem nD τ sig} {u : Unit} (h : 0 < oweBar base js g u) :
    0 < base g u ∨ ∃ j, g = barCell j := by
  induction js with
  | nil => exact Or.inl h
  | cons j js ih =>
    rcases Pipeline.add_pos_cases (show 0 < (oweBar base js + tallyAt (barCell j) () 1) g u from h) with h | h
    · exact ih h
    · exact Or.inr ⟨j, (Pipeline.tallyAt_pos h).1⟩
/-- What a device owes at launch sits on barrier cells and receive cells only. -/
theorem owed_pos_cell {c : Dev nD} {g : GSem nD τ sig} {u : Unit} (h : 0 < O₀ c g u) : (∃ j, g = barCell j) ∨ ∃ j, g = recvCell j c := by
  rcases owedBar_pos_cell h with h | h
  · exact Or.inr (owedRecv_pos_cell h)
  · exact Or.inl h

theorem recvIdx_of_ne (s : SemLoc sig) (h : ∀ k : Dev nD, s ≠ .dma (recvS k)) : recvIdx s = none := by
  unfold recvIdx
  rw [Finset.filter_false_of_mem (fun k _ => h k)]; rfl

/-- A wait on a staging cell, while the device owes all it owes at launch or nothing: level 0, below barrier and receive cells. -/
theorem mayWait_stage (c : Dev nD) (q : DmaSem sig) (hq : ∀ k : Dev nD, (SemLoc.dma q : SemLoc sig) ≠ .dma (recvS k))
    (O : CellTallies nD τ sig Unit) (hO : O = O₀ c ∨ O = 0) :
    (levAts L lv : sProp 𝕄) ⊢ MayWait (c : Thread nD τ) (.dma q) () O := by
  rcases hO with rfl | rfl
  · have hl : lv ((c : Thread nD τ), SemLoc.dma q) () = 0 := by
      dsimp only [lv]; rw [if_neg (fun h => by cases h), recvIdx_of_ne _ hq]; rfl
    refine Pipeline.mayWait_of_levAts (by rw [L_tc]; exact Finset.mem_singleton_self _) fun g u hg => ?_
    rcases owed_pos_cell hg with ⟨j, rfl⟩ | ⟨j, rfl⟩
    · refine ⟨by rw [L_tc]; exact Finset.mem_singleton.mpr rfl, ?_⟩
      rw [hl]; dsimp only [lv]; rw [if_pos rfl]; exact Nat.one_pos
    · refine ⟨by rw [L_tc]; exact Finset.mem_singleton.mpr rfl, ?_⟩
      rw [hl]; dsimp only [lv]; rw [if_neg (recv_ne_bar c), recvIdx_recv]; exact Nat.succ_pos 1
  · rw [MayWait_zero]; iintro -; iempintro

/-! ### The theorem's side conditions -/

theorem lPts_eq (c : Dev nD) (f : Buf (Elt F) ((c : Thread nD τ).loc cc0_scratch0)) :
    lPts c fullShare f = (((c : Thread nD τ).loc cc0_scratch0) ↦{fullShare} f : sProp 𝕄) := by unfold lPts; rw [View.set_whole]
theorem gPts_eq (c : Dev nD) (f : Buf (Elt F) ((c : Thread nD τ).loc cc0_scratch1)) :
    gPts c f = (((c : Thread nD τ).loc cc0_scratch1) ↦{fullShare} f : sProp 𝕄) := by unfold gPts; rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hl⟩, ⟨%g, Hg⟩⟩
  isplitl [Hs]; · iexact Hs
  isplitl [Hl]
  · iexists f; rw [lPts_eq]; iexact Hl
  · iexists g; rw [gPts_eq]; iexact Hg

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hl⟩, ⟨%g, Hg⟩, HzS, HzV⟩
  isplitr; · iempintro
  isplitl [HzS HzV]
  · isplitl [HzS] <;> iassumption
  isplitl [Hl]
  · iexists f; rw [← lPts_eq]; iexact Hl
  · iexists g; rw [← gPts_eq]; iexact Hg

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

/-- The windows' arrays after the one grid point. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every weakly fair execution of @main terminates, and every final state has the windows' arrays as the one grid point leaves them. -/
theorem run_arrays : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array after the run holds what it held: an input window's array is never written back. -/
theorem finalA_x (c : Dev nD) : finalA m c (0 : Fin 2) = m (win0_0.arr.view.loc (c : Thread nD τ)) :=
  (dats (F := F) m 0 c).arrAt_in (0 : Fin 2) rfl _

/-- The result array after the run: the one grid point writes back its one block, which is the whole array, from the
    staging buffer the body left at the scaled block. -/
theorem finalA_out (c : Dev nD) : finalA m c (1 : Fin 2) = outBlk m c := by
  show (dats m 0 c).arrAt (1 : Fin 2) (t₀.val + 1) = outBlk m c
  rw [Dat.arrAt_succ, if_pos (flush0_1 t₀)]
  exact Memref.write_access_unit_zero_univ (Elt F) main_v1 (off := fun a => win0_1.index t₀ a * win0_1.size a)
    (funext fun a => by fin_cases a <;> rfl) _ _ (outBlk m c)

/-- At the compiled mesh of sixteen devices, from any memory with zero counters: every weakly fair execution of @main
    terminates, and every final state has each device's result array at its scaled block and its argument unchanged. -/
theorem run_main : θ_run defs (onTc (τ := τ) (main (F := F))) ⟨m, fun _ => 0, ρ⟩ (fun r => ∀ c : Dev nD,
    r.2.mem ((c.tc : Thread nD τ).loc main_v1) = outBlk m c
      ∧ r.2.mem ((c.tc : Thread nD τ).loc main_arg0) = m ((c.tc : Thread nD τ).loc main_arg0)) :=
  (θ_run defs _ _).mono (fun _ h c => ⟨(h c 1).trans (finalA_out m c), (h c 0).trans (finalA_x m c)⟩) (run_arrays m ρ)

/-- info: 'Cert.KernelIdealProof.run_main' depends on axioms: [propext, Classical.choice, Quot.sound] -/
#guard_msgs in #print axioms run_main

end Cert.KernelIdealProof
end
-- ==== Proof.Softmax.lean ====
import Idealize.ShloMosaic.PureOps.Ideal
import Idealize.ShloMosaic.Lib.ValueIdx

/-!
# The function both programs compute, over the extended reals

For a matrix `X` of 2048 rows and 16384 columns, `G X` is `exp X` with each row scaled by the reciprocal of
that row's sum of `exp X` over all 16384 columns (the softmax of each row, written without the max shift).
-/

noncomputable section

namespace Cert.Softmax

open Idealize.ShloMosaic Idealize.ShloMosaic.ValueIdx

/-- The sum of `exp X` over the columns of row `p`. -/
def rowSum (X : (⟨2, ![2048, 16384]⟩ : Shape).Idx → EReal) (p : Fin 2048) : EReal :=
  ∑ J : Fin 16384, Ideal.exp (X (ix2 p J))

/-- `exp X`, row `p` scaled by `1 / rowSum X p`. -/
def G (X : (⟨2, ![2048, 16384]⟩ : Shape).Idx → EReal) : (⟨2, ![2048, 16384]⟩ : Shape).Idx → EReal :=
  fun i => Ideal.exp (X i) * Ideal.div 1 (rowSum X (i 0))

end Cert.Softmax

end
-- ==== Proof.KernelValue.lean ====
import proofs.«901061_g7700000000001062_dist_softmax_colshard_i_m2048_n1024_v7x_i16_f32_1_alg».proof.Defs
import proofs.«901061_g7700000000001062_dist_softmax_colshard_i_m2048_n1024_v7x_i16_f32_1_alg».proof.Proof.KernelIdeal.Spec
import proofs.«901061_g7700000000001062_dist_softmax_colshard_i_m2048_n1024_v7x_i16_f32_1_alg».proof.Proof.Softmax
import Idealize.ShloMosaic.Lib.Layout
import Idealize.ShloMosaic.Lib.ValueLayout
import Idealize.ShloMosaic.PureOps.Ideal.Laws
import Mathlib.Logic.Equiv.Fin.Basic
import Mathlib.Data.Fintype.BigOperators
import Mathlib.Algebra.BigOperators.Group.Finset.Defs

/-!
# Each device's result block is its block of the row-wise softmax

The matrix `X` has 2048 rows and 16384 columns; device `c` of sixteen holds columns `1024·c … 1024·c + 1023`.
At entry `(p, q)` of its block a device computes

  `exp X(p, 1024·c + q) · (1 / Σ_{d < 16} Σ_{k < 1024} exp X(p, 1024·d + k))`:

the inner sum is device `d`'s partial sum of row `p` over its own columns, the outer sum adds the sixteen
partial sums every device has received. The pair `(d, k) ↦ 1024·d + k` is a bijection from
`Fin 16 × Fin 1024` onto `Fin 16384`, and addition of extended reals is commutative and associative, so the
double sum is the sum of `exp X(p, ·)` over all 16384 columns: the divisor of row `p`'s softmax. No
finiteness is used. The steps: a block read at an index; each payload read at an index (pointwise
operations, the two one-axis sums, the layout changes between a column of row sums and a row vector); the
regrouping of the double sum; the assembly.
-/

noncomputable section

namespace Cert.KernelValue

open Idealize.ShloMosaic Idealize.ShloMosaic.TcCoe Idealize.SL.Sem

section AtAnIndex

open Idealize.ShloMosaic.ValueIdx
open Cert.KernelIdeal Cert.KernelIdeal.Gen Cert.KernelIdeal.Spec

/-! ## The float words of the payloads -/

/-- The word `0x3F800000` is the number one. -/
theorem ofBits_one_f32 : Ideal.ofBits .f32 0x3F800000#32 = 1 := by
  simp [Ideal.ofBits, Ideal.ieee, -EReal.coe_mul]; norm_num

/-! ## A device's block of the argument, read at an index -/

/-- The input window's block view is the whole array: device `c`'s block, read at `(p, q)`, is its
    argument buffer there. -/
theorem xblk_apply (m : (ℓ : Loc nD τ sig) → Buf (Elt Ideal) ℓ) (c : Dev nD) (p : Fin 2048) (q : Fin 1024) :
    xblk (F := Ideal) m c (ix2 p q) = m ((c.tc : Thread nD τ).loc main_arg0) (ix2 p q) := by
  unfold xblk
  rw [View.read_apply]
  show m ((c.tc : Thread nD τ).loc main_arg0) ((win0_0.blk (0 : Fin 1)).view.emb (ix2 p q)) = _
  refine congrArg (m ((c.tc : Thread nD τ).loc main_arg0)) (funext fun a => Fin.ext ?_)
  match a with
  | ⟨0, _⟩ =>
    show 0 * 2048 + 1 * p.val = p.val
    omega
  | ⟨1, _⟩ =>
    show 0 * 1024 + 1 * q.val = q.val
    omega

/-- Column `q` of block `c` is column `1024 · c + q` of the whole matrix. -/
def col (c : Fin 16) (q : Fin 1024) : Fin 16384 := ⟨c.val * 1024 + q.val, by omega⟩

/-- Where entry `(p, q)` of block `c` lies in the whole matrix. -/
theorem tiles_idx (h : Layout.Tiles ⟨2, ![2048, 1024]⟩ ⟨2, ![2048, 16384]⟩ 1 16) (c : Fin 16) (p : Fin 2048) (q : Fin 1024) :
    h.idx c (ix2 p q) = ix2 p (col c q) := by
  funext a
  refine Fin.ext ?_
  match a with
  | ⟨0, _⟩ => rfl
  | ⟨1, _⟩ => rfl

/-- A block of a matrix, read at `(p, q)`. -/
theorem block_apply2 {α : Type} (c : Fin 16) (Y : (⟨2, ![2048, 16384]⟩ : Shape).Idx → α) (p : Fin 2048) (q : Fin 1024) :
    (Layout.block ⟨2, ![2048, 1024]⟩ ⟨2, ![2048, 16384]⟩ 1 16 c Y) (ix2 p q) = Y (ix2 p (col c q)) := by
  rw [Layout.block_apply, tiles_idx]

/-! ## The payloads read at an index -/

/-- `exp` of a block, entry by entry. -/
theorem pay1_apply (x : Vec Ideal S2048x1024 .f32) (p : Fin 2048) (q : Fin 1024) :
    k0_pay1 (F := Ideal) x (ix2 p q) = Ideal.exp (x (ix2 p q)) := by
  unfold k0_pay1
  rw [shapeCast_self]
  rfl

/-- A sum along the columns of a block, at row `p`. -/
theorem rowsum_apply (src : FVec Ideal S2048x1024 .f32) (p : Fin 2048) :
    multiReduction (F := Ideal) .add [1] S2048 src 0x00000000#32 reduces_S2048x1024_S2048 (.inl rfl) rfl (ix1 p)
      = ∑ k : Fin 1024, src (ix2 p k) := by
  refine (Ideal.multiReduction_add_single src _ reduces_S2048x1024_S2048 _ _ (ix1 p)).trans ?_
  refine Finset.sum_congr rfl fun k _ => congrArg src ?_
  funext a
  refine Fin.ext ?_
  match a with
  | ⟨0, _⟩ => rfl
  | ⟨1, _⟩ => rfl

/-- The partial row sums of a block, as a row vector: entry `(0, p)` is the sum of `exp` over the
    block's row `p`. -/
theorem pay2_apply (x : Vec Ideal S2048x1024 .f32) (u : Fin 1) (p : Fin 2048) :
    k0_pay2 (F := Ideal) x (ix2 u p) = ∑ k : Fin 1024, Ideal.exp (x (ix2 p k)) := by
  unfold k0_pay2
  rw [shapeCast_self]
  refine (transpose_ix2_apply _ transposes_S2048x1_p1_0_S1x2048 u p).trans ?_
  refine (shapeCast_apply _ shapeCasts_S2048_S2048x1 (ix2 p u) (ix1 p) ?_).trans ?_
  · rw [Shape.rowMajor_val_two, Shape.rowMajor_val_one]
    show p.val = p.val * 1 + u.val
    omega
  refine (rowsum_apply _ p).trans ?_
  exact Finset.sum_congr rfl fun k _ => pay1_apply x p k

/-- The sum of sixteen stacked row vectors, at column `p`. -/
theorem stacksum_apply (src : FVec Ideal S16x2048 .f32) (p : Fin 2048) :
    multiReduction (F := Ideal) .add [0] S2048 src 0x00000000#32 reduces_S16x2048_S2048 (.inl rfl) rfl (ix1 p)
      = ∑ d : Fin 16, src (ix2 d p) := by
  refine (Ideal.multiReduction_add_single src _ reduces_S16x2048_S2048 _ _ (ix1 p)).trans ?_
  refine Finset.sum_congr rfl fun d _ => congrArg src ?_
  funext a
  refine Fin.ext ?_
  match a with
  | ⟨0, _⟩ => rfl
  | ⟨1, _⟩ => rfl

/-- The result block from `e = exp x` and the stacked partial row sums `g`: entry `(p, q)` is `e (p, q)` times
    the reciprocal of the sum over the sixteen devices of their partial sums of row `p`. -/
theorem pay3_apply (e : FVec Ideal S2048x1024 .f32) (g : Vec Ideal S16x1x2048 .f32) (p : Fin 2048) (q : Fin 1024) :
    k0_pay3 (F := Ideal) e g (ix2 p q) = e (ix2 p q) * Ideal.div 1 (∑ d : Fin 16, g (ix3 d (0 : Fin 1) p)) := by
  unfold k0_pay3
  refine (mulf_apply _ _ _).trans ?_
  refine congrArg (e (ix2 p q) * ·) ?_
  refine (broadcastTo_apply _ broadcasts_S2048x1_S2048x1024 (ix2 p q) (ix2 p (0 : Fin 1)) ?_).trans ?_
  · intro a
    match a with
    | ⟨0, _⟩ => rfl
    | ⟨1, _⟩ => rfl
  refine (transpose_ix2_apply _ transposes_S1x2048_p1_0_S2048x1 p (0 : Fin 1)).trans ?_
  refine (divf_apply _ _ _).trans ?_
  refine congrArg₂ Ideal.div ofBits_one_f32 ?_
  refine (shapeCast_a_1a_apply _ shapeCasts_S2048_S1x2048 (0 : Fin 1) p).trans ?_
  refine (stacksum_apply _ p).trans ?_
  refine Finset.sum_congr rfl fun d _ => ?_
  refine shapeCast_apply _ shapeCasts_S16x1x2048_S16x2048 (ix2 d p) (ix3 d (0 : Fin 1) p) ?_
  rw [Shape.rowMajor_val_three, Shape.rowMajor_val_two]
  show (d.val * 1 + 0) * 2048 + p.val = d.val * 2048 + p.val
  omega

/-! ## Sixteen blocks of 1024 columns are the 16384 columns -/

/-- A sum over all 16384 columns, grouped by block: the pair (block, column in the block) runs over the columns once. -/
theorem sum_blocks (f : Fin 16384 → EReal) :
    ∑ d : Fin 16, ∑ k : Fin 1024, f (col d k) = ∑ J : Fin 16384, f J := by
  rw [← Fintype.sum_prod_type (f := fun x : Fin 16 × Fin 1024 => f (col x.1 x.2))]
  refine Fintype.sum_equiv (finProdFinEquiv (m := 16) (n := 1024)) _ _ fun x => congrArg f (Fin.ext ?_)
  show x.1.val * 1024 + x.2.val = x.2.val + 1024 * x.1.val
  omega

/-! ## The result block -/

/-- Entry `(p, q)` of device `c`'s result block is `G X` at row `p`, column `1024 · c + q`. -/
theorem outBlk_apply (m : (ℓ : Loc nD τ sig) → Buf (Elt Ideal) ℓ) (X : (⟨2, ![2048, 16384]⟩ : Shape).Idx → EReal)
    (hblk : ∀ c : Dev nD, m ((c.tc : Thread nD τ).loc main_arg0)
        = Layout.block ⟨2, ![2048, 1024]⟩ ⟨2, ![2048, 16384]⟩ 1 16 c X)
    (c : Dev nD) (p : Fin 2048) (q : Fin 1024) :
    outBlk (F := Ideal) m c (ix2 p q) = Cert.Softmax.G X (ix2 p (col c q)) := by
  have hx : ∀ (d : Dev nD) (p : Fin 2048) (k : Fin 1024), xblk (F := Ideal) m d (ix2 p k) = X (ix2 p (col d k)) :=
    fun d p k => (xblk_apply m d p k).trans ((congrFun (hblk d) (ix2 p k)).trans (block_apply2 d X p k))
  unfold outBlk
  refine (pay3_apply (expBlk m c) (gathered m) p q).trans ?_
  show expBlk (F := Ideal) m c (ix2 p q) * Ideal.div 1 (∑ d : Fin 16, partSums (F := Ideal) m d (ix2 (0 : Fin 1) p))
    = Ideal.exp (X (ix2 p (col c q))) * Ideal.div 1 (Cert.Softmax.rowSum X p)
  refine congrArg₂ (fun a s => a * Ideal.div 1 s) ?_ ?_
  · exact (pay1_apply (xblk m c) p q).trans (congrArg Ideal.exp (hx c p q))
  · refine Eq.trans ?_ (sum_blocks fun J => Ideal.exp (X (ix2 p J)))
    refine Finset.sum_congr rfl fun d _ => ?_
    refine (pay2_apply (xblk m d) (0 : Fin 1) p).trans ?_
    exact Finset.sum_congr rfl fun k _ => congrArg Ideal.exp (hx d p k)

end AtAnIndex

/-- When every device's argument block is its block of the whole matrix `X`, device `c`'s result block is
    block `c` of `G X`. -/
theorem outBlk_eq (m : (ℓ : Loc Cert.KernelIdeal.nD Cert.KernelIdeal.τ Cert.KernelIdeal.sig) → Buf (Elt Ideal) ℓ)
    (X : (⟨2, ![2048, 16384]⟩ : Shape).Idx → EReal)
    (hblk : ∀ c : Dev Cert.KernelIdeal.nD,
      m ((c.tc : Thread Cert.KernelIdeal.nD Cert.KernelIdeal.τ).loc Cert.KernelIdeal.main_arg0)
        = Layout.block ⟨2, ![2048, 1024]⟩ ⟨2, ![2048, 16384]⟩ 1 16 c X)
    (c : Dev Cert.KernelIdeal.nD) :
    Cert.KernelIdeal.Spec.outBlk (F := Ideal) m c
      = Layout.block ⟨2, ![2048, 1024]⟩ ⟨2, ![2048, 16384]⟩ 1 16 c (Cert.Softmax.G X) := by
  funext j
  obtain ⟨p, q, rfl⟩ : ∃ (p : Fin 2048) (q : Fin 1024), j = ValueIdx.ix2 p q := ⟨j 0, j 1, ValueIdx.eq_ix2 j⟩
  exact (outBlk_apply m X hblk c p q).trans (block_apply2 c (Cert.Softmax.G X) p q).symm

end Cert.KernelValue

end
-- ==== Proof.RefRun.lean ====
import proofs.«901061_g7700000000001062_dist_softmax_colshard_i_m2048_n1024_v7x_i16_f32_1_alg».proof.Defs
import proofs.«901061_g7700000000001062_dist_softmax_colshard_i_m2048_n1024_v7x_i16_f32_1_alg».proof.Proof.Gen.ReferenceIdeal
import proofs.«901061_g7700000000001062_dist_softmax_colshard_i_m2048_n1024_v7x_i16_f32_1_alg».proof.Proof.Gen.ReferenceIdeal.Run
import proofs.«901061_g7700000000001062_dist_softmax_colshard_i_m2048_n1024_v7x_i16_f32_1_alg».proof.Proof.Gen.ReferenceIdeal.Read

/-! The reference program's run and its stages read at an index are imported here for the modules that compare it
with the kernel's value. -/
-- ==== Proof.RefValue.lean ====
import proofs.«901061_g7700000000001062_dist_softmax_colshard_i_m2048_n1024_v7x_i16_f32_1_alg».proof.Defs
import proofs.«901061_g7700000000001062_dist_softmax_colshard_i_m2048_n1024_v7x_i16_f32_1_alg».proof.Proof.RefRun
import proofs.«901061_g7700000000001062_dist_softmax_colshard_i_m2048_n1024_v7x_i16_f32_1_alg».proof.Proof.Softmax
import Idealize.ShloMosaic.Lib.Layout
import Idealize.ShloMosaic.Lib.ReduceAll
import Idealize.ShloMosaic.Lib.ValueIdx
import Idealize.ShloMosaic.PureOps.Ideal.Laws
import Idealize.ShloMosaic.PureOps.Reduce

noncomputable section

namespace Cert.RefValue

open Idealize.ShloMosaic Idealize.ShloMosaic.TcCoe Idealize.SL.Sem
open Idealize.ShloMosaic.ValueIdx
open Cert.ReferenceIdeal Cert.ReferenceIdeal.Gen Cert.ReferenceIdeal.Read

/-! ## Sums and maxima of finite families of reals, inside the extended reals -/

/-- A finite sum of reals, taken in the extended reals, is the real sum. -/
theorem coe_sum {ι : Type} (s : Finset ι) (g : ι → ℝ) :
    ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- Starting from `⊥`, the maximum over a nonempty finite family of reals is a real: it lies strictly between
    `⊥` (some member is above it) and `⊤` (every member is below it). -/
theorem fold_max_real {ι : Type} (s : Finset ι) (hs : s.Nonempty) (g : ι → ℝ) :
    ∃ M : ℝ, s.fold max (⊥ : EReal) (fun k => ((g k : ℝ) : EReal)) = (M : EReal) := by
  have hlt : s.fold max (⊥ : EReal) (fun k => ((g k : ℝ) : EReal)) < ⊤ :=
    (Finset.fold_max_lt _).2 ⟨bot_lt_top, fun k _ => EReal.coe_lt_top _⟩
  have hgt : ⊥ < s.fold max (⊥ : EReal) (fun k => ((g k : ℝ) : EReal)) := by
    obtain ⟨k, hk⟩ := hs
    exact (Finset.lt_fold_max _).2 (Or.inr ⟨k, hk, EReal.bot_lt_coe _⟩)
  exact ⟨_, (EReal.coe_toReal hlt.ne hgt.ne').symm⟩

/-! ## The reference's stages at a row `p` and a column `J` -/

/-- Row `p` with column `k` put back on the reduced axis is the entry `(p, k)`. -/
theorem lift_ix1 (h : S2048x16384.Reduces [1] S2048) (p : Fin 2048) (k : Fin (S2048x16384.size 1)) :
    h.lift (ix1 p) k = ix2 p (⟨k.val, k.isLt⟩ : Fin 16384) := by
  funext c; apply Fin.ext
  fin_cases c <;> rfl

/-- On a matrix of reals the row maximum the reference takes (a fold of `max` from `-∞` over the 16384 columns)
    is a real. -/
theorem v0_real (f : S2048x16384.Idx → ℝ) (p : Fin 2048) :
    ∃ M : ℝ, val_main_v0 (F := Ideal) (fun i => ((f i : ℝ) : EReal)) (ix1 p) = (M : EReal) := by
  have h : S2048x16384.Reduces [1] S2048 := by decide
  unfold val_main_v0
  rw [Host.reduce_eq_fold_single FloatOps.maximumf _ _ reducesTo_S2048x16384_S2048_d1 h h_S_]
  have hb : val_main_cst (F := Ideal) (Shape.Idx.first h_S_) = ⊥ := by
    rw [val_main_cst_apply]; simp [Ideal.ofBits, Ideal.ieee]
  rw [hb]
  have hf : ((fun i => ((f i : ℝ) : EReal)) ∘ h.lift (ix1 p))
      = fun k : Fin 16384 => ((f (ix2 p k) : ℝ) : EReal) :=
    funext fun k => by simp only [Function.comp]; rw [lift_ix1]; rfl
  rw [hf]
  exact fold_max_real (Finset.univ : Finset (Fin 16384)) ⟨⟨0, by decide⟩, Finset.mem_univ _⟩ _

/-- The exponential stage at `(p, J)`: `exp` of the entry minus the maximum of row `p`. -/
theorem v4_at (X : S2048x16384.Idx → EReal) (p : Fin 2048) (J : Fin 16384) :
    val_main_v4 (F := Ideal) X (ix2 p J) = Ideal.exp (X (ix2 p J) - val_main_v0 (F := Ideal) X (ix1 p)) := by
  rw [val_main_v4_apply, val_main_v3_apply, val_main_v2_apply, val_main_v1_apply]
  have e : idx_main_v1 (idx_main_v2 (ix2 p J)) = ix1 p := by
    funext a; match a with | ⟨0, _⟩ => rfl
  rw [e]
  rfl

/-- The broadcast row sum at `(p, J)`: zero plus the sum over the columns `k` of the exponential stage at `(p, k)`. -/
theorem v7_at (X : S2048x16384.Idx → EReal) (p : Fin 2048) (J : Fin 16384) :
    val_main_v7 (F := Ideal) X (ix2 p J) = 0 + ∑ k : Fin 16384, val_main_v4 (F := Ideal) X (ix2 p k) := by
  rw [val_main_v7_apply, val_main_v6_apply, val_main_v5_apply, val_main_cst_0_apply]
  have e0 : (FloatOps.ofBits (F := Ideal) .f32 0x00000000#32) = 0 := Ideal.ofBits_zero_f32
  rw [e0]
  refine congrArg (0 + ·) (Finset.sum_congr rfl fun k _ => ?_)
  refine congrArg (val_main_v4 (F := Ideal) X) ?_
  funext a; match a with | ⟨0, _⟩ => rfl | ⟨1, _⟩ => rfl

/-! ## The reference is `G` on finite matrices -/

/-- The real identity behind the max shift: for any real `M`,
    `exp (a J - M) / Σ_k exp (a k - M) = exp (a J) / Σ_k exp (a k)` (the factor `exp (-M)` cancels; both sums are
    positive). -/
theorem shift_cancel (a : Fin 16384 → ℝ) (M : ℝ) (J : Fin 16384) :
    Real.exp (a J - M) * (1 / ∑ k, Real.exp (a k - M)) = Real.exp (a J) * (1 / ∑ k, Real.exp (a k)) := by
  have hS : 0 < ∑ k, Real.exp (a k) :=
    Finset.sum_pos (fun k _ => Real.exp_pos _) ⟨⟨0, by decide⟩, Finset.mem_univ _⟩
  have hk : ∀ k, Real.exp (a k - M) = Real.exp (a k) * Real.exp (-M) := fun k => by
    rw [sub_eq_add_neg, Real.exp_add]
  simp only [hk, ← Finset.sum_mul]
  have hM : Real.exp (-M) ≠ 0 := (Real.exp_pos _).ne'
  field_simp

/-- On a matrix of finite entries the reference's result (the generated stage `val_main_v8`: the softmax with the
    row maximum subtracted first) is `G X`. -/
theorem ref_eq (X : (⟨2, ![2048, 16384]⟩ : Shape).Idx → EReal) (hfin : ∀ i, ∃ r : ℝ, X i = (r : EReal)) :
    Cert.ReferenceIdeal.Read.val_main_v8 (F := Ideal) X = Cert.Softmax.G X := by
  choose f hf using hfin
  obtain rfl : X = fun i => ((f i : ℝ) : EReal) := funext hf
  funext i
  obtain ⟨p, J, rfl⟩ : ∃ (p : Fin 2048) (J : Fin 16384), i = ix2 p J := ⟨i 0, i 1, eq_ix2 i⟩
  obtain ⟨M, hM⟩ := v0_real f p
  -- the two sums, over the reals
  have hS : 0 < ∑ k : Fin 16384, Real.exp (f (ix2 p k)) :=
    Finset.sum_pos (fun k _ => Real.exp_pos _) ⟨⟨0, by decide⟩, Finset.mem_univ _⟩
  have hS' : 0 < ∑ k : Fin 16384, Real.exp (f (ix2 p k) - M) :=
    Finset.sum_pos (fun k _ => Real.exp_pos _) ⟨⟨0, by decide⟩, Finset.mem_univ _⟩
  -- the reference's side
  have h4 : ∀ k : Fin 16384, val_main_v4 (F := Ideal) (fun i => ((f i : ℝ) : EReal)) (ix2 p k)
      = ((Real.exp (f (ix2 p k) - M) : ℝ) : EReal) := fun k => by
    rw [v4_at, hM, ← EReal.coe_sub, Ideal.exp_coe]
  have hL : val_main_v8 (F := Ideal) (fun i => ((f i : ℝ) : EReal)) (ix2 p J)
      = ((Real.exp (f (ix2 p J) - M) * (1 / ∑ k : Fin 16384, Real.exp (f (ix2 p k) - M)) : ℝ) : EReal) := by
    rw [val_main_v8_apply, Ideal.hostDivf_def, v7_at, zero_add]
    simp only [h4]
    rw [coe_sum, Ideal.div_coe hS'.ne', ← EReal.coe_mul]
  -- the specification's side
  have hR : Cert.Softmax.G (fun i => ((f i : ℝ) : EReal)) (ix2 p J)
      = ((Real.exp (f (ix2 p J)) * (1 / ∑ k : Fin 16384, Real.exp (f (ix2 p k))) : ℝ) : EReal) := by
    show Ideal.exp ((f (ix2 p J) : ℝ) : EReal) * Ideal.div 1 (∑ k : Fin 16384, Ideal.exp ((f (ix2 p k) : ℝ) : EReal)) = _
    simp only [Ideal.exp_coe]
    rw [coe_sum, Ideal.div_coe hS.ne', one_mul, ← EReal.coe_mul]
  rw [hL, hR, shift_cancel (fun k => f (ix2 p k)) M J]

/-! ## Finiteness of the whole matrix from the precondition on every block -/

/-- A block of which the printed predicate (`|x| < +∞` at every entry, reduced by `and`) is all ones has only real
    entries: an entry `⊥` or `⊤` has absolute value `⊤`, which is not below `⊤`. -/
theorem block_finite [Cert.Pre_finite_inputs_Kernel.Facts]
    (b : (⟨2, ![2048, 1024]⟩ : Shape).Idx → EReal)
    (h : Cert.Pre_finite_inputs_Kernel.fn (F := Ideal) b = fun _ => 1#1)
    (i : (⟨2, ![2048, 1024]⟩ : Shape).Idx) : ∃ r : ℝ, b i = (r : EReal) := by
  have h0 := congrFun h ix0
  dsimp only [Cert.Pre_finite_inputs_Kernel.fn] at h0
  haveI : Subsingleton Cert.Pre_finite_inputs_Kernel.S_.Idx := ⟨fun a b => funext fun d => d.elim0⟩
  have hi := Host.reduce_andi_all _ _ _ _ _ h0 i
  have hi' : Ideal.cmp .olt (max (b i) (-(b i))) (Ideal.ofBits .f32 0x7F800000#32) = 1#1 := hi
  have htop : Ideal.ofBits .f32 0x7F800000#32 = ⊤ := by simp [Ideal.ofBits, Ideal.ieee]
  rw [htop] at hi'
  induction hx : b i using EReal.rec with
  | bot => rw [hx] at hi'; simp [Ideal.cmp] at hi'
  | top => rw [hx] at hi'; simp [Ideal.cmp] at hi'
  | coe r => exact ⟨r, rfl⟩

/-- Entry `(p, J)` of the whole matrix is entry `(p, J mod 1024)` of block `J / 1024` of its sixteen column blocks. -/
theorem idx_cover (h : Layout.Tiles ⟨2, ![2048, 1024]⟩ ⟨2, ![2048, 16384]⟩ 1 16) (p : Fin 2048) (J : Fin 16384) :
    h.idx (⟨J.val / 1024, by have := J.isLt; omega⟩ : Fin 16)
        (ix2 p (⟨J.val % 1024, Nat.mod_lt _ (by decide)⟩ : Fin 1024)) = ix2 p J := by
  funext a; apply Fin.ext
  match a with
  | ⟨0, _⟩ => exact (Layout.idx_cols_val h _ _).1
  | ⟨1, _⟩ =>
    refine ((Layout.idx_cols_val h _ _).2).trans ?_
    show J.val / 1024 * 1024 + J.val % 1024 = J.val
    omega

/-- The precondition on every device's block makes every entry of the whole matrix finite. -/
theorem finite_of_pre [hP : Cert.Pre_finite_inputs_Kernel.Facts]
    (m : (ℓ : Loc Cert.KernelIdeal.nD Cert.KernelIdeal.τ Cert.KernelIdeal.sig) → Buf (Elt Ideal) ℓ)
    (X : (⟨2, ![2048, 16384]⟩ : Shape).Idx → EReal)
    (hblk : ∀ c : Dev Cert.KernelIdeal.nD,
      m ((c.tc : Thread Cert.KernelIdeal.nD Cert.KernelIdeal.τ).loc Cert.KernelIdeal.main_arg0)
        = Layout.block ⟨2, ![2048, 1024]⟩ ⟨2, ![2048, 16384]⟩ 1 16 c X)
    (hpre : Cert.Pre_KernelIdeal m) :
    ∀ i, ∃ r : ℝ, X i = (r : EReal) := by
  intro i
  obtain ⟨p, J, rfl⟩ : ∃ (p : Fin 2048) (J : Fin 16384), i = ix2 p J := ⟨i 0, i 1, eq_ix2 i⟩
  have hc := hpre (⟨J.val / 1024, by have := J.isLt; omega⟩ : Fin 16)
  rw [hblk] at hc
  have hfin := block_finite _ hc (ix2 p (⟨J.val % 1024, Nat.mod_lt _ (by decide)⟩ : Fin 1024))
  rw [Layout.block_apply, idx_cover] at hfin
  exact hfin

end Cert.RefValue

end
-- ==== Proof.lean ====
/-
  The proof of `Cert.Claim`: the row-wise softmax of a 2048 × 16384 matrix, `exp x` divided row by row by the
  row's sum of `exp x`, computed by sixteen devices that each hold 1024 columns.

  Each device forms `exp` of its block and the sums of its own columns, row by row; the devices exchange these
  partial row sums, every device adds the sixteen it holds, and scales its block of `exp x` by the reciprocals.
  The sum over sixteen blocks of 1024 columns is the sum over all 16384 columns, so device `c` ends with block `c`
  of `G X`, `G X (p, J) = exp X(p, J) · (1 / Σ_J' exp X(p, J'))`, on every matrix of extended reals.

  The reference subtracts each row's maximum before the exponential. On a matrix of finite entries that maximum
  is a real `M`, the factor `exp (-M)` leaves numerator and divisor alike, both row sums are positive reals, and
  the quotient is `G X` as well. The precondition makes every entry of every block, hence of the whole matrix,
  finite; so the two programs end with the same array over the extended reals, the kernel's devices each with
  their block of it.

  The three frame claims are the programs' runs with the results forgotten; the idealization rewrote nothing.
-/
import proofs.«901061_g7700000000001062_dist_softmax_colshard_i_m2048_n1024_v7x_i16_f32_1_alg».proof.Defs
import proofs.«901061_g7700000000001062_dist_softmax_colshard_i_m2048_n1024_v7x_i16_f32_1_alg».proof.Proof.Gen.Kernel
import proofs.«901061_g7700000000001062_dist_softmax_colshard_i_m2048_n1024_v7x_i16_f32_1_alg».proof.Proof.Gen.Kernel.Skeleton
import proofs.«901061_g7700000000001062_dist_softmax_colshard_i_m2048_n1024_v7x_i16_f32_1_alg».proof.Proof.Gen.Kernel.Launch
import proofs.«901061_g7700000000001062_dist_softmax_colshard_i_m2048_n1024_v7x_i16_f32_1_alg».proof.Proof.Gen.Kernel.Points
import proofs.«901061_g7700000000001062_dist_softmax_colshard_i_m2048_n1024_v7x_i16_f32_1_alg».proof.Proof.Gen.Kernel.Frame
import proofs.«901061_g7700000000001062_dist_softmax_colshard_i_m2048_n1024_v7x_i16_f32_1_alg».proof.Proof.Gen.KernelIdeal
import proofs.«901061_g7700000000001062_dist_softmax_colshard_i_m2048_n1024_v7x_i16_f32_1_alg».proof.Proof.Gen.KernelIdeal.Skeleton
import proofs.«901061_g7700000000001062_dist_softmax_colshard_i_m2048_n1024_v7x_i16_f32_1_alg».proof.Proof.Gen.KernelIdeal.Launch
import proofs.«901061_g7700000000001062_dist_softmax_colshard_i_m2048_n1024_v7x_i16_f32_1_alg».proof.Proof.Gen.KernelIdeal.Points
import proofs.«901061_g7700000000001062_dist_softmax_colshard_i_m2048_n1024_v7x_i16_f32_1_alg».proof.Proof.Gen.KernelIdeal.Frame
import proofs.«901061_g7700000000001062_dist_softmax_colshard_i_m2048_n1024_v7x_i16_f32_1_alg».proof.Proof.Gen.ReferenceIdeal
import proofs.«901061_g7700000000001062_dist_softmax_colshard_i_m2048_n1024_v7x_i16_f32_1_alg».proof.Proof.Gen.Pre_finite_inputs_Kernel
import proofs.«901061_g7700000000001062_dist_softmax_colshard_i_m2048_n1024_v7x_i16_f32_1_alg».proof.Proof.Gen.Pre_finite_inputs_ReferenceIdeal
import Idealize.ShloMosaic.Adequacy
import Idealize.ShloMosaic.Init
import proofs.«901061_g7700000000001062_dist_softmax_colshard_i_m2048_n1024_v7x_i16_f32_1_alg».proof.Proof.Kernel.Launch
import proofs.«901061_g7700000000001062_dist_softmax_colshard_i_m2048_n1024_v7x_i16_f32_1_alg».proof.Proof.KernelIdeal.Launch
import proofs.«901061_g7700000000001062_dist_softmax_colshard_i_m2048_n1024_v7x_i16_f32_1_alg».proof.Proof.KernelValue
import proofs.«901061_g7700000000001062_dist_softmax_colshard_i_m2048_n1024_v7x_i16_f32_1_alg».proof.Proof.RefValue

noncomputable section

namespace Cert.Proof

open Idealize.ShloMosaic Idealize.SL.Sem Cert.Kernel

/-- The kernel runs and leaves each device's argument block as it was: its run, the result forgotten. -/
theorem frame_kernel : Cert.frame_Kernel := fun m ρ _ =>
  (θ_run Cert.Kernel.defs _ _).mono (fun _ h c => (h c).2) (Cert.KernelProof.run_main (F := Bits) m ρ)

/-- The same of the kernel over the extended reals. -/
theorem frame_kernelIdeal : Cert.frame_KernelIdeal := fun m ρ _ =>
  (θ_run Cert.KernelIdeal.defs _ _).mono (fun _ h c => (h c).2) (Cert.KernelIdealProof.run_main (F := Ideal) m ρ)

/-- The reference runs and leaves the matrix as it was: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- From memories where device `c` holds block `c` of the reference's matrix `X`, all entries finite: the reference
    ends with its max-shifted softmax of `X`, which on finite entries is `G X`; device `c` ends with block `c` of
    `G X`; so each device holds its block of the reference's result. -/
theorem algebraic : Cert.algebraic_KernelIdeal_ReferenceIdeal := by
  intro m ρ m' ρ' hpre hagree
  have hfin := Cert.RefValue.finite_of_pre m _ hagree hpre
  refine ⟨Cert.ReferenceIdeal.Read.val_main_v8 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩)
      (Cert.KernelIdealProof.run_main (F := Ideal) m ρ)
    exact (Cert.KernelValue.outBlk_eq m _ hagree c).trans
      (congrArg (fun v => Layout.block ⟨2, ![2048, 1024]⟩ ⟨2, ![2048, 16384]⟩ 1 16 c v) (Cert.RefValue.ref_eq _ hfin).symm)
  · exact (θ_run Cert.ReferenceIdeal.defs _ _).mono
      (fun _ h => ⟨(h 0).1.trans (Cert.ReferenceIdeal.Read.val_main_v8_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, frame_reference, preserves, algebraic⟩

end Cert.Proof

end
